-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x576x1024 : Shape := ⟨3, ![4, 576, 1024]⟩
abbrev S4x128 : Shape := ⟨2, ![4, 128]⟩
abbrev S4x320 : Shape := ⟨2, ![4, 320]⟩
abbrev S4096x1024 : Shape := ⟨2, ![4096, 1024]⟩
abbrev S4096 : Shape := ⟨1, ![4096]⟩
abbrev S32000x4096 : Shape := ⟨2, ![32000, 4096]⟩
abbrev S32000 : Shape := ⟨1, ![32000]⟩
abbrev S_ : Shape := ⟨0, ![]⟩

class Facts : Prop where
  bcast_S_S4x576x1024 : S_.BroadcastsInDim S4x576x1024 (![] : Fin 0 → Fin S4x576x1024.rank)
  reducesTo_S4x576x1024_S_d0_1_2 : S4x576x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S32000x4096 : S_.BroadcastsInDim S32000x4096 (![] : Fin 0 → Fin S32000x4096.rank)
  reducesTo_S32000x4096_S_d0_1 : S32000x4096.ReducesTo [0, 1] S_
  bcast_S_S32000 : S_.BroadcastsInDim S32000 (![] : Fin 0 → Fin S32000.rank)
  reducesTo_S32000_S_d0 : S32000.ReducesTo [0] S_
  bcast_S_S4x128 : S_.BroadcastsInDim S4x128 (![] : Fin 0 → Fin S4x128.rank)
  reducesTo_S4x128_S_d0_1 : S4x128.ReducesTo [0, 1] S_
  bcast_S_S4x320 : S_.BroadcastsInDim S4x320 (![] : Fin 0 → Fin S4x320.rank)
  reducesTo_S4x320_S_d0_1 : S4x320.ReducesTo [0, 1] S_

variable [Facts]

def fn_part2 {F : FTy → Type} [FloatOps F] (main_arg2 : IVec S4x320 32) (main_v28 : IVec S_ 1) (main_v33 : IVec S4x128 1) : IVec S_ 1 :=
  let main_c_12 : IVec S_ 1 := constantI S_ 1 1#1
  let main_v34 : IVec S_ 1 := (fun x v => Host.reduce IntOp.andi x v reducesTo_S4x128_S_d0_1 h_S_) main_v33 main_c_12
  let main_v35 : IVec S_ 1 := andi main_v28 main_v34
  let main_c_13 : IVec S_ 32 := constantI S_ 32 0#32
  let main_v36 : IVec S4x320 32 := broadcastInDim S4x320 ![] bcast_S_S4x320 main_c_13
  let main_v37 : IVec S4x320 1 := cmpi .sge main_arg2 main_v36
  let main_c_14 : IVec S_ 32 := constantI S_ 32 32000#32
  let main_v38 : IVec S4x320 32 := broadcastInDim S4x320 ![] bcast_S_S4x320 main_c_14
  let main_v39 : IVec S4x320 1 := cmpi .slt main_arg2 main_v38
  let main_v40 : IVec S4x320 1 := andi main_v37 main_v39
  let main_c_15 : IVec S_ 1 := constantI S_ 1 1#1
  let main_v41 : IVec S_ 1 := (fun x v => Host.reduce IntOp.andi x v reducesTo_S4x320_S_d0_1 h_S_) main_v40 main_c_15
  let main_v42 : IVec S_ 1 := andi main_v35 main_v41
  main_v42

def fn_part1 {F : FTy → Type} [FloatOps F] (main_arg1 : IVec S4x128 32) (main_arg2 : IVec S4x320 32) (main_arg6 : FVec F S32000x4096 .f32) (main_arg7 : FVec F S32000 .f32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_v19 : FVec F S32000x4096 .f32 := Host.absf main_arg6
  let main_cst_6 : FVec F S_ .f32 := constant S_ .f32 0x7F800000#32
  let main_v20 : FVec F S32000x4096 .f32 := broadcastInDim S32000x4096 ![] bcast_S_S32000x4096 main_cst_6
  let main_v21 : IVec S32000x4096 1 := cmpf .olt main_v19 main_v20
  let main_c_7 : IVec S_ 1 := constantI S_ 1 1#1
  let main_v22 : IVec S_ 1 := (fun x v => Host.reduce IntOp.andi x v reducesTo_S32000x4096_S_d0_1 h_S_) main_v21 main_c_7
  let main_v23 : IVec S_ 1 := andi main_v18 main_v22
  let main_v24 : FVec F S32000 .f32 := Host.absf main_arg7
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_c_10 : IVec S_ 32 := constantI S_ 32 0#32
  let main_v29 : IVec S4x128 32 := broadcastInDim S4x128 ![] bcast_S_S4x128 main_c_10
  let main_v30 : IVec S4x128 1 := cmpi .sge main_arg1 main_v29
  let main_c_11 : IVec S_ 32 := constantI S_ 32 32000#32
  let main_v31 : IVec S4x128 32 := broadcastInDim S4x128 ![] bcast_S_S4x128 main_c_11
  let main_v32 : IVec S4x128 1 := cmpi .slt main_arg1 main_v31
  let main_v33 : IVec S4x128 1 := andi main_v30 main_v32
  fn_part2 (F := F) main_arg2 main_v28 main_v33

def fn {F : FTy → Type} [FloatOps F] (main_arg0 : FVec F S4x576x1024 .f32) (main_arg1 : IVec S4x128 32) (main_arg2 : IVec S4x320 32) (main_arg3 : FVec F S4096x1024 .f32) (main_arg4 : FVec F S4096 .f32) (main_arg5 : FVec F S32000x4096 .f32) (main_arg6 : FVec F S32000x4096 .f32) (main_arg7 : FVec F S32000 .f32) : IVec S_ 1 :=
  let main_v0 : FVec F S4x576x1024 .f32 := Host.absf main_arg0
  let main_cst : FVec F S_ .f32 := constant S_ .f32 0x7F800000#32
  let main_v1 : FVec F S4x576x1024 .f32 := broadcastInDim S4x576x1024 ![] bcast_S_S4x576x1024 main_cst
  let main_v2 : IVec S4x576x1024 1 := cmpf .olt main_v0 main_v1
  let main_c : IVec S_ 1 := constantI S_ 1 1#1
  let main_v3 : IVec S_ 1 := (fun x v => Host.reduce IntOp.andi x v reducesTo_S4x576x1024_S_d0_1_2 h_S_) main_v2 main_c
  let main_v4 : FVec F S4096x1024 .f32 := Host.absf main_arg3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32000x4096 .f32 := Host.absf main_arg5
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg1 main_arg2 main_arg6 main_arg7 main_v13 main_v16
-- ==== Kernel.lean ====
abbrev S4x576x1024 : Shape := ⟨3, ![4, 576, 1024]⟩
abbrev S4x128 : Shape := ⟨2, ![4, 128]⟩
abbrev S4x320 : Shape := ⟨2, ![4, 320]⟩
abbrev S4096x1024 : Shape := ⟨2, ![4096, 1024]⟩
abbrev S4096 : Shape := ⟨1, ![4096]⟩
abbrev S32000x4096 : Shape := ⟨2, ![32000, 4096]⟩
abbrev S32000 : Shape := ⟨1, ![32000]⟩
abbrev S2304x1024 : Shape := ⟨2, ![2304, 1024]⟩
abbrev S1x4096 : Shape := ⟨2, ![1, 4096]⟩
abbrev S2304x4096 : Shape := ⟨2, ![2304, 4096]⟩
abbrev S256x1024 : Shape := ⟨2, ![256, 1024]⟩
abbrev S256x4096 : Shape := ⟨2, ![256, 4096]⟩
abbrev S4x576x4096 : Shape := ⟨3, ![4, 576, 4096]⟩
abbrev S_ : Shape := ⟨0, ![]⟩
abbrev S4x128x1 : Shape := ⟨3, ![4, 128, 1]⟩
abbrev S1 : Shape := ⟨1, ![1]⟩
abbrev S1x1x1 : Shape := ⟨3, ![1, 1, 1]⟩
abbrev S4x128x4096 : Shape := ⟨3, ![4, 128, 4096]⟩
abbrev S4x320x1 : Shape := ⟨3, ![4, 320, 1]⟩
abbrev S4x320x4096 : Shape := ⟨3, ![4, 320, 4096]⟩
abbrev S4x1024x4096 : Shape := ⟨3, ![4, 1024, 4096]⟩
abbrev S4096x4096 : Shape := ⟨2, ![4096, 4096]⟩
abbrev S4x704 : Shape := ⟨2, ![4, 704]⟩
abbrev S4x1024 : Shape := ⟨2, ![4, 1024]⟩
abbrev S4x1023 : Shape := ⟨2, ![4, 1023]⟩
abbrev S4x1 : Shape := ⟨2, ![4, 1]⟩
abbrev S4096x1 : Shape := ⟨2, ![4096, 1]⟩
abbrev S1x32000 : Shape := ⟨2, ![1, 32000]⟩
abbrev S4096x32000 : Shape := ⟨2, ![4096, 32000]⟩
abbrev S1024x4096 : Shape := ⟨2, ![1024, 4096]⟩
abbrev S1x256 : Shape := ⟨2, ![1, 256]⟩
abbrev S1024x1 : Shape := ⟨2, ![1024, 1]⟩
abbrev S1024x256 : Shape := ⟨2, ![1024, 256]⟩
abbrev S1024 : Shape := ⟨1, ![1024]⟩
abbrev S4x1024x32000 : Shape := ⟨3, ![4, 1024, 32000]⟩

abbrev nBuf : Space → Nat
  | .hbm => 84
  | .vmem => 23
  | .smem => 0
  | _ => 0

abbrev bufTy : (tb : Table) → Fin (tcTables nBuf tb) → BufTy
  | .hbm, ⟨0, _⟩ => ⟨S4x576x1024, .f32⟩
  | .hbm, ⟨1, _⟩ => ⟨S4x128, .i32⟩
  | .hbm, ⟨2, _⟩ => ⟨S4x320, .i32⟩
  | .hbm, ⟨3, _⟩ => ⟨S4096x1024, .f32⟩
  | .hbm, ⟨4, _⟩ => ⟨S4096, .f32⟩
  | .hbm, ⟨5, _⟩ => ⟨S32000x4096, .f32⟩
  | .hbm, ⟨6, _⟩ => ⟨S32000x4096, .f32⟩
  | .hbm, ⟨7, _⟩ => ⟨S32000, .f32⟩
  | .hbm, ⟨8, _⟩ => ⟨S2304x1024, .f32⟩
  | .hbm, ⟨9, _⟩ => ⟨S2304x1024, .bf16⟩
  | .hbm, ⟨10, _⟩ => ⟨S4096x1024, .bf16⟩
  | .hbm, ⟨11, _⟩ => ⟨S1x4096, .f32⟩
  | .hbm, ⟨12, _⟩ => ⟨S2304x4096, .f32⟩
  | .hbm, ⟨13, _⟩ => ⟨S4x576x4096, .f32⟩
  | .hbm, ⟨14, _⟩ => ⟨S_, .i32⟩
  | .hbm, ⟨15, _⟩ => ⟨S4x128, .i32⟩
  | .hbm, ⟨16, _⟩ => ⟨S4x128, .i1⟩
  | .hbm, ⟨17, _⟩ => ⟨S_, .i32⟩
  | .hbm, ⟨18, _⟩ => ⟨S4x128, .i32⟩
  | .hbm, ⟨19, _⟩ => ⟨S4x128, .i32⟩
  | .hbm, ⟨20, _⟩ => ⟨S4x128, .i32⟩
  | .hbm, ⟨21, _⟩ => ⟨S4x128x1, .i32⟩
  | .hbm, ⟨22, _⟩ => ⟨S1, .i32⟩
  | .hbm, ⟨23, _⟩ => ⟨S_, .i32⟩
  | .hbm, ⟨24, _⟩ => ⟨S4x128x1, .i32⟩
  | .hbm, ⟨25, _⟩ => ⟨S4x128x1, .i1⟩
  | .hbm, ⟨26, _⟩ => ⟨S1x1x1, .i32⟩
  | .hbm, ⟨27, _⟩ => ⟨S4x128x1, .i32⟩
  | .hbm, ⟨28, _⟩ => ⟨S4x128x1, .i1⟩
  | .hbm, ⟨29, _⟩ => ⟨S4x128x1, .i1⟩
  | .hbm, ⟨30, _⟩ => ⟨S_, .i1⟩
  | .hbm, ⟨31, _⟩ => ⟨S4x128, .i1⟩
  | .hbm, ⟨32, _⟩ => ⟨S4x128x4096, .f32⟩
  | .hbm, ⟨33, _⟩ => ⟨S4x128x4096, .i1⟩
  | .hbm, ⟨34, _⟩ => ⟨S_, .f32⟩
  | .hbm, ⟨35, _⟩ => ⟨S4x128x4096, .f32⟩
  | .hbm, ⟨36, _⟩ => ⟨S4x128x4096, .f32⟩
  | .hbm, ⟨37, _⟩ => ⟨S_, .i32⟩
  | .hbm, ⟨38, _⟩ => ⟨S4x320, .i32⟩
  | .hbm, ⟨39, _⟩ => ⟨S4x320, .i1⟩
  | .hbm, ⟨40, _⟩ => ⟨S_, .i32⟩
  | .hbm, ⟨41, _⟩ => ⟨S4x320, .i32⟩
  | .hbm, ⟨42, _⟩ => ⟨S4x320, .i32⟩
  | .hbm, ⟨43, _⟩ => ⟨S4x320, .i32⟩
  | .hbm, ⟨44, _⟩ => ⟨S4x320x1, .i32⟩
  | .hbm, ⟨45, _⟩ => ⟨S1, .i32⟩
  | .hbm, ⟨46, _⟩ => ⟨S_, .i32⟩
  | .hbm, ⟨47, _⟩ => ⟨S4x320x1, .i32⟩
  | .hbm, ⟨48, _⟩ => ⟨S4x320x1, .i1⟩
  | .hbm, ⟨49, _⟩ => ⟨S1x1x1, .i32⟩
  | .hbm, ⟨50, _⟩ => ⟨S4x320x1, .i32⟩
  | .hbm, ⟨51, _⟩ => ⟨S4x320x1, .i1⟩
  | .hbm, ⟨52, _⟩ => ⟨S4x320x1, .i1⟩
  | .hbm, ⟨53, _⟩ => ⟨S_, .i1⟩
  | .hbm, ⟨54, _⟩ => ⟨S4x320, .i1⟩
  | .hbm, ⟨55, _⟩ => ⟨S4x320x4096, .f32⟩
  | .hbm, ⟨56, _⟩ => ⟨S4x320x4096, .i1⟩
  | .hbm, ⟨57, _⟩ => ⟨S_, .f32⟩
  | .hbm, ⟨58, _⟩ => ⟨S4x320x4096, .f32⟩
  | .hbm, ⟨59, _⟩ => ⟨S4x320x4096, .f32⟩
  | .hbm, ⟨60, _⟩ => ⟨S4x1024x4096, .f32⟩
  | .hbm, ⟨61, _⟩ => ⟨S4096x4096, .f32⟩
  | .hbm, ⟨62, _⟩ => ⟨S4096x4096, .bf16⟩
  | .hbm, ⟨63, _⟩ => ⟨S_, .i32⟩
  | .hbm, ⟨64, _⟩ => ⟨S4x704, .i32⟩
  | .hbm, ⟨65, _⟩ => ⟨S4x1024, .i32⟩
  | .hbm, ⟨66, _⟩ => ⟨S4x1023, .i32⟩
  | .hbm, ⟨67, _⟩ => ⟨S_, .i32⟩
  | .hbm, ⟨68, _⟩ => ⟨S4x1, .i32⟩
  | .hbm, ⟨69, _⟩ => ⟨S4x1024, .i32⟩
  | .hbm, ⟨70, _⟩ => ⟨S4096x1, .i32⟩
  | .hbm, ⟨71, _⟩ => ⟨S32000x4096, .bf16⟩
  | .hbm, ⟨72, _⟩ => ⟨S1x32000, .f32⟩
  | .hbm, ⟨73, _⟩ => ⟨S4096x32000, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4x1024x32000, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1024x4096, .bf16⟩
  | .local _ .vmem, ⟨7, _⟩ => ⟨S1024x4096, .bf16⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S1024x1, .i32⟩
  | .local _ .vmem, ⟨13, _⟩ => ⟨S1024x1, .i32⟩
  | .local _ .vmem, ⟨14, _⟩ => ⟨S1024x256, .f32⟩
  | .local _ .vmem, ⟨15, _⟩ => ⟨S1024x256, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | _, _ => ⟨S4x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v6 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_c : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_c_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19_0 : Ref sig .tc := ⟨.hbm, 73, rfl⟩
abbrev main_v19_1 : Ref sig .tc := ⟨.hbm, 74, rfl⟩
abbrev main_v19_2 : Ref sig .tc := ⟨.hbm, 75, rfl⟩
abbrev main_cst : Ref sig .tc := ⟨.hbm, 76, rfl⟩
abbrev main_v20 : Ref sig .tc := ⟨.hbm, 77, rfl⟩
abbrev main_cst_1 : Ref sig .tc := ⟨.hbm, 78, rfl⟩
abbrev main_v21 : Ref sig .tc := ⟨.hbm, 79, rfl⟩
abbrev main_cst_2 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 125], ![false, false]⟩

def k1_cond2 (i : grid1.Coords) : BitVec 1 :=
  let arg1 : BitVec 32 := BitVec.ofNat 32 (i 1).val
  let c124_i32 : BitVec 32 := 124#32
  let v51 : BitVec 1 := Scalar.cmpi .eq arg1 c124_i32
  let v52 : BitVec 32 := Scalar.extui v51
  let c0_i32_28 : BitVec 32 := 0#32
  let v53 : BitVec 1 := Scalar.cmpi .ne v52 c0_i32_28
  v53

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S4x576x1024_S2304x1024 : S4x576x1024.ShapeCasts S2304x1024
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S2304x4096_S4x576x4096 : S2304x4096.ShapeCasts S4x576x4096
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  bcast_S_S4x128x1 : S_.BroadcastsInDim S4x128x1 (![] : Fin 0 → Fin S4x128x1.rank)
  bcast_S1_S1x1x1_2 : S1.BroadcastsInDim S1x1x1 (![2] : Fin 1 → Fin S1x1x1.rank)
  bcast_S1x1x1_S4x128x1_0_1_2 : S1x1x1.BroadcastsInDim S4x128x1 (![0, 1, 2] : Fin 3 → Fin S4x128x1.rank)
  reducesTo_S4x128x1_S4x128_d2 : S4x128x1.ReducesTo [2] S4x128
  h_S_ : 0 < S_.numel
  bcast_S4x128_S4x128x4096_0_1 : S4x128.BroadcastsInDim S4x128x4096 (![0, 1] : Fin 2 → Fin S4x128x4096.rank)
  bcast_S_S4x128x4096 : S_.BroadcastsInDim S4x128x4096 (![] : Fin 0 → Fin S4x128x4096.rank)
  bcast_S_S4x320 : S_.BroadcastsInDim S4x320 (![] : Fin 0 → Fin S4x320.rank)
  bcast_S4x320_S4x320x1_0_1 : S4x320.BroadcastsInDim S4x320x1 (![0, 1] : Fin 2 → Fin S4x320x1.rank)
  bcast_S_S4x320x1 : S_.BroadcastsInDim S4x320x1 (![] : Fin 0 → Fin S4x320x1.rank)
  bcast_S1x1x1_S4x320x1_0_1_2 : S1x1x1.BroadcastsInDim S4x320x1 (![0, 1, 2] : Fin 3 → Fin S4x320x1.rank)
  reducesTo_S4x320x1_S4x320_d2 : S4x320x1.ReducesTo [2] S4x320
  bcast_S4x320_S4x320x4096_0_1 : S4x320.BroadcastsInDim S4x320x4096 (![0, 1] : Fin 2 → Fin S4x320x4096.rank)
  bcast_S_S4x320x4096 : S_.BroadcastsInDim S4x320x4096 (![] : Fin 0 → Fin S4x320x4096.rank)
  concatenates_S4x576x4096_S4x128x4096_S4x320x4096_S4x1024x4096_d1 : Shape.Concatenates [S4x576x4096, S4x128x4096, S4x320x4096] S4x1024x4096 1
  shapeCasts_S4x1024x4096_S4096x4096 : S4x1024x4096.ShapeCasts S4096x4096
  bcast_S_S4x704 : S_.BroadcastsInDim S4x704 (![] : Fin 0 → Fin S4x704.rank)
  concatenates_S4x704_S4x320_S4x1024_d1 : Shape.Concatenates [S4x704, S4x320] S4x1024 1
  slices_S4x1024_S4x1023_0_1 : S4x1024.Slices ![0, 1] S4x1023
  bcast_S_S4x1 : S_.BroadcastsInDim S4x1 (![] : Fin 0 → Fin S4x1.rank)
  concatenates_S4x1023_S4x1_S4x1024_d1 : Shape.Concatenates [S4x1023, S4x1] S4x1024 1
  shapeCasts_S4x1024_S4096x1 : S4x1024.ShapeCasts S4096x1
  shapeCasts_S32000_S1x32000 : S32000.ShapeCasts S1x32000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  iota_S1024x256_d1_w32 : S1024x256.Iotas .tc 32 [1]
  broadcasts_S1024x1_S1024x256 : S1024x1.Broadcasts S1024x256
  reduces_S1024x256_S1024 : S1024x256.Reduces [1] S1024
  shapeCasts_S1024_S1024x1 : S1024.ShapeCasts S1024x1
  natLt_1_32 : 1 < 32
  reducesTo_S4096x1_S_d0_1 : S4096x1.ReducesTo [0, 1] S_
  shapeCasts_S4096x32000_S4x1024x32000 : S4096x32000.ShapeCasts S4x1024x32000
  dot_S256x1024_S4096x1024_S256x4096_1_1_0_0_n_n_wf : DotDims.WF S256x1024 S4096x1024 S256x4096 [1] [1] [0] [0] [] []
  gather_S32000x4096_S4x128x1_S4x128x4096_2_0_n_n_0_2_14096_wf : GatherDims.WF S32000x4096 S4x128x1 S4x128x4096 [2] [0] [] [0] [] 2 ![1, 4096]
  gather_S32000x4096_S4x320x1_S4x320x4096_2_0_n_n_0_2_14096_wf : GatherDims.WF S32000x4096 S4x320x1 S4x320x4096 [2] [0] [] [0] [] 2 ![1, 4096]
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2304x1024.size a
  hwx0_0 : ∀ i : grid0.Coords, EltTy.bits .bf16 = 32 ∨ (Rect.block (s := S2304x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2304x4096.size a
  hwx0_3 : ∀ i : grid0.Coords, EltTy.bits .f32 = 32 ∨ (Rect.block (s := S2304x4096) S256x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S32000x4096.size a
  hwx1_1 : ∀ i : grid1.Coords, EltTy.bits .bf16 = 32 ∨ (Rect.block (s := S32000x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x32000.size a
  hwx1_2 : ∀ i : grid1.Coords, EltTy.bits .f32 = 32 ∨ (Rect.block (s := S1x32000) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .i32 = 32 ∨ (Rect.block (s := S4096x1) S1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S4096x32000.size a
  hwx1_4 : ∀ i : grid1.Coords, EltTy.bits .f32 = 32 ∨ (Rect.block (s := S4096x32000) S1024x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S4096x1.size a
  hwx1_5 : ∀ i : grid1.Coords, EltTy.bits .f32 = 32 ∨ (Rect.block (s := S4096x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S4096x1.size a
  hwx1_6 : ∀ i : grid1.Coords, EltTy.bits .f32 = 32 ∨ (Rect.block (s := S4096x1) S1024x1.size (cc1_transform_6 i) (hinb1_6 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def gather_S32000x4096_S4x128x1_S4x128x4096_2_0_n_n_0_2_14096 : GatherDims S32000x4096 S4x128x1 S4x128x4096 where
  offsetDims := [2]
  collapsedSliceDims := [0]
  operandBatchingDims := []
  startIndicesBatchingDims := []
  startIndexMap := [0]
  indexVectorDim := 2
  sliceSizes := ![1, 4096]
  wf := gather_S32000x4096_S4x128x1_S4x128x4096_2_0_n_n_0_2_14096_wf
def gather_S32000x4096_S4x320x1_S4x320x4096_2_0_n_n_0_2_14096 : GatherDims S32000x4096 S4x320x1 S4x320x4096 where
  offsetDims := [2]
  collapsedSliceDims := [0]
  operandBatchingDims := []
  startIndicesBatchingDims := []
  startIndexMap := [0]
  indexVectorDim := 2
  sliceSizes := ![1, 4096]
  wf := gather_S32000x4096_S4x320x1_S4x320x4096_2_0_n_n_0_2_14096_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S1024x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_2) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x576x1024 : Shape := ⟨3, ![4, 576, 1024]⟩
abbrev S4x128 : Shape := ⟨2, ![4, 128]⟩
abbrev S4x320 : Shape := ⟨2, ![4, 320]⟩
abbrev S4096x1024 : Shape := ⟨2, ![4096, 1024]⟩
abbrev S4096 : Shape := ⟨1, ![4096]⟩
abbrev S32000x4096 : Shape := ⟨2, ![32000, 4096]⟩
abbrev S32000 : Shape := ⟨1, ![32000]⟩
abbrev S4x576x4096 : Shape := ⟨3, ![4, 576, 4096]⟩
abbrev S1x1x4096 : Shape := ⟨3, ![1, 1, 4096]⟩
abbrev S_ : Shape := ⟨0, ![]⟩
abbrev S4x128x1 : Shape := ⟨3, ![4, 128, 1]⟩
abbrev S4x128x4096 : Shape := ⟨3, ![4, 128, 4096]⟩
abbrev S4x320x1 : Shape := ⟨3, ![4, 320, 1]⟩
abbrev S4x320x4096 : Shape := ⟨3, ![4, 320, 4096]⟩
abbrev S4x1024x4096 : Shape := ⟨3, ![4, 1024, 4096]⟩
abbrev S4x1024x32000 : Shape := ⟨3, ![4, 1024, 32000]⟩
abbrev S1x1x32000 : Shape := ⟨3, ![1, 1, 32000]⟩
abbrev S4x704 : Shape := ⟨2, ![4, 704]⟩
abbrev S4x1024 : Shape := ⟨2, ![4, 1024]⟩
abbrev S4x1023x32000 : Shape := ⟨3, ![4, 1023, 32000]⟩
abbrev S4x1023 : Shape := ⟨2, ![4, 1023]⟩
abbrev S4x1023x1 : Shape := ⟨3, ![4, 1023, 1]⟩
abbrev S4x1023x1x1 : Shape := ⟨4, ![4, 1023, 1, 1]⟩
abbrev S1 : Shape := ⟨1, ![1]⟩
abbrev S1x1x1x1 : Shape := ⟨4, ![1, 1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S4x576x1024, .f32⟩
  | .hbm, ⟨1, _⟩ => ⟨S4x128, .i32⟩
  | .hbm, ⟨2, _⟩ => ⟨S4x320, .i32⟩
  | .hbm, ⟨3, _⟩ => ⟨S4096x1024, .f32⟩
  | .hbm, ⟨4, _⟩ => ⟨S4096, .f32⟩
  | .hbm, ⟨5, _⟩ => ⟨S32000x4096, .f32⟩
  | .hbm, ⟨6, _⟩ => ⟨S32000x4096, .f32⟩
  | .hbm, ⟨7, _⟩ => ⟨S32000, .f32⟩
  | .hbm, ⟨8, _⟩ => ⟨S4x576x4096, .f32⟩
  | .hbm, ⟨9, _⟩ => ⟨S1x1x4096, .f32⟩
  | .hbm, ⟨10, _⟩ => ⟨S4x576x4096, .f32⟩
  | .hbm, ⟨11, _⟩ => ⟨S4x576x4096, .f32⟩
  | .hbm, ⟨12, _⟩ => ⟨S_, .i32⟩
  | .hbm, ⟨13, _⟩ => ⟨S4x128, .i32⟩
  | .hbm, ⟨14, _⟩ => ⟨S4x128, .i1⟩
  | .hbm, ⟨15, _⟩ => ⟨S_, .i32⟩
  | .hbm, ⟨16, _⟩ => ⟨S4x128, .i32⟩
  | .hbm, ⟨17, _⟩ => ⟨S4x128, .i32⟩
  | .hbm, ⟨18, _⟩ => ⟨S4x128, .i32⟩
  | .hbm, ⟨19, _⟩ => ⟨S4x128x1, .i32⟩
  | .hbm, ⟨20, _⟩ => ⟨S4x128x4096, .f32⟩
  | .hbm, ⟨21, _⟩ => ⟨S_, .i32⟩
  | .hbm, ⟨22, _⟩ => ⟨S4x320, .i32⟩
  | .hbm, ⟨23, _⟩ => ⟨S4x320, .i1⟩
  | .hbm, ⟨24, _⟩ => ⟨S_, .i32⟩
  | .hbm, ⟨25, _⟩ => ⟨S4x320, .i32⟩
  | .hbm, ⟨26, _⟩ => ⟨S4x320, .i32⟩
  | .hbm, ⟨27, _⟩ => ⟨S4x320, .i32⟩
  | .hbm, ⟨28, _⟩ => ⟨S4x320x1, .i32⟩
  | .hbm, ⟨29, _⟩ => ⟨S4x320x4096, .f32⟩
  | .hbm, ⟨30, _⟩ => ⟨S4x1024x4096, .f32⟩
  | .hbm, ⟨31, _⟩ => ⟨S4x1024x32000, .f32⟩
  | .hbm, ⟨32, _⟩ => ⟨S1x1x32000, .f32⟩
  | .hbm, ⟨33, _⟩ => ⟨S4x1024x32000, .f32⟩
  | .hbm, ⟨34, _⟩ => ⟨S4x1024x32000, .f32⟩
  | .hbm, ⟨35, _⟩ => ⟨S_, .i32⟩
  | .hbm, ⟨36, _⟩ => ⟨S4x704, .i32⟩
  | .hbm, ⟨37, _⟩ => ⟨S4x1024, .i32⟩
  | .hbm, ⟨38, _⟩ => ⟨S4x1023x32000, .f32⟩
  | .hbm, ⟨39, _⟩ => ⟨S4x1023, .i32⟩
  | .hbm, ⟨40, _⟩ => ⟨S_, .f32⟩
  | .hbm, ⟨41, _⟩ => ⟨S4x1023, .f32⟩
  | .hbm, ⟨42, _⟩ => ⟨S_, .f32⟩
  | .hbm, ⟨43, _⟩ => ⟨S4x1023, .f32⟩
  | .hbm, ⟨44, _⟩ => ⟨S4x1023, .f32⟩
  | .hbm, ⟨45, _⟩ => ⟨S4x1023x1, .f32⟩
  | .hbm, ⟨46, _⟩ => ⟨S4x1023x32000, .f32⟩
  | .hbm, ⟨47, _⟩ => ⟨S4x1023x32000, .f32⟩
  | .hbm, ⟨48, _⟩ => ⟨S4x1023x32000, .f32⟩
  | .hbm, ⟨49, _⟩ => ⟨S_, .f32⟩
  | .hbm, ⟨50, _⟩ => ⟨S4x1023, .f32⟩
  | .hbm, ⟨51, _⟩ => ⟨S4x1023x1, .f32⟩
  | .hbm, ⟨52, _⟩ => ⟨S4x1023x1, .f32⟩
  | .hbm, ⟨53, _⟩ => ⟨S4x1023x32000, .f32⟩
  | .hbm, ⟨54, _⟩ => ⟨S4x1023x32000, .f32⟩
  | .hbm, ⟨55, _⟩ => ⟨S_, .i32⟩
  | .hbm, ⟨56, _⟩ => ⟨S4x1023, .i32⟩
  | .hbm, ⟨57, _⟩ => ⟨S4x1023, .i1⟩
  | .hbm, ⟨58, _⟩ => ⟨S_, .i32⟩
  | .hbm, ⟨59, _⟩ => ⟨S_, .i32⟩
  | .hbm, ⟨60, _⟩ => ⟨S4x1023, .i32⟩
  | .hbm, ⟨61, _⟩ => ⟨S4x1023, .i32⟩
  | .hbm, ⟨62, _⟩ => ⟨S4x1023x1, .i32⟩
  | .hbm, ⟨63, _⟩ => ⟨S_, .i32⟩
  | .hbm, ⟨64, _⟩ => ⟨S4x1023x1, .i32⟩
  | .hbm, ⟨65, _⟩ => ⟨S4x1023x1, .i1⟩
  | .hbm, ⟨66, _⟩ => ⟨S_, .i32⟩
  | .hbm, ⟨67, _⟩ => ⟨S4x1023x1, .i32⟩
  | .hbm, ⟨68, _⟩ => ⟨S4x1023x1, .i32⟩
  | .hbm, ⟨69, _⟩ => ⟨S4x1023x1, .i32⟩
  | .hbm, ⟨70, _⟩ => ⟨S4x1023x1x1, .i32⟩
  | .hbm, ⟨71, _⟩ => ⟨S1, .i32⟩
  | .hbm, ⟨72, _⟩ => ⟨S_, .i32⟩
  | .hbm, ⟨73, _⟩ => ⟨S4x1023x1x1, .i32⟩
  | .hbm, ⟨74, _⟩ => ⟨S4x1023x1x1, .i1⟩
  | .hbm, ⟨75, _⟩ => ⟨S1x1x1x1, .i32⟩
  | .hbm, ⟨76, _⟩ => ⟨S4x1023x1x1, .i32⟩
  | .hbm, ⟨77, _⟩ => ⟨S4x1023x1x1, .i1⟩
  | .hbm, ⟨78, _⟩ => ⟨S4x1023x1x1, .i1⟩
  | .hbm, ⟨79, _⟩ => ⟨S_, .i1⟩
  | .hbm, ⟨80, _⟩ => ⟨S4x1023x1, .i1⟩
  | .hbm, ⟨81, _⟩ => ⟨S4x1023x1, .f32⟩
  | .hbm, ⟨82, _⟩ => ⟨S_, .f32⟩
  | .hbm, ⟨83, _⟩ => ⟨S4x1023x1, .f32⟩
  | .hbm, ⟨84, _⟩ => ⟨S4x1023x1, .f32⟩
  | .hbm, ⟨85, _⟩ => ⟨S4x1023, .f32⟩
  | .hbm, ⟨86, _⟩ => ⟨S4x1023, .f32⟩
  | .hbm, ⟨87, _⟩ => ⟨S_, .f32⟩
  | .hbm, ⟨88, _⟩ => ⟨S_, .f32⟩
  | .hbm, ⟨89, _⟩ => ⟨S4x1023, .f32⟩
  | .hbm, ⟨90, _⟩ => ⟨S4x1023, .f32⟩
  | .hbm, ⟨91, _⟩ => ⟨S_, .f32⟩
  | .hbm, ⟨92, _⟩ => ⟨S_, .f32⟩
  | .hbm, ⟨93, _⟩ => ⟨S4x1023, .i32⟩
  | .hbm, ⟨94, _⟩ => ⟨S_, .i32⟩
  | .hbm, ⟨95, _⟩ => ⟨S_, .i32⟩
  | .hbm, ⟨96, _⟩ => ⟨S_, .f32⟩
  | .hbm, ⟨97, _⟩ => ⟨S_, .f32⟩
  | _, _ => ⟨S4x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_cst_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_call1_v0 : Ref sig .tc := ⟨.hbm, 59, rfl⟩
abbrev main_call1_v1 : Ref sig .tc := ⟨.hbm, 60, rfl⟩
abbrev main_v30 : Ref sig .tc := ⟨.hbm, 61, rfl⟩
abbrev main_v31 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_v35 : Ref sig .tc := ⟨.hbm, 90, rfl⟩
abbrev main_cst_6 : Ref sig .tc := ⟨.hbm, 91, rfl⟩
abbrev main_v36 : Ref sig .tc := ⟨.hbm, 92, rfl⟩
abbrev main_v37 : Ref sig .tc := ⟨.hbm, 93, rfl⟩
abbrev main_c_7 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x576x4096_0_1_2 : S1x1x4096.BroadcastsInDim S4x576x4096 (![0, 1, 2] : Fin 3 → Fin S4x576x4096.rank)
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  bcast_S_S4x320 : S_.BroadcastsInDim S4x320 (![] : Fin 0 → Fin S4x320.rank)
  bcast_S4x320_S4x320x1_0_1 : S4x320.BroadcastsInDim S4x320x1 (![0, 1] : Fin 2 → Fin S4x320x1.rank)
  concatenates_S4x576x4096_S4x128x4096_S4x320x4096_S4x1024x4096_d1 : Shape.Concatenates [S4x576x4096, S4x128x4096, S4x320x4096] S4x1024x4096 1
  bcast_S32000_S1x1x32000_2 : S32000.BroadcastsInDim S1x1x32000 (![2] : Fin 1 → Fin S1x1x32000.rank)
  bcast_S1x1x32000_S4x1024x32000_0_1_2 : S1x1x32000.BroadcastsInDim S4x1024x32000 (![0, 1, 2] : Fin 3 → Fin S4x1024x32000.rank)
  bcast_S_S4x704 : S_.BroadcastsInDim S4x704 (![] : Fin 0 → Fin S4x704.rank)
  concatenates_S4x704_S4x320_S4x1024_d1 : Shape.Concatenates [S4x704, S4x320] S4x1024 1
  slices_S4x1024x32000_S4x1023x32000_0_0_0 : S4x1024x32000.Slices ![0, 0, 0] S4x1023x32000
  slices_S4x1024_S4x1023_0_1 : S4x1024.Slices ![0, 1] S4x1023
  reducesTo_S4x1023x32000_S4x1023_d2 : S4x1023x32000.ReducesTo [2] S4x1023
  h_S_ : 0 < S_.numel
  bcast_S_S4x1023 : S_.BroadcastsInDim S4x1023 (![] : Fin 0 → Fin S4x1023.rank)
  bcast_S4x1023_S4x1023x1_0_1 : S4x1023.BroadcastsInDim S4x1023x1 (![0, 1] : Fin 2 → Fin S4x1023x1.rank)
  bcast_S4x1023x1_S4x1023x32000_0_1_2 : S4x1023x1.BroadcastsInDim S4x1023x32000 (![0, 1, 2] : Fin 3 → Fin S4x1023x32000.rank)
  bcast_S_S4x1023x1 : S_.BroadcastsInDim S4x1023x1 (![] : Fin 0 → Fin S4x1023x1.rank)
  shapeCasts_S4x1023x1_S4x1023x1x1 : S4x1023x1.ShapeCasts S4x1023x1x1
  bcast_S_S4x1023x1x1 : S_.BroadcastsInDim S4x1023x1x1 (![] : Fin 0 → Fin S4x1023x1x1.rank)
  bcast_S1_S1x1x1x1_3 : S1.BroadcastsInDim S1x1x1x1 (![3] : Fin 1 → Fin S1x1x1x1.rank)
  bcast_S1x1x1x1_S4x1023x1x1_0_1_2_3 : S1x1x1x1.BroadcastsInDim S4x1023x1x1 (![0, 1, 2, 3] : Fin 4 → Fin S4x1023x1x1.rank)
  reducesTo_S4x1023x1x1_S4x1023x1_d3 : S4x1023x1x1.ReducesTo [3] S4x1023x1
  shapeCasts_S4x1023x1_S4x1023 : S4x1023x1.ShapeCasts S4x1023
  reducesTo_S4x1023_S_d0_1 : S4x1023.ReducesTo [0, 1] S_
  natLt_1_32 : 1 < 32
  dot_S4x576x1024_S4096x1024_S4x576x4096_2_1_01_0_n_n_wf : DotDims.WF S4x576x1024 S4096x1024 S4x576x4096 [2] [1] [0, 1] [0] [] []
  gather_S32000x4096_S4x128x1_S4x128x4096_2_0_n_n_0_2_14096_wf : GatherDims.WF S32000x4096 S4x128x1 S4x128x4096 [2] [0] [] [0] [] 2 ![1, 4096]
  gather_S32000x4096_S4x320x1_S4x320x4096_2_0_n_n_0_2_14096_wf : GatherDims.WF S32000x4096 S4x320x1 S4x320x4096 [2] [0] [] [0] [] 2 ![1, 4096]
  dot_S4x1024x4096_S32000x4096_S4x1024x32000_2_1_01_0_n_n_wf : DotDims.WF S4x1024x4096 S32000x4096 S4x1024x32000 [2] [1] [0, 1] [0] [] []
  gather_S4x1023x32000_S4x1023x1x1_S4x1023x1_n_2_01_01_2_3_111_wf : GatherDims.WF S4x1023x32000 S4x1023x1x1 S4x1023x1 [] [2] [0, 1] [2] [0, 1] 3 ![1, 1, 1]

variable [Facts₀]

def dot_S4x576x1024_S4096x1024_S4x576x4096_2_1_01_0_n_n : DotDims S4x576x1024 S4096x1024 S4x576x4096 where
  lhsContracting := [2]
  rhsContracting := [1]
  lhsNonContracting := [0, 1]
  rhsNonContracting := [0]
  lhsBatch := []
  rhsBatch := []
  wf := dot_S4x576x1024_S4096x1024_S4x576x4096_2_1_01_0_n_n_wf
def gather_S32000x4096_S4x128x1_S4x128x4096_2_0_n_n_0_2_14096 : GatherDims S32000x4096 S4x128x1 S4x128x4096 where
  offsetDims := [2]
  collapsedSliceDims := [0]
  operandBatchingDims := []
  startIndicesBatchingDims := []
  startIndexMap := [0]
  indexVectorDim := 2
  sliceSizes := ![1, 4096]
  wf := gather_S32000x4096_S4x128x1_S4x128x4096_2_0_n_n_0_2_14096_wf
def gather_S32000x4096_S4x320x1_S4x320x4096_2_0_n_n_0_2_14096 : GatherDims S32000x4096 S4x320x1 S4x320x4096 where
  offsetDims := [2]
  collapsedSliceDims := [0]
  operandBatchingDims := []
  startIndicesBatchingDims := []
  startIndexMap := [0]
  indexVectorDim := 2
  sliceSizes := ![1, 4096]
  wf := gather_S32000x4096_S4x320x1_S4x320x4096_2_0_n_n_0_2_14096_wf
def dot_S4x1024x4096_S32000x4096_S4x1024x32000_2_1_01_0_n_n : DotDims S4x1024x4096 S32000x4096 S4x1024x32000 where
  lhsContracting := [2]
  rhsContracting := [1]
  lhsNonContracting := [0, 1]
  rhsNonContracting := [0]
  lhsBatch := []
  rhsBatch := []
  wf := dot_S4x1024x4096_S32000x4096_S4x1024x32000_2_1_01_0_n_n_wf
def gather_S4x1023x32000_S4x1023x1x1_S4x1023x1_n_2_01_01_2_3_111 : GatherDims S4x1023x32000 S4x1023x1x1 S4x1023x1 where
  offsetDims := []
  collapsedSliceDims := [2]
  operandBatchingDims := [0, 1]
  startIndicesBatchingDims := [0, 1]
  startIndexMap := [2]
  indexVectorDim := 3
  sliceSizes := ![1, 1, 1]
  wf := gather_S4x1023x32000_S4x1023x1x1_S4x1023x1_n_2_01_01_2_3_111_wf

class Facts : Prop extends Facts₀ where

variable [Facts]
-- ==== Proof.K.Reg0.lean ====
/-
  Region 0 of the kernel's program: the projector, one matrix product per block of 256 rows.
  At each of its 9 grid points the body reads a block of 256 image rows (bf16), the whole projector
  weight and the bias row, and stores  x · wᵀ + b  over the whole output block. Nothing is carried
  between points, so the region invariant is the constant one (the kernel's scratch and the generator
  register at anything). Everything is stated for any float instance and at a parameter `V`: the
  contents of the core's buffers when the region is entered.
-/
import proofs.«417710_j44341242364213_2_alg».proof.Proof.Gen.Kernel.Launch
import proofs.«417710_j44341242364213_2_alg».proof.Proof.Gen.Kernel.Skeleton
import proofs.«417710_j44341242364213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window the body only reads holds its block at every point, fetched there or not: unfetched, its
    block index has not moved since the fetch. One statement per window (the block's type is the window's own). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_a : Rect S256x1024 := Rect.unit (s := S256x1024) ![0, 0] S256x1024.size inb_S256x1024_S256x1024_0_0
abbrev r0_b : Rect S4096x1024 := Rect.unit (s := S4096x1024) ![0, 0] S4096x1024.size inb_S4096x1024_S4096x1024_0_0
abbrev r0_c : Rect S1x4096 := Rect.unit (s := S1x4096) ![0, 0] S1x4096.size inb_S1x4096_S1x4096_0_0
abbrev r0_o : Rect S256x4096 := Rect.unit (s := S256x4096) ![0, 0] S256x4096.size inb_S256x4096_S256x4096_0_0

/-- The output block after the body, from the three input blocks: one store over the whole block. -/
def out0_3 (x0 : Vec F S256x1024 .bf16) (x1 : Vec F S4096x1024 .bf16) (x2 : Vec F S1x4096 .f32) : Vec F S256x4096 .f32 :=
  View.canon [⟨r0_o, k0_pay1 (View.ld x0 r0_a) (View.ld x1 r0_b) (View.ld x2 r0_c)⟩]

theorem cover0_3 (p0 : Vec F S256x4096 .f32) (y : S256x4096.Idx) :
    ∃ pc ∈ ([⟨r0_o, p0⟩] : List (View.Piece (Elt F) S256x4096 .f32)), y ∈ pc.1.set :=
  View.cover_of_tiled [⟨r0_o, p0⟩] S256x4096.size (by rfl) y

set_option maxHeartbeats 1000000 in
/-- The body on whole staging memrefs: the inputs are left as found, the output holds `out0_3` of them. -/
theorem sound_kernel0 (c : Dev nD) (E : Set ℕ) (i : grid0.Coords)
    (arg1 : Memref sig .tc .vmem S256x1024 .bf16) (harg1 : arg1.IsWhole) (arg2 : Memref sig .tc .vmem S4096x1024 .bf16) (harg2 : arg2.IsWhole)
    (arg3 : Memref sig .tc .vmem S1x4096 .f32) (harg3 : arg3.IsWhole) (arg4 : Memref sig .tc .vmem S256x4096 .f32) (harg4 : arg4.IsWhole)
    (x0 : Vec F S256x1024 .bf16) (x1 : Vec F S4096x1024 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Region 0's proof data on core `c`: the arrays as the region finds them; after the body each input's
    buffer at its block, the output's at `out0_3` of the input blocks; nothing tracked, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Data.lean ====
/-
  Region 1 of the kernel's program: the vocabulary head fused with the cross-entropy, on a grid of
  4 row tiles (1024 rows each) by 125 vocabulary tiles (256 columns each), the vocabulary axis innermost.
  At a point (rt, vt) the body computes the logits tile  s = h · wᵀ + b  (stored whole into the logits
  window), and carries three columns of 1024 entries across the vocabulary tiles of one row tile, in
  scratch: the running maximum of the row's logits, the running sum of exp(logit - maximum) rescaled
  whenever the maximum moves, and the logit at the row's target column (zero until its tile is met).
  The columns are reset at vt = 0; at vt = 124 the body stores  maximum + log(sum) - target logit
  (zero where the target is the ignored label) and the row's validity flag into the two column outputs,
  which are left untouched at every other point.
  This module holds the DATA of that account, for any float instance and at a parameter `V` (the core's
  buffers when the region is entered): the blocks, the carried columns point by point, what each
  output window's buffer holds after the body, the region invariant, the proof data.
-/
import proofs.«417710_j44341242364213_2_alg».proof.Proof.Gen.Kernel.Launch
import proofs.«417710_j44341242364213_2_alg».proof.Proof.Gen.Kernel.Skeleton
import proofs.«417710_j44341242364213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried columns: (running maximum, running rescaled sum, target logit). -/
abbrev Cols (F : FTy → Type) [FloatOps F] : Type := Vec F S1024x1 .f32 × Vec F S1024x1 .f32 × Vec F S1024x1 .f32

/-- The columns as the reset at the first vocabulary tile leaves them: -∞, 0, 0. -/
def cols0 : Cols F := (k1_pay7, k1_pay8, k1_pay9)

/-- One vocabulary tile folded into the columns: from the hidden block `x0`, the head-weight block `x1`,
    the bias block `x2` and the targets `x3` at grid coordinates `i`. -/
def stepCols (i : grid1.Coords) (x0 : Vec F S1024x4096 .bf16) (x1 : Vec F S256x4096 .bf16) (x2 : Vec F S1x256 .f32) (x3 : Vec F S1024x1 .i32)
    (s : Cols F) : Cols F :=
  (k1_pay3 (k1_pay13 x0 x1 x2) s.1,
   k1_pay2 (k1_pay10 x0 x1 x2) (k1_pay13 x0 x1 x2) s.1 s.1 s.2.1,
   k1_pay12 i x0 x1 x2 x3 s.2.2)

/-- The carried columns after the body at position `n`: reset first at the positions ≡ 0 (mod 125), the first
    vocabulary tile of a row tile; elsewhere folded over what position `n - 1` left. -/
def colsAt1 (c : Dev nD) : (n : ℕ) → n < cfg1.N → Cols F
  | 0, hn => stepCols (grid1.coords ⟨0, hn⟩) (iblk1 V c 0 ⟨0, hn⟩) (iblk1 V c 1 ⟨0, hn⟩) (iblk1 V c 2 ⟨0, hn⟩) (iblk1 V c 3 ⟨0, hn⟩) cols0
  | n + 1, hn =>
    if (n + 1) % 125 = 0 then
      stepCols (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) cols0
    else
      stepCols (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
        (colsAt1 c n (Nat.lt_of_succ_lt hn))

/-- At a first vocabulary tile the columns are the reset ones folded once. -/
theorem colsAt1_first (c : Dev nD) (t : Fin cfg1.N) (h0 : t.val % 125 = 0) :
    colsAt1 V c t.val t.isLt = stepCols (grid1.coords t) (iblk1 V c 0 t) (iblk1 V c 1 t) (iblk1 V c 2 t) (iblk1 V c 3 t) cols0 := by
  obtain ⟨n, hn⟩ := t
  cases n with
  | zero => rfl
  | succ n => exact (if_pos h0).trans rfl

/-- Elsewhere they are the previous position's folded once. -/
theorem colsAt1_next (c : Dev nD) (t : Fin cfg1.N) (h0 : ¬t.val % 125 = 0) :
    colsAt1 V c t.val t.isLt = stepCols (grid1.coords t) (iblk1 V c 0 t) (iblk1 V c 1 t) (iblk1 V c 2 t) (iblk1 V c 3 t)
      (colsAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-- The core's scoped buffers that are neither a staging buffer of this region nor its scratch (region 0's staging
    buffers), each whole at some contents. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position `n`: before the first point the constant one (every scratch at anything);
    afterwards the three scratch columns at what the position before left, the other scoped buffers at anything,
    the generator register at some state. -/
def PhiS1 (c : Dev nD) : (n : ℕ) → n ≤ cfg1.N → sProp 𝕄
  | 0, _ => Pipeline.ΦA spec1 c
  | n + 1, hn => iprop((otherScoped1 c
      ∗ owns (c : Thread nD τ) scM1_0 fullShare (colsAt1 V c n hn).1
      ∗ owns (c : Thread nD τ) scM1_1 fullShare (colsAt1 V c n hn).2.1
      ∗ owns (c : Thread nD τ) scM1_2 fullShare (colsAt1 V c n hn).2.2) ∗ (∃ r, prngReg c r))

/-- Region 1's proof data on core `c`. The two column outputs' `after` is the final formula at every point; it is
    consulted only at the last vocabulary tile of a row tile (elsewhere the window is idle and not written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay10 (iblk1 V c 0 t) (iblk1 V c 1 t) (iblk1 V c 2 t)
    | ⟨5, _⟩ => k1_pay5 (k1_pay11 (iblk1 V c 3 t)) (colsAt1 V c t.val t.isLt).1 (colsAt1 V c t.val t.isLt).2.1 (colsAt1 V c t.val t.isLt).2.2
    | ⟨6, _⟩ => k1_pay6 (k1_pay11 (iblk1 V c 3 t))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay10 (iblk1 V c 0 t) (iblk1 V c 1 t) (iblk1 V c 2 t) := by dsimp only [dat1]
theorem after1_5 (c : Dev nD) (t : Fin cfg1.N) :
    (dat1 V c).after 5 t = k1_pay5 (k1_pay11 (iblk1 V c 3 t)) (colsAt1 V c t.val t.isLt).1 (colsAt1 V c t.val t.isLt).2.1 (colsAt1 V c t.val t.isLt).2.2 := by
  dsimp only [dat1]
theorem after1_6 (c : Dev nD) (t : Fin cfg1.N) : (dat1 V c).after 6 t = k1_pay6 (k1_pay11 (iblk1 V c 3 t)) := by dsimp only [dat1]

end Cert.Kernel.Hand

end
-- ==== Proof.K.RunData.lean ====
/-
  The kernel's program as a walk through its buffers: what every unscoped buffer of the core holds at each
  boundary between two items of @main — the launch contents, then each stretch of host operations applied,
  then, after a region, that region's arrays at what its write-backs leave (the inputs as entered, each
  output's blocks folded in) and every other buffer as entered.
-/
import proofs.«417710_j44341242364213_2_alg».proof.Proof.K.Reg0
import proofs.«417710_j44341242364213_2_alg».proof.Proof.K.Reg1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the four host stretches between the regions (the reshape of region 0's result; the two embedding
    look-ups; the concatenation, the targets and the casts): region 1's entry. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
/-- After the last host stretch (the two sums, the maximum with one, the quotient, the reshape of the logits):
    what the program returns with. -/
abbrev W8 : Dev nD → Valuation τ sig (Elt F) := fun c => StableHlo.after hostOps2 (W7 m c)

end Cert.Kernel.Hand

end
-- ==== Proof.K.Reg1Body.lean ====
/-
  Region 1, the body: at every grid point the head kernel's body, run on the staging buffers the pipeline
  hands it and on the three scratch columns, leaves what the region's proof data say (Reg1Data): the logits
  tile in its window, the carried columns folded once (after the reset, at a first vocabulary tile), and at a
  last vocabulary tile the two column outputs.
  Every access of the body is over a whole buffer, so what a buffer holds after the body is the payload of the
  last store into it, and every load reads the buffer's contents (or, after a store, that store's payload).
  The points fall into three cases by the position of the vocabulary tile in its row tile: first (the columns
  are reset before they are folded), last (the two column outputs are stored), neither.
-/
import proofs.«417710_j44341242364213_2_alg».proof.Proof.K.Reg1Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid -/

/-- The condition of the reset: the vocabulary coordinate is 0. -/
abbrev cond1_0 (i : grid1.Coords) : Prop := (Scalar.cmpi .ne (Scalar.extui (Scalar.cmpi .eq (BitVec.ofNat 32 (i 1).val) 0#32)) 0#32) = 1#1
/-- The condition of the final stores: the vocabulary coordinate is 124. -/
abbrev cond1_1 (i : grid1.Coords) : Prop := k1_cond2 i = 1#1

/-- The first conditional's condition holds at the first vocabulary tile of each row tile. -/
theorem hcond1_0 : ∀ t : Fin cfg1.N, cond1_0 (grid1.coords t) ↔ t.val % 125 = 0 :=
  (by decide +kernel : ∀ t : Fin grid1.N, cond1_0 (grid1.coords t) ↔ t.val % 125 = 0)
/-- The last conditional's condition holds at the last vocabulary tile of each row tile. -/
theorem hcond1_1 : ∀ t : Fin cfg1.N, cond1_1 (grid1.coords t) ↔ t.val % 125 = 124 :=
  (by decide +kernel : ∀ t : Fin grid1.N, cond1_1 (grid1.coords t) ↔ t.val % 125 = 124)

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
theorem liveAt1_4 (t : Fin cfg1.N) : cfg1.idle 4 (grid1.coords t) = false := rfl

/-- The two column outputs are idle wherever the last conditional is not taken, -/
theorem idleAt1_5 (i : grid1.Coords) (h : ¬cond1_1 i) : cfg1.idle 5 i = true := by
  show (!(k1_cond2 i == 1#1)) = true
  simp only [Bool.not_eq_true', beq_eq_false_iff_ne, ne_eq]; exact h
theorem idleAt1_6 (i : grid1.Coords) (h : ¬cond1_1 i) : cfg1.idle 6 i = true := by
  show (!(k1_cond2 i == 1#1)) = true
  simp only [Bool.not_eq_true', beq_eq_false_iff_ne, ne_eq]; exact h
/-- and live where it is. -/
theorem liveAt1_5 (i : grid1.Coords) (h : cond1_1 i) : cfg1.idle 5 i = false := by
  show (!(k1_cond2 i == 1#1)) = false
  simp only [Bool.not_eq_false', beq_iff_eq]; exact h
theorem liveAt1_6 (i : grid1.Coords) (h : cond1_1 i) : cfg1.idle 6 i = false := by
  show (!(k1_cond2 i == 1#1)) = false
  simp only [Bool.not_eq_false', beq_iff_eq]; exact h
/-- Off the last vocabulary tile they are not written back. -/
theorem noFlush1_5 (t : Fin cfg1.N) (h : ¬t.val % 125 = 124) : (cfg1.win 5).flush t = false :=
  Bool.eq_false_iff.mpr fun hf => h ((flush1_5 t).mp hf)
theorem noFlush1_6 (t : Fin cfg1.N) (h : ¬t.val % 125 = 124) : (cfg1.win 6).flush t = false :=
  Bool.eq_false_iff.mpr fun hf => h ((flush1_6 t).mp hf)

/-! ## Whole-buffer accesses -/

theorem hz : (![0, 0] : Fin 2 → Nat) = fun _ => 0 := funext fun a => by fin_cases a <;> rfl

/-- What a list of stores whose last is over the whole buffer leaves: that store's payload. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The inputs' buffers hold their blocks -/

/- An input window the body only reads holds its block at every point, fetched there or not: unfetched, its block
   index has not moved since the fetch. One statement per window (the block's type is the window's own). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-! ## The region invariant, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((otherScoped1 c
      ∗ owns (c : Thread nD τ) scM1_0 fullShare (colsAt1 V c n hn).1
      ∗ owns (c : Thread nD τ) scM1_1 fullShare (colsAt1 V c n hn).2.1
      ∗ owns (c : Thread nD τ) scM1_2 fullShare (colsAt1 V c n hn).2.2) ∗ (∃ r, prngReg c r)) := rfl

theorem PhiS1_pos (c : Dev nD) (n : ℕ) (h : n ≤ cfg1.N) (hz : n ≠ 0) :
    PhiS1 V c n h = iprop((otherScoped1 c
      ∗ owns (c : Thread nD τ) scM1_0 fullShare (colsAt1 V c (n - 1) (by omega)).1
      ∗ owns (c : Thread nD τ) scM1_1 fullShare (colsAt1 V c (n - 1) (by omega)).2.1
      ∗ owns (c : Thread nD τ) scM1_2 fullShare (colsAt1 V c (n - 1) (by omega)).2.2) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The constant invariant with the three scratch columns as memrefs owned at some contents. -/
def PhiA1 (c : Dev nD) : sProp 𝕄 :=
  iprop((otherScoped1 c ∗ (∃ d, owns (c : Thread nD τ) scM1_0 fullShare d) ∗ (∃ d, owns (c : Thread nD τ) scM1_1 fullShare d)
    ∗ (∃ d, owns (c : Thread nD τ) scM1_2 fullShare d)) ∗ (∃ r, prngReg c r))

theorem PhiA1_open (c : Dev nD) : (Pipeline.ΦA spec1 c : sProp 𝕄) ⊢ PhiA1 (F := F) c := by
  unfold Pipeline.ΦA PhiA1 otherScoped1; rw [scopedRest1_eq]; simp only [scM1_0, scM1_1, scM1_2, owns_whole]
  iintro ⟨⟨A1, A2, A3, A4, A5, A6, S0, S1, S2⟩, Hg⟩
  isplitl [A1 A2 A3 A4 A5 A6 S0 S1 S2]
  · isplitl [A1 A2 A3 A4 A5 A6]
    · isplitl [A1]; · iexact A1
      isplitl [A2]; · iexact A2
      isplitl [A3]; · iexact A3
      isplitl [A4]; · iexact A4
      isplitl [A5]; · iexact A5
      iexact A6
    isplitl [S0]; · iexact S0
    isplitl [S1]; · iexact S1
    iexact S2
  iexact Hg

theorem PhiA1_close (c : Dev nD) : PhiA1 (F := F) c ⊢ (Pipeline.ΦA spec1 c : sProp 𝕄) := by
  unfold Pipeline.ΦA PhiA1 otherScoped1; rw [scopedRest1_eq]; simp only [scM1_0, scM1_1, scM1_2, owns_whole]
  iintro ⟨⟨⟨A1, A2, A3, A4, A5, A6⟩, S0, S1, S2⟩, Hg⟩
  isplitl [A1 A2 A3 A4 A5 A6 S0 S1 S2]
  · isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    iexact S2
  iexact Hg

theorem PhiA1_eq (c : Dev nD) : (Pipeline.ΦA spec1 c : sProp 𝕄) = PhiA1 (F := F) c :=
  BI.equiv_iff.mp ⟨PhiA1_open c, PhiA1_close c⟩

/-! ## The body's three runs -/

set_option maxHeartbeats 1000000 in
/-- The body at a first vocabulary tile of a row tile (the reset taken, the final stores not): on whole buffers, the
    inputs at their blocks, the logits buffer and the three columns at anything, the two column outputs at contents
    handed back untouched, it leaves the logits tile, and the reset columns folded once. -/
theorem kernelRun1_A (c : Dev nD) (E : Set ℕ) (i : grid1.Coords) (arg2 : Memref sig .tc .vmem S1024x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S1024x1 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : cond1_0 i) (hc1 : ¬cond1_1 i)
    (x0 : Vec F S1024x4096 .bf16) (x1 : Vec F S256x4096 .bf16) (x2 : Vec F S1x256 .f32) (x3 : Vec F S1024x1 .i32)
    (xi5 xi6 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xi5 ∗ owns (c : Thread nD τ) arg8 fullShare xi6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay10 x0 x1 x2) ∗ owns (c : Thread nD τ) arg7 fullShare xi5 ∗ owns (c : Thread nD τ) arg8 fullShare xi6
            ∗ owns (c : Thread nD τ) arg9 fullShare (stepCols i x0 x1 x2 x3 cols0).1 ∗ owns (c : Thread nD τ) arg10 fullShare (stepCols i x0 x1 x2 x3 cols0).2.1
            ∗ owns (c : Thread nD τ) arg11 fullShare (stepCols i x0 x1 x2 x3 cols0).2.2) -∗ K ⟨⟩))
      ⊢ wp frame (wpE (defs₀ (F := F)) Variants.none c none) E (cc1__head_kernel i arg2 harg2 arg3 harg3 arg4 harg4 arg5 harg5 arg6 harg6 arg7 harg7 arg8 harg8 arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_whole_last _ _ hz _ _ _).trans ?_
    simp only [View.readAt_eq_ld, View.ld_unit_zero (S := S1024x4096) hz, View.ld_unit_zero (S := S256x4096) hz, View.ld_unit_zero (S := S1x256) hz]
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (read_writes_whole_last _ _ hz _ _ _).trans ?_
    unfold stepCols cols0; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]
  isplitl [HS1]
  · iexists _; isplitr
    swap; · iexact HS1
    ipureintro
    refine (read_writes_whole_last _ _ hz _ _ _).trans ?_
    unfold stepCols cols0; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]
  · iexists _; isplitr
    swap; · iexact HS2
    ipureintro
    refine (read_writes_whole_last _ _ hz _ _ _).trans ?_
    unfold stepCols cols0; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]

set_option maxHeartbeats 1000000 in
/-- The body at a vocabulary tile that is neither first nor last (neither conditional taken): the columns, found at `s`,
    are left folded once; the two column outputs are handed back untouched. -/
theorem kernelRun1_B (c : Dev nD) (E : Set ℕ) (i : grid1.Coords) (arg2 : Memref sig .tc .vmem S1024x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S1024x1 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬cond1_0 i) (hc1 : ¬cond1_1 i)
    (x0 : Vec F S1024x4096 .bf16) (x1 : Vec F S256x4096 .bf16) (x2 : Vec F S1x256 .f32) (x3 : Vec F S1024x1 .i32)
    (s : Cols F) (xi5 xi6 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xi5 ∗ owns (c : Thread nD τ) arg8 fullShare xi6
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay10 x0 x1 x2) ∗ owns (c : Thread nD τ) arg7 fullShare xi5 ∗ owns (c : Thread nD τ) arg8 fullShare xi6
            ∗ owns (c : Thread nD τ) arg9 fullShare (stepCols i x0 x1 x2 x3 s).1 ∗ owns (c : Thread nD τ) arg10 fullShare (stepCols i x0 x1 x2 x3 s).2.1
            ∗ owns (c : Thread nD τ) arg11 fullShare (stepCols i x0 x1 x2 x3 s).2.2) -∗ K ⟨⟩))
      ⊢ wp frame (wpE (defs₀ (F := F)) Variants.none c none) E (cc1__head_kernel i arg2 harg2 arg3 harg3 arg4 harg4 arg5 harg5 arg6 harg6 arg7 harg7 arg8 harg8 arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, Hk⟩
  subst hf0; subst hf1; subst hf2; subst hf3; subst hf5; subst hf6
  obtain rfl := harg9.eq_unread hfs0; obtain rfl := harg10.eq_unread hfs1; obtain rfl := harg11.eq_unread hfs2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_whole_last _ _ hz _ _ _).trans ?_
    simp only [View.readAt_eq_ld, View.ld_unit_zero (S := S1024x4096) hz, View.ld_unit_zero (S := S256x4096) hz, View.ld_unit_zero (S := S1x256) hz]
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  isplitl [HS1]
  · iexists _; isplitr
    swap; · iexact HS1
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  · iexists _; isplitr
    swap; · iexact HS2
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]

set_option maxHeartbeats 1000000 in
/-- The body at a last vocabulary tile (the final stores taken, the reset not): the columns, found at `s`, are left
    folded once, and the two column outputs hold the loss column and the validity column computed from the folded
    columns, which the body reads back after storing them. -/
theorem kernelRun1_C (c : Dev nD) (E : Set ℕ) (i : grid1.Coords) (arg2 : Memref sig .tc .vmem S1024x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S1024x1 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬cond1_0 i) (hc1 : cond1_1 i)
    (x0 : Vec F S1024x4096 .bf16) (x1 : Vec F S256x4096 .bf16) (x2 : Vec F S1x256 .f32) (x3 : Vec F S1024x1 .i32)
    (s : Cols F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay10 x0 x1 x2)
            ∗ owns (c : Thread nD τ) arg7 fullShare (k1_pay5 (k1_pay11 x3) (stepCols i x0 x1 x2 x3 s).1 (stepCols i x0 x1 x2 x3 s).2.1 (stepCols i x0 x1 x2 x3 s).2.2)
            ∗ owns (c : Thread nD τ) arg8 fullShare (k1_pay6 (k1_pay11 x3))
            ∗ owns (c : Thread nD τ) arg9 fullShare (stepCols i x0 x1 x2 x3 s).1 ∗ owns (c : Thread nD τ) arg10 fullShare (stepCols i x0 x1 x2 x3 s).2.1
            ∗ owns (c : Thread nD τ) arg11 fullShare (stepCols i x0 x1 x2 x3 s).2.2) -∗ K ⟨⟩))
      ⊢ wp frame (wpE (defs₀ (F := F)) Variants.none c none) E (cc1__head_kernel i arg2 harg2 arg3 harg3 arg4 harg4 arg5 harg5 arg6 harg6 arg7 harg7 arg8 harg8 arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  subst hf0; subst hf1; subst hf2; subst hf3
  obtain rfl := harg9.eq_unread hfs0; obtain rfl := harg10.eq_unread hfs1; obtain rfl := harg11.eq_unread hfs2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_whole_last _ _ hz _ _ _).trans ?_
    simp only [View.readAt_eq_ld, View.ld_unit_zero (S := S1024x4096) hz, View.ld_unit_zero (S := S256x4096) hz, View.ld_unit_zero (S := S1x256) hz]
  isplitl [H5]
  · iexists _; isplitr
    swap; · iexact H5
    ipureintro
    refine (read_writes_whole_last _ _ hz _ _ _).trans ?_
    unfold stepCols; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]
  isplitl [H6]
  · iexists _; isplitr
    swap; · iexact H6
    ipureintro
    refine (read_writes_whole_last _ _ hz _ _ _).trans ?_
    dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  isplitl [HS0]
  · iexists _; isplitr
    swap; · iexact HS0
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  isplitl [HS1]
  · iexists _; isplitr
    swap; · iexact HS1
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  · iexists _; isplitr
    swap; · iexact HS2
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the point's position among the vocabulary tiles
    says which of the three runs applies; the invariant hands the run the three columns at what the point before
    left (at anything before the very first point, and the first tile of a row tile forgets them) and takes them
    back folded once; the two column outputs are handed back untouched off the last vocabulary tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 500 := lt_of_lt_of_eq t.isLt (show cfg1.N = 500 from N_1)
  by_cases h0 : t.val % 125 = 0
  · have h1 : ¬t.val % 125 = 124 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 _ hc1) (noFlush1_5 t h1)]
    rw [Dat.leavesExact_idle (dat1 V c) 6 t (idleAt1_6 _ hc1) (noFlush1_6 t h1)]
    rw [colsAt1_first V c t h0]
    by_cases hz : t.val = 0
    · rw [PhiS1_castSucc V c t, PhiS1_zero V c _ _ hz, PhiA1_eq, PhiA1]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c Set.univ (grid1.coords t) _ _ _ _ _ _ _ _ _ _ _ _ _ _ _ _ _ _ _ _ hc0 hc1 (iblk1 V c 0 t) (iblk1 V c 1 t) (iblk1 V c 2 t) (iblk1 V c 3 t) ((dat1 V c).before 5 t d5) ((dat1 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
    · rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c Set.univ (grid1.coords t) _ _ _ _ _ _ _ _ _ _ _ _ _ _ _ _ _ _ _ _ hc0 hc1 (iblk1 V c 0 t) (iblk1 V c 1 t) (iblk1 V c 2 t) (iblk1 V c 3 t) ((dat1 V c).before 5 t d5) ((dat1 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
  · have hc0 : ¬cond1_0 (grid1.coords t) := fun h => h0 ((hcond1_0 t).mp h)
    have hz : t.val ≠ 0 := fun e => h0 (by rw [e])
    rw [colsAt1_next V c t h0]
    rw [PhiS1_castSucc V c t, PhiS1_pos V c _ _ hz]
    by_cases h1 : t.val % 125 = 124
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 _ hc1], after1_5]
      rw [show (dat1 V c).leavesExact 6 t = owns (c : Thread nD τ) (st1_6 t) fullShare ((dat1 V c).after 6 t) from by
        unfold Dat.leavesExact; rw [liveAt1_6 _ hc1], after1_6]
      rw [colsAt1_next V c t h0]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_C c Set.univ (grid1.coords t) _ _ _ _ _ _ _ _ _ _ _ _ _ _ _ _ _ _ _ _ hc0 hc1 (iblk1 V c 0 t) (iblk1 V c 1 t) (iblk1 V c 2 t) (iblk1 V c 3 t) (colsAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 5 t (idleAt1_5 _ hc1) (noFlush1_5 t h1)]
      rw [Dat.leavesExact_idle (dat1 V c) 6 t (idleAt1_6 _ hc1) (noFlush1_6 t h1)]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_B c Set.univ (grid1.coords t) _ _ _ _ _ _ _ _ _ _ _ _ _ _ _ _ _ _ _ _ hc0 hc1 (iblk1 V c 0 t) (iblk1 V c 1 t) (iblk1 V c 2 t) (iblk1 V c 3 t) (colsAt1 V c (t.val - 1) (Nat.lt_of_le_of_lt (Nat.sub_le _ _) t.isLt)) ((dat1 V c).before 5 t d5) ((dat1 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the constant one back: the columns' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 500 := N_1; omega), PhiA1_eq, PhiA1]
  iintro ⟨⟨Hoth, HS0, HS1, HS2⟩, Hg⟩
  isplitl [Hoth HS0 HS1 HS2]
  · isplitl [Hoth]; · iexact Hoth
    isplitl [HS0]; · iexists _; iexact HS0
    isplitl [HS1]; · iexists _; iexact HS1
    iexists _; iexact HS2
  iexact Hg

end Cert.Kernel.Hand

end
-- ==== Proof.K.Run.lean ====
/-
  The whole run of the kernel's program: @main as eight items in order — a stretch of host operations, the
  projector region, four more stretches, the head region, a last stretch — each entered from the buffer
  contents the one before it left (RunData). A stretch takes every unscoped buffer of the core from one
  valuation to the next; a region takes its arrays out of the unscoped buffers, runs its pipeline on them
  and puts them back at what the write-backs leave, every other buffer riding along untouched. Beside the
  buffers a core carries only its generator register (at some state) and the fact that it owes nothing.
  The conclusion: every weakly fair execution terminates and the final memory is, buffer by buffer, the
  last valuation; the program's arguments, which nothing writes, end as launched.
-/
import proofs.«417710_j44341242364213_2_alg».proof.Proof.K.RunData
import proofs.«417710_j44341242364213_2_alg».proof.Proof.K.Reg1Body
import proofs.«417710_j44341242364213_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A region's exit: its arrays at what the pipeline leaves, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

/-! ## The arguments end as launched: no host operation writes one and neither region has one among its arrays -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_3 _ hostOps1_3_writes (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide)
    _ = W6 m c (Proc.devRef .tc main_arg3) := W7_of_ne m c main_arg3 (by decide)
    _ = W5 m c (Proc.devRef .tc main_arg3) := StableHlo.after_of_writes_sub hostOps1_3 _ hostOps1_3_writes (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps2 _ hostOps2_writes (by decide)
    _ = W6 m c (Proc.devRef .tc main_arg4) := W7_of_ne m c main_arg4 (by decide)
    _ = W5 m c (Proc.devRef .tc main_arg4) := StableHlo.after_of_writes_sub hostOps1_3 _ hostOps1_3_writes (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps2 _ hostOps2_writes (by decide)
    _ = W6 m c (Proc.devRef .tc main_arg5) := W7_of_ne m c main_arg5 (by decide)
    _ = W5 m c (Proc.devRef .tc main_arg5) := StableHlo.after_of_writes_sub hostOps1_3 _ hostOps1_3_writes (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := StableHlo.after_of_writes_sub hostOps2 _ hostOps2_writes (by decide)
    _ = W6 m c (Proc.devRef .tc main_arg6) := W7_of_ne m c main_arg6 (by decide)
    _ = W5 m c (Proc.devRef .tc main_arg6) := StableHlo.after_of_writes_sub hostOps1_3 _ hostOps1_3_writes (by decide)
    _ = W4 m c (Proc.devRef .tc main_arg6) := StableHlo.after_of_writes_sub hostOps1_2 _ hostOps1_2_writes (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := StableHlo.after_of_writes_sub hostOps2 _ hostOps2_writes (by decide)
    _ = W6 m c (Proc.devRef .tc main_arg7) := W7_of_ne m c main_arg7 (by decide)
    _ = W5 m c (Proc.devRef .tc main_arg7) := StableHlo.after_of_writes_sub hostOps1_3 _ hostOps1_3_writes (by decide)
    _ = W4 m c (Proc.devRef .tc main_arg7) := StableHlo.after_of_writes_sub hostOps1_2 _ hostOps1_2_writes (by decide)
    _ = W3 m c (Proc.devRef .tc main_arg7) := StableHlo.after_of_writes_sub hostOps1_1 _ hostOps1_1_writes (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the fact
    that the core owes nothing. -/
abbrev R (c : Dev nD) : sProp 𝕄 := iprop((∃ r, prngReg c r) ∗ ∃ W, owes (c : Thread nD τ) (0 : CellTallies nD τ sig Unit) W)
/-- A stretch of host operations as an item: over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register
    at some state. -/
abbrev Tₙ (c : Dev nD) : sProp 𝕄 := iprop(StableHlo.held (c : Thread nD τ) (Pipeline.ucRefs τ sig) (W8 m c) ∗ ∃ r, prngReg c r)

/-- The last item's exit is the last thread state beside the core owing nothing. -/
theorem last_state (c : Dev nD) :
    iprop(StableHlo.held (c : Thread nD τ) (Pipeline.ucRefs τ sig) (W8 m c) ∗ R c)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as items -/

set_option backward.isDefEq.respectTransparency.types false in
/-- The projector region: entered from every unscoped buffer at `W1`, left at `W2`. Its arrays are taken out of
    the unscoped buffers and put back at the exit contents; the generator register goes into the constant
    invariant and comes out of it; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region: entered from every unscoped buffer at `W6`, left at `W7`. Its invariant is the constant one
    before the first point and after the last (the carried columns' contents are forgotten there). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ (pdats m 1 c).Φ 0 := hin1 (V6 m) c
    iintro ⟨Hp, -, Hr⟩
    iapply h
    isplitl [Hr]; · iexact Hr
    iexact Hp
  hout c := by
    have h : (pdats m 1 c).Φ (Fin.last _) ⊢ iprop(Pipeline.scopedRest spec1 c ∗ ∃ r, prngReg c r) := hout1 (V6 m) c
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)) ]

set_option backward.isDefEq.respectTransparency.types false in
/-- THE RUN: from any memory with zero counters, every weakly fair execution of @main on the TensorCores
    terminates, and in every final memory each unscoped buffer of each core holds the last valuation's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs (onTc (τ := τ) (main (F := F))) ⟨m, fun _ => 0, ρ⟩).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_all m ρ)

end Cert.Kernel.Hand

end
-- ==== Proof.KI.Reg0.lean ====
/-
  Region 0 of the kernel's program: the projector, one matrix product per block of 256 rows.
  At each of its 9 grid points the body reads a block of 256 image rows (bf16), the whole projector
  weight and the bias row, and stores  x · wᵀ + b  over the whole output block. Nothing is carried
  between points, so the region invariant is the constant one (the kernel's scratch and the generator
  register at anything). Everything is stated for any float instance and at a parameter `V`: the
  contents of the core's buffers when the region is entered.
-/
import proofs.«417710_j44341242364213_2_alg».proof.Proof.Gen.KernelIdeal.Launch
import proofs.«417710_j44341242364213_2_alg».proof.Proof.Gen.KernelIdeal.Skeleton
import proofs.«417710_j44341242364213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window the body only reads holds its block at every point, fetched there or not: unfetched, its
    block index has not moved since the fetch. One statement per window (the block's type is the window's own). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_a : Rect S256x1024 := Rect.unit (s := S256x1024) ![0, 0] S256x1024.size inb_S256x1024_S256x1024_0_0
abbrev r0_b : Rect S4096x1024 := Rect.unit (s := S4096x1024) ![0, 0] S4096x1024.size inb_S4096x1024_S4096x1024_0_0
abbrev r0_c : Rect S1x4096 := Rect.unit (s := S1x4096) ![0, 0] S1x4096.size inb_S1x4096_S1x4096_0_0
abbrev r0_o : Rect S256x4096 := Rect.unit (s := S256x4096) ![0, 0] S256x4096.size inb_S256x4096_S256x4096_0_0

/-- The output block after the body, from the three input blocks: one store over the whole block. -/
def out0_3 (x0 : Vec F S256x1024 .bf16) (x1 : Vec F S4096x1024 .bf16) (x2 : Vec F S1x4096 .f32) : Vec F S256x4096 .f32 :=
  View.canon [⟨r0_o, k0_pay1 (View.ld x0 r0_a) (View.ld x1 r0_b) (View.ld x2 r0_c)⟩]

theorem cover0_3 (p0 : Vec F S256x4096 .f32) (y : S256x4096.Idx) :
    ∃ pc ∈ ([⟨r0_o, p0⟩] : List (View.Piece (Elt F) S256x4096 .f32)), y ∈ pc.1.set :=
  View.cover_of_tiled [⟨r0_o, p0⟩] S256x4096.size (by rfl) y

set_option maxHeartbeats 1000000 in
/-- The body on whole staging memrefs: the inputs are left as found, the output holds `out0_3` of them. -/
theorem sound_kernel0 (c : Dev nD) (E : Set ℕ) (i : grid0.Coords)
    (arg1 : Memref sig .tc .vmem S256x1024 .bf16) (harg1 : arg1.IsWhole) (arg2 : Memref sig .tc .vmem S4096x1024 .bf16) (harg2 : arg2.IsWhole)
    (arg3 : Memref sig .tc .vmem S1x4096 .f32) (harg3 : arg3.IsWhole) (arg4 : Memref sig .tc .vmem S256x4096 .f32) (harg4 : arg4.IsWhole)
    (x0 : Vec F S256x1024 .bf16) (x1 : Vec F S4096x1024 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Region 0's proof data on core `c`: the arrays as the region finds them; after the body each input's
    buffer at its block, the output's at `out0_3` of the input blocks; nothing tracked, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Data.lean ====
/-
  Region 1 of the kernel's program: the vocabulary head fused with the cross-entropy, on a grid of
  4 row tiles (1024 rows each) by 125 vocabulary tiles (256 columns each), the vocabulary axis innermost.
  At a point (rt, vt) the body computes the logits tile  s = h · wᵀ + b  (stored whole into the logits
  window), and carries three columns of 1024 entries across the vocabulary tiles of one row tile, in
  scratch: the running maximum of the row's logits, the running sum of exp(logit - maximum) rescaled
  whenever the maximum moves, and the logit at the row's target column (zero until its tile is met).
  The columns are reset at vt = 0; at vt = 124 the body stores  maximum + log(sum) - target logit
  (zero where the target is the ignored label) and the row's validity flag into the two column outputs,
  which are left untouched at every other point.
  This module holds the DATA of that account, for any float instance and at a parameter `V` (the core's
  buffers when the region is entered): the blocks, the carried columns point by point, what each
  output window's buffer holds after the body, the region invariant, the proof data.
-/
import proofs.«417710_j44341242364213_2_alg».proof.Proof.Gen.KernelIdeal.Launch
import proofs.«417710_j44341242364213_2_alg».proof.Proof.Gen.KernelIdeal.Skeleton
import proofs.«417710_j44341242364213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried columns: (running maximum, running rescaled sum, target logit). -/
abbrev Cols (F : FTy → Type) [FloatOps F] : Type := Vec F S1024x1 .f32 × Vec F S1024x1 .f32 × Vec F S1024x1 .f32

/-- The columns as the reset at the first vocabulary tile leaves them: -∞, 0, 0. -/
def cols0 : Cols F := (k1_pay7, k1_pay8, k1_pay9)

/-- One vocabulary tile folded into the columns: from the hidden block `x0`, the head-weight block `x1`,
    the bias block `x2` and the targets `x3` at grid coordinates `i`. -/
def stepCols (i : grid1.Coords) (x0 : Vec F S1024x4096 .bf16) (x1 : Vec F S256x4096 .bf16) (x2 : Vec F S1x256 .f32) (x3 : Vec F S1024x1 .i32)
    (s : Cols F) : Cols F :=
  (k1_pay3 (k1_pay13 x0 x1 x2) s.1,
   k1_pay2 (k1_pay10 x0 x1 x2) (k1_pay13 x0 x1 x2) s.1 s.1 s.2.1,
   k1_pay12 i x0 x1 x2 x3 s.2.2)

/-- The carried columns after the body at position `n`: reset first at the positions ≡ 0 (mod 125), the first
    vocabulary tile of a row tile; elsewhere folded over what position `n - 1` left. -/
def colsAt1 (c : Dev nD) : (n : ℕ) → n < cfg1.N → Cols F
  | 0, hn => stepCols (grid1.coords ⟨0, hn⟩) (iblk1 V c 0 ⟨0, hn⟩) (iblk1 V c 1 ⟨0, hn⟩) (iblk1 V c 2 ⟨0, hn⟩) (iblk1 V c 3 ⟨0, hn⟩) cols0
  | n + 1, hn =>
    if (n + 1) % 125 = 0 then
      stepCols (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) cols0
    else
      stepCols (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
        (colsAt1 c n (Nat.lt_of_succ_lt hn))

/-- At a first vocabulary tile the columns are the reset ones folded once. -/
theorem colsAt1_first (c : Dev nD) (t : Fin cfg1.N) (h0 : t.val % 125 = 0) :
    colsAt1 V c t.val t.isLt = stepCols (grid1.coords t) (iblk1 V c 0 t) (iblk1 V c 1 t) (iblk1 V c 2 t) (iblk1 V c 3 t) cols0 := by
  obtain ⟨n, hn⟩ := t
  cases n with
  | zero => rfl
  | succ n => exact (if_pos h0).trans rfl

/-- Elsewhere they are the previous position's folded once. -/
theorem colsAt1_next (c : Dev nD) (t : Fin cfg1.N) (h0 : ¬t.val % 125 = 0) :
    colsAt1 V c t.val t.isLt = stepCols (grid1.coords t) (iblk1 V c 0 t) (iblk1 V c 1 t) (iblk1 V c 2 t) (iblk1 V c 3 t)
      (colsAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-- The core's scoped buffers that are neither a staging buffer of this region nor its scratch (region 0's staging
    buffers), each whole at some contents. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position `n`: before the first point the constant one (every scratch at anything);
    afterwards the three scratch columns at what the position before left, the other scoped buffers at anything,
    the generator register at some state. -/
def PhiS1 (c : Dev nD) : (n : ℕ) → n ≤ cfg1.N → sProp 𝕄
  | 0, _ => Pipeline.ΦA spec1 c
  | n + 1, hn => iprop((otherScoped1 c
      ∗ owns (c : Thread nD τ) scM1_0 fullShare (colsAt1 V c n hn).1
      ∗ owns (c : Thread nD τ) scM1_1 fullShare (colsAt1 V c n hn).2.1
      ∗ owns (c : Thread nD τ) scM1_2 fullShare (colsAt1 V c n hn).2.2) ∗ (∃ r, prngReg c r))

/-- Region 1's proof data on core `c`. The two column outputs' `after` is the final formula at every point; it is
    consulted only at the last vocabulary tile of a row tile (elsewhere the window is idle and not written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay10 (iblk1 V c 0 t) (iblk1 V c 1 t) (iblk1 V c 2 t)
    | ⟨5, _⟩ => k1_pay5 (k1_pay11 (iblk1 V c 3 t)) (colsAt1 V c t.val t.isLt).1 (colsAt1 V c t.val t.isLt).2.1 (colsAt1 V c t.val t.isLt).2.2
    | ⟨6, _⟩ => k1_pay6 (k1_pay11 (iblk1 V c 3 t))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay10 (iblk1 V c 0 t) (iblk1 V c 1 t) (iblk1 V c 2 t) := by dsimp only [dat1]
theorem after1_5 (c : Dev nD) (t : Fin cfg1.N) :
    (dat1 V c).after 5 t = k1_pay5 (k1_pay11 (iblk1 V c 3 t)) (colsAt1 V c t.val t.isLt).1 (colsAt1 V c t.val t.isLt).2.1 (colsAt1 V c t.val t.isLt).2.2 := by
  dsimp only [dat1]
theorem after1_6 (c : Dev nD) (t : Fin cfg1.N) : (dat1 V c).after 6 t = k1_pay6 (k1_pay11 (iblk1 V c 3 t)) := by dsimp only [dat1]

end Cert.KernelIdeal.Hand

end
-- ==== Proof.KI.RunData.lean ====
/-
  The kernel's program as a walk through its buffers: what every unscoped buffer of the core holds at each
  boundary between two items of @main — the launch contents, then each stretch of host operations applied,
  then, after a region, that region's arrays at what its write-backs leave (the inputs as entered, each
  output's blocks folded in) and every other buffer as entered.
-/
import proofs.«417710_j44341242364213_2_alg».proof.Proof.KI.Reg0
import proofs.«417710_j44341242364213_2_alg».proof.Proof.KI.Reg1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the four host stretches between the regions (the reshape of region 0's result; the two embedding
    look-ups; the concatenation, the targets and the casts): region 1's entry. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
/-- After the last host stretch (the two sums, the maximum with one, the quotient, the reshape of the logits):
    what the program returns with. -/
abbrev W8 : Dev nD → Valuation τ sig (Elt F) := fun c => StableHlo.after hostOps2 (W7 m c)

end Cert.KernelIdeal.Hand

end
-- ==== Proof.KI.Reg1Body.lean ====
/-
  Region 1, the body: at every grid point the head kernel's body, run on the staging buffers the pipeline
  hands it and on the three scratch columns, leaves what the region's proof data say (Reg1Data): the logits
  tile in its window, the carried columns folded once (after the reset, at a first vocabulary tile), and at a
  last vocabulary tile the two column outputs.
  Every access of the body is over a whole buffer, so what a buffer holds after the body is the payload of the
  last store into it, and every load reads the buffer's contents (or, after a store, that store's payload).
  The points fall into three cases by the position of the vocabulary tile in its row tile: first (the columns
  are reset before they are folded), last (the two column outputs are stored), neither.
-/
import proofs.«417710_j44341242364213_2_alg».proof.Proof.KI.Reg1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid -/

/-- The condition of the reset: the vocabulary coordinate is 0. -/
abbrev cond1_0 (i : grid1.Coords) : Prop := (Scalar.cmpi .ne (Scalar.extui (Scalar.cmpi .eq (BitVec.ofNat 32 (i 1).val) 0#32)) 0#32) = 1#1
/-- The condition of the final stores: the vocabulary coordinate is 124. -/
abbrev cond1_1 (i : grid1.Coords) : Prop := k1_cond2 i = 1#1

/-- The first conditional's condition holds at the first vocabulary tile of each row tile. -/
theorem hcond1_0 : ∀ t : Fin cfg1.N, cond1_0 (grid1.coords t) ↔ t.val % 125 = 0 :=
  (by decide +kernel : ∀ t : Fin grid1.N, cond1_0 (grid1.coords t) ↔ t.val % 125 = 0)
/-- The last conditional's condition holds at the last vocabulary tile of each row tile. -/
theorem hcond1_1 : ∀ t : Fin cfg1.N, cond1_1 (grid1.coords t) ↔ t.val % 125 = 124 :=
  (by decide +kernel : ∀ t : Fin grid1.N, cond1_1 (grid1.coords t) ↔ t.val % 125 = 124)

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
theorem liveAt1_4 (t : Fin cfg1.N) : cfg1.idle 4 (grid1.coords t) = false := rfl

/-- The two column outputs are idle wherever the last conditional is not taken, -/
theorem idleAt1_5 (i : grid1.Coords) (h : ¬cond1_1 i) : cfg1.idle 5 i = true := by
  show (!(k1_cond2 i == 1#1)) = true
  simp only [Bool.not_eq_true', beq_eq_false_iff_ne, ne_eq]; exact h
theorem idleAt1_6 (i : grid1.Coords) (h : ¬cond1_1 i) : cfg1.idle 6 i = true := by
  show (!(k1_cond2 i == 1#1)) = true
  simp only [Bool.not_eq_true', beq_eq_false_iff_ne, ne_eq]; exact h
/-- and live where it is. -/
theorem liveAt1_5 (i : grid1.Coords) (h : cond1_1 i) : cfg1.idle 5 i = false := by
  show (!(k1_cond2 i == 1#1)) = false
  simp only [Bool.not_eq_false', beq_iff_eq]; exact h
theorem liveAt1_6 (i : grid1.Coords) (h : cond1_1 i) : cfg1.idle 6 i = false := by
  show (!(k1_cond2 i == 1#1)) = false
  simp only [Bool.not_eq_false', beq_iff_eq]; exact h
/-- Off the last vocabulary tile they are not written back. -/
theorem noFlush1_5 (t : Fin cfg1.N) (h : ¬t.val % 125 = 124) : (cfg1.win 5).flush t = false :=
  Bool.eq_false_iff.mpr fun hf => h ((flush1_5 t).mp hf)
theorem noFlush1_6 (t : Fin cfg1.N) (h : ¬t.val % 125 = 124) : (cfg1.win 6).flush t = false :=
  Bool.eq_false_iff.mpr fun hf => h ((flush1_6 t).mp hf)

/-! ## Whole-buffer accesses -/

theorem hz : (![0, 0] : Fin 2 → Nat) = fun _ => 0 := funext fun a => by fin_cases a <;> rfl

/-- What a list of stores whose last is over the whole buffer leaves: that store's payload. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The inputs' buffers hold their blocks -/

/- An input window the body only reads holds its block at every point, fetched there or not: unfetched, its block
   index has not moved since the fetch. One statement per window (the block's type is the window's own). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-! ## The region invariant, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((otherScoped1 c
      ∗ owns (c : Thread nD τ) scM1_0 fullShare (colsAt1 V c n hn).1
      ∗ owns (c : Thread nD τ) scM1_1 fullShare (colsAt1 V c n hn).2.1
      ∗ owns (c : Thread nD τ) scM1_2 fullShare (colsAt1 V c n hn).2.2) ∗ (∃ r, prngReg c r)) := rfl

theorem PhiS1_pos (c : Dev nD) (n : ℕ) (h : n ≤ cfg1.N) (hz : n ≠ 0) :
    PhiS1 V c n h = iprop((otherScoped1 c
      ∗ owns (c : Thread nD τ) scM1_0 fullShare (colsAt1 V c (n - 1) (by omega)).1
      ∗ owns (c : Thread nD τ) scM1_1 fullShare (colsAt1 V c (n - 1) (by omega)).2.1
      ∗ owns (c : Thread nD τ) scM1_2 fullShare (colsAt1 V c (n - 1) (by omega)).2.2) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The constant invariant with the three scratch columns as memrefs owned at some contents. -/
def PhiA1 (c : Dev nD) : sProp 𝕄 :=
  iprop((otherScoped1 c ∗ (∃ d, owns (c : Thread nD τ) scM1_0 fullShare d) ∗ (∃ d, owns (c : Thread nD τ) scM1_1 fullShare d)
    ∗ (∃ d, owns (c : Thread nD τ) scM1_2 fullShare d)) ∗ (∃ r, prngReg c r))

theorem PhiA1_open (c : Dev nD) : (Pipeline.ΦA spec1 c : sProp 𝕄) ⊢ PhiA1 (F := F) c := by
  unfold Pipeline.ΦA PhiA1 otherScoped1; rw [scopedRest1_eq]; simp only [scM1_0, scM1_1, scM1_2, owns_whole]
  iintro ⟨⟨A1, A2, A3, A4, A5, A6, S0, S1, S2⟩, Hg⟩
  isplitl [A1 A2 A3 A4 A5 A6 S0 S1 S2]
  · isplitl [A1 A2 A3 A4 A5 A6]
    · isplitl [A1]; · iexact A1
      isplitl [A2]; · iexact A2
      isplitl [A3]; · iexact A3
      isplitl [A4]; · iexact A4
      isplitl [A5]; · iexact A5
      iexact A6
    isplitl [S0]; · iexact S0
    isplitl [S1]; · iexact S1
    iexact S2
  iexact Hg

theorem PhiA1_close (c : Dev nD) : PhiA1 (F := F) c ⊢ (Pipeline.ΦA spec1 c : sProp 𝕄) := by
  unfold Pipeline.ΦA PhiA1 otherScoped1; rw [scopedRest1_eq]; simp only [scM1_0, scM1_1, scM1_2, owns_whole]
  iintro ⟨⟨⟨A1, A2, A3, A4, A5, A6⟩, S0, S1, S2⟩, Hg⟩
  isplitl [A1 A2 A3 A4 A5 A6 S0 S1 S2]
  · isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    iexact S2
  iexact Hg

theorem PhiA1_eq (c : Dev nD) : (Pipeline.ΦA spec1 c : sProp 𝕄) = PhiA1 (F := F) c :=
  BI.equiv_iff.mp ⟨PhiA1_open c, PhiA1_close c⟩

/-! ## The body's three runs -/

set_option maxHeartbeats 1000000 in
/-- The body at a first vocabulary tile of a row tile (the reset taken, the final stores not): on whole buffers, the
    inputs at their blocks, the logits buffer and the three columns at anything, the two column outputs at contents
    handed back untouched, it leaves the logits tile, and the reset columns folded once. -/
theorem kernelRun1_A (c : Dev nD) (E : Set ℕ) (i : grid1.Coords) (arg2 : Memref sig .tc .vmem S1024x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S1024x1 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : cond1_0 i) (hc1 : ¬cond1_1 i)
    (x0 : Vec F S1024x4096 .bf16) (x1 : Vec F S256x4096 .bf16) (x2 : Vec F S1x256 .f32) (x3 : Vec F S1024x1 .i32)
    (xi5 xi6 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xi5 ∗ owns (c : Thread nD τ) arg8 fullShare xi6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay10 x0 x1 x2) ∗ owns (c : Thread nD τ) arg7 fullShare xi5 ∗ owns (c : Thread nD τ) arg8 fullShare xi6
            ∗ owns (c : Thread nD τ) arg9 fullShare (stepCols i x0 x1 x2 x3 cols0).1 ∗ owns (c : Thread nD τ) arg10 fullShare (stepCols i x0 x1 x2 x3 cols0).2.1
            ∗ owns (c : Thread nD τ) arg11 fullShare (stepCols i x0 x1 x2 x3 cols0).2.2) -∗ K ⟨⟩))
      ⊢ wp frame (wpE (defs₀ (F := F)) Variants.none c none) E (cc1__head_kernel i arg2 harg2 arg3 harg3 arg4 harg4 arg5 harg5 arg6 harg6 arg7 harg7 arg8 harg8 arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_whole_last _ _ hz _ _ _).trans ?_
    simp only [View.readAt_eq_ld, View.ld_unit_zero (S := S1024x4096) hz, View.ld_unit_zero (S := S256x4096) hz, View.ld_unit_zero (S := S1x256) hz]
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (read_writes_whole_last _ _ hz _ _ _).trans ?_
    unfold stepCols cols0; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]
  isplitl [HS1]
  · iexists _; isplitr
    swap; · iexact HS1
    ipureintro
    refine (read_writes_whole_last _ _ hz _ _ _).trans ?_
    unfold stepCols cols0; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]
  · iexists _; isplitr
    swap; · iexact HS2
    ipureintro
    refine (read_writes_whole_last _ _ hz _ _ _).trans ?_
    unfold stepCols cols0; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]

set_option maxHeartbeats 1000000 in
/-- The body at a vocabulary tile that is neither first nor last (neither conditional taken): the columns, found at `s`,
    are left folded once; the two column outputs are handed back untouched. -/
theorem kernelRun1_B (c : Dev nD) (E : Set ℕ) (i : grid1.Coords) (arg2 : Memref sig .tc .vmem S1024x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S1024x1 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬cond1_0 i) (hc1 : ¬cond1_1 i)
    (x0 : Vec F S1024x4096 .bf16) (x1 : Vec F S256x4096 .bf16) (x2 : Vec F S1x256 .f32) (x3 : Vec F S1024x1 .i32)
    (s : Cols F) (xi5 xi6 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xi5 ∗ owns (c : Thread nD τ) arg8 fullShare xi6
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay10 x0 x1 x2) ∗ owns (c : Thread nD τ) arg7 fullShare xi5 ∗ owns (c : Thread nD τ) arg8 fullShare xi6
            ∗ owns (c : Thread nD τ) arg9 fullShare (stepCols i x0 x1 x2 x3 s).1 ∗ owns (c : Thread nD τ) arg10 fullShare (stepCols i x0 x1 x2 x3 s).2.1
            ∗ owns (c : Thread nD τ) arg11 fullShare (stepCols i x0 x1 x2 x3 s).2.2) -∗ K ⟨⟩))
      ⊢ wp frame (wpE (defs₀ (F := F)) Variants.none c none) E (cc1__head_kernel i arg2 harg2 arg3 harg3 arg4 harg4 arg5 harg5 arg6 harg6 arg7 harg7 arg8 harg8 arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, Hk⟩
  subst hf0; subst hf1; subst hf2; subst hf3; subst hf5; subst hf6
  obtain rfl := harg9.eq_unread hfs0; obtain rfl := harg10.eq_unread hfs1; obtain rfl := harg11.eq_unread hfs2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_whole_last _ _ hz _ _ _).trans ?_
    simp only [View.readAt_eq_ld, View.ld_unit_zero (S := S1024x4096) hz, View.ld_unit_zero (S := S256x4096) hz, View.ld_unit_zero (S := S1x256) hz]
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  isplitl [HS1]
  · iexists _; isplitr
    swap; · iexact HS1
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  · iexists _; isplitr
    swap; · iexact HS2
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]

set_option maxHeartbeats 1000000 in
/-- The body at a last vocabulary tile (the final stores taken, the reset not): the columns, found at `s`, are left
    folded once, and the two column outputs hold the loss column and the validity column computed from the folded
    columns, which the body reads back after storing them. -/
theorem kernelRun1_C (c : Dev nD) (E : Set ℕ) (i : grid1.Coords) (arg2 : Memref sig .tc .vmem S1024x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S1024x1 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬cond1_0 i) (hc1 : cond1_1 i)
    (x0 : Vec F S1024x4096 .bf16) (x1 : Vec F S256x4096 .bf16) (x2 : Vec F S1x256 .f32) (x3 : Vec F S1024x1 .i32)
    (s : Cols F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay10 x0 x1 x2)
            ∗ owns (c : Thread nD τ) arg7 fullShare (k1_pay5 (k1_pay11 x3) (stepCols i x0 x1 x2 x3 s).1 (stepCols i x0 x1 x2 x3 s).2.1 (stepCols i x0 x1 x2 x3 s).2.2)
            ∗ owns (c : Thread nD τ) arg8 fullShare (k1_pay6 (k1_pay11 x3))
            ∗ owns (c : Thread nD τ) arg9 fullShare (stepCols i x0 x1 x2 x3 s).1 ∗ owns (c : Thread nD τ) arg10 fullShare (stepCols i x0 x1 x2 x3 s).2.1
            ∗ owns (c : Thread nD τ) arg11 fullShare (stepCols i x0 x1 x2 x3 s).2.2) -∗ K ⟨⟩))
      ⊢ wp frame (wpE (defs₀ (F := F)) Variants.none c none) E (cc1__head_kernel i arg2 harg2 arg3 harg3 arg4 harg4 arg5 harg5 arg6 harg6 arg7 harg7 arg8 harg8 arg9 harg9 arg10 harg10 arg11 harg11) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  subst hf0; subst hf1; subst hf2; subst hf3
  obtain rfl := harg9.eq_unread hfs0; obtain rfl := harg10.eq_unread hfs1; obtain rfl := harg11.eq_unread hfs2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_whole_last _ _ hz _ _ _).trans ?_
    simp only [View.readAt_eq_ld, View.ld_unit_zero (S := S1024x4096) hz, View.ld_unit_zero (S := S256x4096) hz, View.ld_unit_zero (S := S1x256) hz]
  isplitl [H5]
  · iexists _; isplitr
    swap; · iexact H5
    ipureintro
    refine (read_writes_whole_last _ _ hz _ _ _).trans ?_
    unfold stepCols; dsimp only
    sl_unfold_words
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz, View.readCov_unit_zero (S := S1024x1) _ hz]
  isplitl [H6]
  · iexists _; isplitr
    swap; · iexact H6
    ipureintro
    refine (read_writes_whole_last _ _ hz _ _ _).trans ?_
    dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  isplitl [HS0]
  · iexists _; isplitr
    swap; · iexact HS0
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  isplitl [HS1]
  · iexists _; isplitr
    swap; · iexact HS1
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]
  · iexists _; isplitr
    swap; · iexact HS2
    ipureintro
    refine (read_writes_whole_last _ _ hz _ _ _).trans ?_
    unfold stepCols; dsimp only
    simp only [View.readAt_eq_ld, harg9.read_unread, harg10.read_unread, harg11.read_unread, View.ld_unit_zero (S := S1024x4096) hz, View.ld_unit_zero (S := S256x4096) hz, View.ld_unit_zero (S := S1x256) hz, View.ld_unit_zero (S := S1024x1) hz]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the point's position among the vocabulary tiles
    says which of the three runs applies; the invariant hands the run the three columns at what the point before
    left (at anything before the very first point, and the first tile of a row tile forgets them) and takes them
    back folded once; the two column outputs are handed back untouched off the last vocabulary tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 500 := lt_of_lt_of_eq t.isLt (show cfg1.N = 500 from N_1)
  by_cases h0 : t.val % 125 = 0
  · have h1 : ¬t.val % 125 = 124 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 _ hc1) (noFlush1_5 t h1)]
    rw [Dat.leavesExact_idle (dat1 V c) 6 t (idleAt1_6 _ hc1) (noFlush1_6 t h1)]
    rw [colsAt1_first V c t h0]
    by_cases hz : t.val = 0
    · rw [PhiS1_castSucc V c t, PhiS1_zero V c _ _ hz, PhiA1_eq, PhiA1]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c Set.univ (grid1.coords t) _ _ _ _ _ _ _ _ _ _ _ _ _ _ _ _ _ _ _ _ hc0 hc1 (iblk1 V c 0 t) (iblk1 V c 1 t) (iblk1 V c 2 t) (iblk1 V c 3 t) ((dat1 V c).before 5 t d5) ((dat1 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
    · rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c Set.univ (grid1.coords t) _ _ _ _ _ _ _ _ _ _ _ _ _ _ _ _ _ _ _ _ hc0 hc1 (iblk1 V c 0 t) (iblk1 V c 1 t) (iblk1 V c 2 t) (iblk1 V c 3 t) ((dat1 V c).before 5 t d5) ((dat1 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
  · have hc0 : ¬cond1_0 (grid1.coords t) := fun h => h0 ((hcond1_0 t).mp h)
    have hz : t.val ≠ 0 := fun e => h0 (by rw [e])
    rw [colsAt1_next V c t h0]
    rw [PhiS1_castSucc V c t, PhiS1_pos V c _ _ hz]
    by_cases h1 : t.val % 125 = 124
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 _ hc1], after1_5]
      rw [show (dat1 V c).leavesExact 6 t = owns (c : Thread nD τ) (st1_6 t) fullShare ((dat1 V c).after 6 t) from by
        unfold Dat.leavesExact; rw [liveAt1_6 _ hc1], after1_6]
      rw [colsAt1_next V c t h0]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_C c Set.univ (grid1.coords t) _ _ _ _ _ _ _ _ _ _ _ _ _ _ _ _ _ _ _ _ hc0 hc1 (iblk1 V c 0 t) (iblk1 V c 1 t) (iblk1 V c 2 t) (iblk1 V c 3 t) (colsAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 5 t (idleAt1_5 _ hc1) (noFlush1_5 t h1)]
      rw [Dat.leavesExact_idle (dat1 V c) 6 t (idleAt1_6 _ hc1) (noFlush1_6 t h1)]
      iintro ⟨⟨⟨Hoth, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_B c Set.univ (grid1.coords t) _ _ _ _ _ _ _ _ _ _ _ _ _ _ _ _ _ _ _ _ hc0 hc1 (iblk1 V c 0 t) (iblk1 V c 1 t) (iblk1 V c 2 t) (iblk1 V c 3 t) (colsAt1 V c (t.val - 1) (Nat.lt_of_le_of_lt (Nat.sub_le _ _) t.isLt)) ((dat1 V c).before 5 t d5) ((dat1 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the constant one back: the columns' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 500 := N_1; omega), PhiA1_eq, PhiA1]
  iintro ⟨⟨Hoth, HS0, HS1, HS2⟩, Hg⟩
  isplitl [Hoth HS0 HS1 HS2]
  · isplitl [Hoth]; · iexact Hoth
    isplitl [HS0]; · iexists _; iexact HS0
    isplitl [HS1]; · iexists _; iexact HS1
    iexists _; iexact HS2
  iexact Hg

end Cert.KernelIdeal.Hand

end
-- ==== Proof.KI.Run.lean ====
/-
  The whole run of the kernel's program: @main as eight items in order — a stretch of host operations, the
  projector region, four more stretches, the head region, a last stretch — each entered from the buffer
  contents the one before it left (RunData). A stretch takes every unscoped buffer of the core from one
  valuation to the next; a region takes its arrays out of the unscoped buffers, runs its pipeline on them
  and puts them back at what the write-backs leave, every other buffer riding along untouched. Beside the
  buffers a core carries only its generator register (at some state) and the fact that it owes nothing.
  The conclusion: every weakly fair execution terminates and the final memory is, buffer by buffer, the
  last valuation; the program's arguments, which nothing writes, end as launched.
-/
import proofs.«417710_j44341242364213_2_alg».proof.Proof.KI.RunData
import proofs.«417710_j44341242364213_2_alg».proof.Proof.KI.Reg1Body
import proofs.«417710_j44341242364213_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A region's exit: its arrays at what the pipeline leaves, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

/-! ## The arguments end as launched: no host operation writes one and neither region has one among its arrays -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_3 _ hostOps1_3_writes (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide)
    _ = W6 m c (Proc.devRef .tc main_arg3) := W7_of_ne m c main_arg3 (by decide)
    _ = W5 m c (Proc.devRef .tc main_arg3) := StableHlo.after_of_writes_sub hostOps1_3 _ hostOps1_3_writes (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps2 _ hostOps2_writes (by decide)
    _ = W6 m c (Proc.devRef .tc main_arg4) := W7_of_ne m c main_arg4 (by decide)
    _ = W5 m c (Proc.devRef .tc main_arg4) := StableHlo.after_of_writes_sub hostOps1_3 _ hostOps1_3_writes (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps2 _ hostOps2_writes (by decide)
    _ = W6 m c (Proc.devRef .tc main_arg5) := W7_of_ne m c main_arg5 (by decide)
    _ = W5 m c (Proc.devRef .tc main_arg5) := StableHlo.after_of_writes_sub hostOps1_3 _ hostOps1_3_writes (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := StableHlo.after_of_writes_sub hostOps2 _ hostOps2_writes (by decide)
    _ = W6 m c (Proc.devRef .tc main_arg6) := W7_of_ne m c main_arg6 (by decide)
    _ = W5 m c (Proc.devRef .tc main_arg6) := StableHlo.after_of_writes_sub hostOps1_3 _ hostOps1_3_writes (by decide)
    _ = W4 m c (Proc.devRef .tc main_arg6) := StableHlo.after_of_writes_sub hostOps1_2 _ hostOps1_2_writes (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := StableHlo.after_of_writes_sub hostOps2 _ hostOps2_writes (by decide)
    _ = W6 m c (Proc.devRef .tc main_arg7) := W7_of_ne m c main_arg7 (by decide)
    _ = W5 m c (Proc.devRef .tc main_arg7) := StableHlo.after_of_writes_sub hostOps1_3 _ hostOps1_3_writes (by decide)
    _ = W4 m c (Proc.devRef .tc main_arg7) := StableHlo.after_of_writes_sub hostOps1_2 _ hostOps1_2_writes (by decide)
    _ = W3 m c (Proc.devRef .tc main_arg7) := StableHlo.after_of_writes_sub hostOps1_1 _ hostOps1_1_writes (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the fact
    that the core owes nothing. -/
abbrev R (c : Dev nD) : sProp 𝕄 := iprop((∃ r, prngReg c r) ∗ ∃ W, owes (c : Thread nD τ) (0 : CellTallies nD τ sig Unit) W)
/-- A stretch of host operations as an item: over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register
    at some state. -/
abbrev Tₙ (c : Dev nD) : sProp 𝕄 := iprop(StableHlo.held (c : Thread nD τ) (Pipeline.ucRefs τ sig) (W8 m c) ∗ ∃ r, prngReg c r)

/-- The last item's exit is the last thread state beside the core owing nothing. -/
theorem last_state (c : Dev nD) :
    iprop(StableHlo.held (c : Thread nD τ) (Pipeline.ucRefs τ sig) (W8 m c) ∗ R c)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as items -/

set_option backward.isDefEq.respectTransparency.types false in
/-- The projector region: entered from every unscoped buffer at `W1`, left at `W2`. Its arrays are taken out of
    the unscoped buffers and put back at the exit contents; the generator register goes into the constant
    invariant and comes out of it; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region: entered from every unscoped buffer at `W6`, left at `W7`. Its invariant is the constant one
    before the first point and after the last (the carried columns' contents are forgotten there). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ (pdats m 1 c).Φ 0 := hin1 (V6 m) c
    iintro ⟨Hp, -, Hr⟩
    iapply h
    isplitl [Hr]; · iexact Hr
    iexact Hp
  hout c := by
    have h : (pdats m 1 c).Φ (Fin.last _) ⊢ iprop(Pipeline.scopedRest spec1 c ∗ ∃ r, prngReg c r) := hout1 (V6 m) c
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)) ]

set_option backward.isDefEq.respectTransparency.types false in
/-- THE RUN: from any memory with zero counters, every weakly fair execution of @main on the TensorCores
    terminates, and in every final memory each unscoped buffer of each core holds the last valuation's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs (onTc (τ := τ) (main (F := F))) ⟨m, fun _ => 0, ρ⟩).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_all m ρ)

end Cert.KernelIdeal.Hand

end
-- ==== Proof.KI.Reg1Pay.lean ====
/-
  Region 1's body, entry by entry, at the ideal values: the logits tile of a grid point is the hidden block
  times the transposed head-weight block plus the bias row; the tile's row maximum; and the three carried
  columns after one vocabulary tile in terms of the columns before it.
-/
import proofs.«417710_j44341242364213_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! ## The logits tile -/

/-- The product's left operand is read at the output's row … -/
theorem lhs_tile_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- … and the contraction's coordinate; -/
theorem lhs_tile_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- the right operand at the output's column … -/
theorem rhs_tile_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- … and the contraction's coordinate. -/
theorem rhs_tile_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The logits tile at row `p`, column `j`: the row of the hidden block against the row of the weight block, plus the bias. -/
theorem tile_apply (x0 : FVec Ideal S1024x4096 .bf16) (x1 : FVec Ideal S256x4096 .bf16) (x2 : FVec Ideal S1x256 .f32)
    (p : Fin 1024) (j : Fin 256) :
    k1_pay10 (F := Ideal) x0 x1 x2 (ix2 p j) = (∑ d : Fin 4096, x0 (ix2 p d) * x1 (ix2 j d)) + x2 (ix2 (0 : Fin 1) j) := by
  unfold k1_pay10
  simp only [shapeCast_self]
  refine (addf_apply _ _ _).trans ?_
  congr 1
  · refine (Ideal.matmul_constant_zero_apply dot_S1024x4096_S256x4096_S1024x256_1_1_0_0_n_n none x0 x1 (ix2 p j)).trans ?_
    rw [← Equiv.sum_comp (contrEquiv1 dot_S1024x4096_S256x4096_S1024x256_1_1_0_0_n_n 4096 rfl rfl).symm]
    refine Finset.sum_congr rfl fun k _ => ?_
    have hk := contrEquiv1_symm_val dot_S1024x4096_S256x4096_S1024x256_1_1_0_0_n_n 4096 rfl rfl k
    have el : dot_S1024x4096_S256x4096_S1024x256_1_1_0_0_n_n.lhsIdx (ix2 p j) ((contrEquiv1 dot_S1024x4096_S256x4096_S1024x256_1_1_0_0_n_n 4096 rfl rfl).symm k) = ix2 p k := funext fun a => Fin.ext (by
      match a with
      | ⟨0, _⟩ => exact lhs_tile_0 _ _
      | ⟨1, _⟩ => exact (lhs_tile_1 _ _).trans hk)
    have er : dot_S1024x4096_S256x4096_S1024x256_1_1_0_0_n_n.rhsIdx (ix2 p j) ((contrEquiv1 dot_S1024x4096_S256x4096_S1024x256_1_1_0_0_n_n 4096 rfl rfl).symm k) = ix2 j k := funext fun a => Fin.ext (by
      match a with
      | ⟨0, _⟩ => exact rhs_tile_0 _ _
      | ⟨1, _⟩ => exact (rhs_tile_1 _ _).trans hk)
    rw [el, er]
  · exact broadcastTo_apply x2 broadcasts_S1x256_S1024x256 (ix2 p j) (ix2 (0 : Fin 1) j) (fun a => match a with
      | ⟨0, _⟩ => by show 0 = if (1 : Nat) = 1 then 0 else _; rw [if_pos rfl]
      | ⟨1, _⟩ => by show j.val = if (256 : Nat) = 1 then 0 else j.val; rw [if_neg (by decide)])

/-! ## Layout and reductions of a [1024, 256] tile -/

/-- A [1024] vector recast as a column reads the same row. -/
theorem col_apply {α : Type} (v : S1024.Idx → α) (p : Fin 1024) :
    shapeCast S1024x1 v shapeCasts_S1024_S1024x1 (ix2 p (0 : Fin 1)) = v (ix1 p) :=
  shapeCast_apply v shapeCasts_S1024_S1024x1 (ix2 p (0 : Fin 1)) (ix1 p) (by
    rw [Shape.rowMajor_val_one, Shape.rowMajor_val_two]; show p.val = p.val * 1 + 0; omega)

/-- A column spread over the tile's 256 columns reads the row's entry. -/
theorem spread_apply {α : Type} (v : S1024x1.Idx → α) (p : Fin 1024) (j : Fin 256) :
    broadcastTo S1024x256 v broadcasts_S1024x1_S1024x256 (ix2 p j) = v (ix2 p (0 : Fin 1)) :=
  broadcastTo_apply v broadcasts_S1024x1_S1024x256 (ix2 p j) (ix2 p (0 : Fin 1)) (fun a => match a with
    | ⟨0, _⟩ => by show p.val = if (1024 : Nat) = 1 then 0 else p.val; rw [if_neg (by decide)]
    | ⟨1, _⟩ => by show 0 = if (1 : Nat) = 1 then 0 else _; rw [if_pos rfl])

/-- The entry a reduction along the columns reads at row `p`, step `k`: row `p`, column `k`. -/
theorem lift_row (p : Fin 1024) (k : Fin 256) : reduces_S1024x256_S1024.lift (ix1 p) k = ix2 p k :=
  funext fun a => Fin.ext (by match a with | ⟨0, _⟩ => rfl | ⟨1, _⟩ => rfl)

/-- A sum along the columns, at row `p`. -/
theorem rowSum_apply (src : FVec Ideal S1024x256 .f32) (p : Fin 1024) :
    multiReduction (F := Ideal) .add [1] S1024 src 0x00000000#32 reduces_S1024x256_S1024 (.inl rfl) rfl (ix1 p)
      = ∑ j : Fin 256, src (ix2 p j) := by
  refine (Ideal.multiReduction_add_single src 0x00000000#32 reduces_S1024x256_S1024 (.inl rfl) rfl (ix1 p)).trans ?_
  exact Finset.sum_congr rfl fun k _ => congrArg src (lift_row p k)

/-- The pattern a maximum starts from is -∞. -/
theorem ofBits_neg_inf : FloatOps.ofBits (F := Ideal) .f32 0xFF800000#32 = (⊥ : EReal) := by
  simp [Ideal.ofBits, Ideal.ieee]

/-- A maximum along the columns, at row `p`: the supremum of the row. -/
theorem rowMax_apply (src : FVec Ideal S1024x256 .f32) (p : Fin 1024) :
    multiReduction (F := Ideal) .maximumf [1] S1024 src 0xFF800000#32 reduces_S1024x256_S1024 (.inl rfl) rfl (ix1 p)
      = Finset.univ.sup (fun j : Fin 256 => src (ix2 p j)) := by
  refine (Ideal.multiReduction_maximumf_single src 0xFF800000#32 reduces_S1024x256_S1024 (.inl rfl) rfl (ix1 p)).trans ?_
  rw [ofBits_neg_inf, show (src ∘ reduces_S1024x256_S1024.lift (ix1 p)) = fun j : Fin 256 => src (ix2 p j) from
    funext fun k => congrArg src (lift_row p k)]
  rfl

/-- A select on "these two words are equal" is the `if`. -/
theorem select_eq_ite {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

/-- "These two words differ", as a bit. -/
theorem cmpi_ne_eq (x y : BitVec 32) : IntOp.cmpi .ne x y = if x = y then 0#1 else 1#1 := by
  unfold IntOp.cmpi
  by_cases h : x = y
  · subst h; simp
  · have hb : (x != y) = true := bne_iff_ne.mpr h
    simp [h, hb]

/-! ## The payloads at an entry -/

/-- The tile's row maximum. -/
theorem tileMax_apply (x0 : FVec Ideal S1024x4096 .bf16) (x1 : FVec Ideal S256x4096 .bf16) (x2 : FVec Ideal S1x256 .f32) (p : Fin 1024) :
    k1_pay13 (F := Ideal) x0 x1 x2 (ix2 p (0 : Fin 1))
      = Finset.univ.sup (fun j : Fin 256 => k1_pay10 (F := Ideal) x0 x1 x2 (ix2 p j)) := by
  unfold k1_pay13
  exact (col_apply _ p).trans (rowMax_apply _ p)

/-- The new running maximum: the larger of the old one and the tile's. -/
theorem newMax_apply (v31 v32 : FVec Ideal S1024x1 .f32) (i : S1024x1.Idx) :
    k1_pay3 (F := Ideal) v31 v32 i = max (v32 i) (v31 i) := by
  unfold k1_pay3 k1_pay1
  simp only [shapeCast_self]
  rfl

/-- The new running sum: the old one rescaled to the new maximum, plus the tile's exponentials shifted by it. -/
theorem newSum_apply (v11 : FVec Ideal S1024x256 .f32) (v31 v32 v34 v40 : FVec Ideal S1024x1 .f32) (p : Fin 1024) :
    k1_pay2 (F := Ideal) v11 v31 v32 v34 v40 (ix2 p (0 : Fin 1))
      = Ideal.exp (v34 (ix2 p (0 : Fin 1)) - max (v32 (ix2 p (0 : Fin 1))) (v31 (ix2 p (0 : Fin 1)))) * v40 (ix2 p (0 : Fin 1))
        + ∑ j : Fin 256, Ideal.exp (v11 (ix2 p j) - max (v32 (ix2 p (0 : Fin 1))) (v31 (ix2 p (0 : Fin 1)))) := by
  unfold k1_pay2 k1_pay1
  simp only [shapeCast_self]
  refine (addf_apply _ _ _).trans ?_
  congr 1
  refine (col_apply _ p).trans ((rowSum_apply _ p).trans ?_)
  refine Finset.sum_congr rfl fun j _ => ?_
  show Ideal.exp (v11 (ix2 p j) - broadcastTo S1024x256 (maximumf v32 v31) broadcasts_S1024x1_S1024x256 (ix2 p j)) = _
  rw [spread_apply]
  rfl

/-- The new target logit: the old one plus the tile's entries at the columns whose vocabulary number is the target. -/
theorem target_apply (i : grid1.Coords) (x0 : FVec Ideal S1024x4096 .bf16) (x1 : FVec Ideal S256x4096 .bf16) (x2 : FVec Ideal S1x256 .f32)
    (x3 : IVec S1024x1 32) (v25 : FVec Ideal S1024x1 .f32) (p : Fin 1024) :
    k1_pay12 (F := Ideal) i x0 x1 x2 x3 v25 (ix2 p (0 : Fin 1))
      = v25 (ix2 p (0 : Fin 1)) + ∑ j : Fin 256,
          if BitVec.ofNat 32 (i 1).val * 256#32 + BitVec.ofNat 32 j.val = x3 (ix2 p (0 : Fin 1))
            then k1_pay10 (F := Ideal) x0 x1 x2 (ix2 p j) else 0 := by
  unfold k1_pay12 k1_pay11
  simp only [shapeCast_self]
  refine (addf_apply _ _ _).trans ?_
  congr 1
  refine (col_apply _ p).trans ((rowSum_apply _ p).trans ?_)
  refine Finset.sum_congr rfl fun j _ => ?_
  refine (select_apply _ _ _ _).trans ?_
  show Scalar.select (IntOp.cmpi .eq (IntOp.addi (Scalar.muli (BitVec.ofNat 32 (i 1).val) 256#32)
      (iota .tc S1024x256 32 [1] iota_S1024x256_d1_w32 (ix2 p j)))
      (broadcastTo S1024x256 x3 broadcasts_S1024x1_S1024x256 (ix2 p j))) _ (Ideal.ofBits .f32 0x00000000#32) = _
  rw [iota_single_apply, spread_apply, Ideal.ofBits_zero_f32, select_eq_ite]
  rfl

/-- The negative log-likelihood entry: zero at the ignored label, else maximum plus log of the sum less the target logit. -/
theorem nll_apply (v18 : IVec S1024x1 32) (v54 v55 v58 : FVec Ideal S1024x1 .f32) (i : S1024x1.Idx) :
    k1_pay5 (F := Ideal) v18 v54 v55 v58 i
      = if v18 i = 4294967196#32 then 0 else (v54 i + Ideal.log (v55 i)) - v58 i := by
  unfold k1_pay5 k1_pay4
  refine (select_apply _ _ _ _).trans ?_
  show Scalar.select (IntOp.cmpi .ne (v18 i) 4294967196#32) ((v54 i + Ideal.log (v55 i)) - v58 i) (Ideal.ofBits .f32 0x00000000#32) = _
  rw [cmpi_ne_eq, Ideal.ofBits_zero_f32]
  by_cases h : v18 i = 4294967196#32
  · rw [if_pos h, if_pos h]; exact select_zero _ _
  · rw [if_neg h, if_neg h]; exact select_one _ _

/-- The validity entry: zero at the ignored label, else one. -/
theorem valid_apply (v18 : IVec S1024x1 32) (i : S1024x1.Idx) :
    k1_pay6 (F := Ideal) v18 i = if v18 i = 4294967196#32 then (0 : EReal) else 1 := by
  unfold k1_pay6 k1_pay4
  show (((((IntOp.cmpi .ne (v18 i) 4294967196#32).setWidth 32).toInt : ℝ)) : EReal) = _
  rw [cmpi_ne_eq]
  by_cases h : v18 i = 4294967196#32
  · rw [if_pos h, if_pos h]; simp
  · rw [if_neg h, if_neg h]; simp

end Cert.KernelIdeal.Hand

end
-- ==== Proof.Math.Online.lean ====
/-
  The online soft-max, row by row, as plain mathematics.

  A row of 32000 logits is met tile by tile, 125 tiles of 256. Three numbers are carried: the largest logit so
  far, the sum of  exp(logit - largest so far)  over the logits so far (rescaled by  exp(old largest - new largest)
  whenever the largest moves), and the logit at the target column (zero until its tile is met). After the last
  tile they are the row's largest logit M, the sum of exp(z - M) over the whole row, and the target's logit;
  so  M + log(sum) - target  is the negative log-likelihood, which the reference writes
  -((target - M) - log(sum)).
-/
import Idealize.ShloMosaic.PureOps.Ideal

noncomputable section

namespace Cert.Online

open Idealize.ShloMosaic

/-- The three carried numbers of one row: largest logit so far, rescaled sum so far, target logit so far. -/
structure Acc where
  m : EReal
  l : EReal
  t : EReal

/-- Before the first tile: -∞, 0, 0. -/
def init : Acc := ⟨⊥, 0, 0⟩

/-- One tile `s` folded in; `hit j` says column `j` of the tile is the row's target. -/
def step (s : Fin 256 → EReal) (hit : Fin 256 → Bool) (a : Acc) : Acc :=
  ⟨max a.m (Finset.univ.sup s),
   Ideal.exp (a.m - max a.m (Finset.univ.sup s)) * a.l + ∑ j : Fin 256, Ideal.exp (s j - max a.m (Finset.univ.sup s)),
   a.t + ∑ j : Fin 256, if hit j then s j else 0⟩

/-- The carried numbers after the first `n` tiles. -/
def run (x : Fin 125 → Fin 256 → EReal) (hit : Fin 125 → Fin 256 → Bool) : ℕ → Acc
  | 0 => init
  | n + 1 => if h : n < 125 then step (x ⟨n, h⟩) (hit ⟨n, h⟩) (run x hit n) else run x hit n

/-- Column `j` of tile `k` is vocabulary entry 256 k + j. -/
def voc (k : Fin 125) (j : Fin 256) : Fin 32000 :=
  ⟨k.val * 256 + j.val, by have := k.isLt; have := j.isLt; omega⟩

/-! ### Real coercions through finite sums and finite suprema -/

/-- A finite sum of real coercions is the coercion of the real sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A nonempty finite supremum of real coercions is the coercion of the real maximum. -/
theorem sup_coe {ι : Type*} (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun r : ℝ => (r : EReal))
    (fun a b => EReal.coe_strictMono.monotone.map_max)).symm

/-- Moving the shift of a sum of exponentials from one real to another is one multiplication:
    exp(M - M') · Σ exp(f - M) = Σ exp(f - M'). -/
theorem rescale {ι : Type*} (s : Finset ι) (f : ι → ℝ) (M M' : ℝ) :
    Ideal.exp ((M : EReal) - (M' : EReal)) * ∑ i ∈ s, Ideal.exp (((f i : ℝ) : EReal) - (M : EReal))
      = ∑ i ∈ s, Ideal.exp (((f i : ℝ) : EReal) - (M' : EReal)) := by
  simp only [← EReal.coe_sub, Ideal.exp_coe, ← coe_sum, ← EReal.coe_mul]
  congr 1
  rw [Finset.mul_sum]
  refine Finset.sum_congr rfl (fun i _ => ?_)
  rw [← Real.exp_add]
  congr 1
  ring

/-! ### The vocabulary entries of the first `n` tiles -/

/-- The vocabulary entries met in the first `n` tiles. -/
def seen (n : ℕ) : Finset (Fin 32000) := Finset.univ.filter (fun v => v.val < 256 * n)

theorem seen_zero : seen 0 = ∅ := by
  ext v; simp [seen]

theorem seen_all : seen 125 = Finset.univ := by
  ext v; simp [seen]

theorem voc_injective (k : Fin 125) : Function.Injective (voc k) := by
  intro j j' h
  have h' := congrArg Fin.val h
  simp only [voc] at h'
  exact Fin.ext (by omega)

/-- The first `n + 1` tiles are the first `n` tiles and tile `n`. -/
theorem seen_succ (n : ℕ) (h : n < 125) :
    seen (n + 1) = seen n ∪ Finset.univ.image (voc ⟨n, h⟩) := by
  ext v
  simp only [seen, Finset.mem_filter, Finset.mem_univ, true_and, Finset.mem_union, Finset.mem_image]
  constructor
  · intro hv
    by_cases h1 : v.val < 256 * n
    · exact Or.inl h1
    · right
      refine ⟨⟨v.val - 256 * n, by omega⟩, ?_⟩
      apply Fin.ext
      simp only [voc]
      omega
  · rintro (h1 | ⟨j, rfl⟩)
    · omega
    · have := j.isLt
      simp only [voc]
      omega

theorem seen_disjoint (n : ℕ) (h : n < 125) :
    Disjoint (seen n) (Finset.univ.image (voc ⟨n, h⟩)) := by
  rw [Finset.disjoint_left]
  intro v hv hv'
  simp only [seen, Finset.mem_filter, Finset.mem_univ, true_and] at hv
  simp only [Finset.mem_image, Finset.mem_univ, true_and] at hv'
  obtain ⟨j, rfl⟩ := hv'
  simp only [voc] at hv
  omega

/-- The carried numbers after `n ≤ 125` tiles: the largest logit met, the sum of exponentials shifted by it,
    the target's logit if met. -/
theorem run_seen (z : Fin 32000 → ℝ) (y : Fin 32000) : ∀ n : ℕ, n ≤ 125 →
    (run (fun k j => ((z (voc k j) : ℝ) : EReal)) (fun k j => decide (voc k j = y)) n).m
        = (seen n).sup (fun v => ((z v : ℝ) : EReal))
    ∧ (run (fun k j => ((z (voc k j) : ℝ) : EReal)) (fun k j => decide (voc k j = y)) n).l
        = ∑ v ∈ seen n, Ideal.exp (((z v : ℝ) : EReal) - (seen n).sup (fun v => ((z v : ℝ) : EReal)))
    ∧ (run (fun k j => ((z (voc k j) : ℝ) : EReal)) (fun k j => decide (voc k j = y)) n).t
        = ∑ v ∈ seen n, if v = y then ((z v : ℝ) : EReal) else 0 := by
  intro n
  induction n with
  | zero =>
    intro _
    simp [run, init, seen_zero]
  | succ n ih =>
    intro hn
    have h : n < 125 := by omega
    obtain ⟨ihm, ihl, iht⟩ := ih (by omega)
    have hrun : run (fun k j => ((z (voc k j) : ℝ) : EReal)) (fun k j => decide (voc k j = y)) (n + 1)
        = step (fun j => ((z (voc ⟨n, h⟩ j) : ℝ) : EReal)) (fun j => decide (voc ⟨n, h⟩ j = y))
            (run (fun k j => ((z (voc k j) : ℝ) : EReal)) (fun k j => decide (voc k j = y)) n) := by
      simp only [run, dif_pos h]
    have hsupT : (Finset.univ.sup fun j => ((z (voc ⟨n, h⟩ j) : ℝ) : EReal))
        = (Finset.univ.image (voc ⟨n, h⟩)).sup (fun v => ((z v : ℝ) : EReal)) := by
      rw [Finset.sup_image]; rfl
    have hm : max ((seen n).sup (fun v => ((z v : ℝ) : EReal)))
          (Finset.univ.sup fun j => ((z (voc ⟨n, h⟩ j) : ℝ) : EReal))
        = (seen (n + 1)).sup (fun v => ((z v : ℝ) : EReal)) := by
      rw [seen_succ n h, Finset.sup_union, hsupT]
    rw [hrun]
    simp only [step]
    rw [ihm, ihl, iht, hm]
    refine ⟨rfl, ?_, ?_⟩
    · -- the shifted sum
      have hne : (seen (n + 1)).Nonempty := by
        rw [seen_succ n h]
        exact Finset.Nonempty.inr (Finset.image_nonempty.mpr Finset.univ_nonempty)
      obtain ⟨M', hM'⟩ : ∃ M' : ℝ, (seen (n + 1)).sup (fun v => ((z v : ℝ) : EReal)) = (M' : EReal) :=
        ⟨_, sup_coe _ hne z⟩
      rw [hM']
      have hT : (∑ j : Fin 256, Ideal.exp (((z (voc ⟨n, h⟩ j) : ℝ) : EReal) - (M' : EReal)))
          = ∑ v ∈ Finset.univ.image (voc ⟨n, h⟩), Ideal.exp (((z v : ℝ) : EReal) - (M' : EReal)) := by
        rw [Finset.sum_image (fun a _ b _ hab => voc_injective _ hab)]
      rw [hT, seen_succ n h, Finset.sum_union (seen_disjoint n h)]
      rcases (seen n).eq_empty_or_nonempty with he | hne'
      · rw [he]
        simp
      · obtain ⟨M, hM⟩ : ∃ M : ℝ, (seen n).sup (fun v => ((z v : ℝ) : EReal)) = (M : EReal) :=
          ⟨_, sup_coe _ hne' z⟩
        rw [hM, rescale]
    · -- the target's logit
      rw [seen_succ n h, Finset.sum_union (seen_disjoint n h),
        Finset.sum_image (fun a _ b _ hab => voc_injective _ hab)]
      simp only [decide_eq_true_eq]

/-- After all 125 tiles of a row of REAL logits `z` with target `y`: the largest logit, the shifted sum of
    exponentials over the whole row, the target's logit. -/
theorem run_final (z : Fin 32000 → ℝ) (y : Fin 32000) :
    (run (fun k j => ((z (voc k j) : ℝ) : EReal)) (fun k j => decide (voc k j = y)) 125).m
        = Finset.univ.sup (fun v : Fin 32000 => ((z v : ℝ) : EReal))
    ∧ (run (fun k j => ((z (voc k j) : ℝ) : EReal)) (fun k j => decide (voc k j = y)) 125).l
        = ∑ v : Fin 32000, Ideal.exp (((z v : ℝ) : EReal) - Finset.univ.sup (fun v : Fin 32000 => ((z v : ℝ) : EReal)))
    ∧ (run (fun k j => ((z (voc k j) : ℝ) : EReal)) (fun k j => decide (voc k j = y)) 125).t = ((z y : ℝ) : EReal) := by
  obtain ⟨hm, hl, ht⟩ := run_seen z y 125 (le_refl _)
  rw [seen_all] at hm hl ht
  refine ⟨hm, hl, ?_⟩
  rw [ht]
  simp

/-- The kernel's arrangement of the negative log-likelihood is the reference's, for a row of real logits. -/
theorem nll_eq (z : Fin 32000 → ℝ) (y : Fin 32000) :
    (Finset.univ.sup (fun v : Fin 32000 => ((z v : ℝ) : EReal))
        + Ideal.log (∑ v : Fin 32000, Ideal.exp (((z v : ℝ) : EReal) - Finset.univ.sup (fun v : Fin 32000 => ((z v : ℝ) : EReal)))))
      - ((z y : ℝ) : EReal)
    = -((((z y : ℝ) : EReal) - Finset.univ.sup (fun v : Fin 32000 => ((z v : ℝ) : EReal)))
        - Ideal.log (∑ v : Fin 32000, Ideal.exp (((z v : ℝ) : EReal) - Finset.univ.sup (fun v : Fin 32000 => ((z v : ℝ) : EReal))))) := by
  have hne : (Finset.univ : Finset (Fin 32000)).Nonempty := ⟨⟨0, by norm_num⟩, Finset.mem_univ _⟩
  rw [sup_coe _ hne]
  simp only [← EReal.coe_sub, Ideal.exp_coe, ← coe_sum]
  have hpos : 0 < ∑ v : Fin 32000, Real.exp (z v - Finset.univ.sup' hne z) :=
    Finset.sum_pos (fun v _ => Real.exp_pos _) hne
  rw [Ideal.log_coe, if_neg (not_le.mpr hpos)]
  simp only [← EReal.coe_sub, ← EReal.coe_add, ← EReal.coe_neg]
  congr 1
  ring

end Cert.Online

end
-- ==== Proof.KI.Reg1Cols.lean ====
/-
  Region 1's carried columns, row by row. At grid point (rt, k) the body's four input blocks are rows
  1024·rt … of the hidden array, rows 256·k … of the head weight, columns 256·k … of the bias row and rows
  1024·rt … of the targets; so the logits tile's entry (p, j) is the logit of row 1024·rt + p at vocabulary
  entry 256·k + j, and one fold of the columns is one step of the online soft-max of that row. By induction
  on k the columns after tile k hold, at row p, the online soft-max's three numbers after k + 1 tiles.
-/
import proofs.«417710_j44341242364213_2_alg».proof.Proof.KI.Reg1Data
import proofs.«417710_j44341242364213_2_alg».proof.Proof.KI.Reg1Pay
import proofs.«417710_j44341242364213_2_alg».proof.Proof.Math.Online
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

variable (V : (c : Dev nD) → (b : Ref sig .tc) → Buf (Elt Ideal) ((c : Thread nD τ).loc b))

/-! ## Where the blocks sit -/

/-- The windows' block indices and the vocabulary coordinate at grid point `t` = (t / 125, t % 125), decided over the grid. -/
theorem idx1_facts : ∀ t : Fin cfg1.N,
    win1_0.index t (0 : Fin 2) = t.val / 125 ∧ win1_0.index t (1 : Fin 2) = 0
    ∧ win1_1.index t (0 : Fin 2) = t.val % 125 ∧ win1_1.index t (1 : Fin 2) = 0
    ∧ win1_2.index t (0 : Fin 2) = 0 ∧ win1_2.index t (1 : Fin 2) = t.val % 125
    ∧ win1_3.index t (0 : Fin 2) = t.val / 125 ∧ win1_3.index t (1 : Fin 2) = 0
    ∧ win1_4.index t (0 : Fin 2) = t.val / 125 ∧ win1_4.index t (1 : Fin 2) = t.val % 125
    ∧ win1_5.index t (0 : Fin 2) = t.val / 125 ∧ win1_5.index t (1 : Fin 2) = 0
    ∧ win1_6.index t (0 : Fin 2) = t.val / 125 ∧ win1_6.index t (1 : Fin 2) = 0
    ∧ (grid1.coords t (1 : Fin 2)).val = t.val % 125 :=
  (by decide +kernel : ∀ t : Fin grid1.N, _)

/-- The four arrays the region reads, as extended-real (resp. word) arrays. -/
abbrev arr_h (c : Dev nD) : S4096x4096.Idx → EReal := V c main_v10
abbrev arr_w (c : Dev nD) : S32000x4096.Idx → EReal := V c main_v17
abbrev arr_b (c : Dev nD) : S1x32000.Idx → EReal := V c main_v18
abbrev arr_t (c : Dev nD) : S4096x1.Idx → BitVec 32 := V c main_v16

/-- The four input blocks at a grid point, at their literal types. -/
abbrev hblk (c : Dev nD) (t : Fin cfg1.N) : FVec Ideal S1024x4096 .bf16 := iblk1 (F := Ideal) V c 0 t
abbrev wblk (c : Dev nD) (t : Fin cfg1.N) : FVec Ideal S256x4096 .bf16 := iblk1 (F := Ideal) V c 1 t
abbrev bblk (c : Dev nD) (t : Fin cfg1.N) : FVec Ideal S1x256 .f32 := iblk1 (F := Ideal) V c 2 t
abbrev tblk (c : Dev nD) (t : Fin cfg1.N) : IVec S1024x1 32 := iblk1 (F := Ideal) V c 3 t

/-- Row `p` of the hidden block at point `t` is row 1024·(t / 125) + p of the hidden array. -/
theorem hblk_apply (c : Dev nD) (t : Fin cfg1.N) (p : Fin 1024) (d : Fin 4096) (r : Fin 4096)
    (hr : r.val = 1024 * (t.val / 125) + p.val) : hblk V c t (ix2 p d) = arr_h V c (ix2 r d) := by
  obtain ⟨e0, e1, -⟩ := idx1_facts t
  show iblk1 (F := Ideal) V c 0 t (ix2 p d) = _
  unfold iblk1
  rw [View.read_apply]
  show V c main_v10 _ = V c main_v10 _
  congr 1
  funext a
  apply Fin.ext
  match a with
  | ⟨0, _⟩ => show win1_0.index t (0 : Fin 2) * 1024 + 1 * p.val = r.val; rw [e0]; omega
  | ⟨1, _⟩ => show win1_0.index t (1 : Fin 2) * 4096 + 1 * d.val = d.val; rw [e1]; omega

/-- Row `j` of the weight block at point `t` is row 256·(t % 125) + j of the head weight. -/
theorem wblk_apply (c : Dev nD) (t : Fin cfg1.N) (j : Fin 256) (d : Fin 4096) (v : Fin 32000)
    (hv : v.val = 256 * (t.val % 125) + j.val) : wblk V c t (ix2 j d) = arr_w V c (ix2 v d) := by
  obtain ⟨-, -, e0, e1, -⟩ := idx1_facts t
  show iblk1 (F := Ideal) V c 1 t (ix2 j d) = _
  unfold iblk1
  rw [View.read_apply]
  show V c main_v17 _ = V c main_v17 _
  congr 1
  funext a
  apply Fin.ext
  match a with
  | ⟨0, _⟩ => show win1_1.index t (0 : Fin 2) * 256 + 1 * j.val = v.val; rw [e0]; omega
  | ⟨1, _⟩ => show win1_1.index t (1 : Fin 2) * 4096 + 1 * d.val = d.val; rw [e1]; omega

/-- Column `j` of the bias block at point `t` is column 256·(t % 125) + j of the bias row. -/
theorem bblk_apply (c : Dev nD) (t : Fin cfg1.N) (j : Fin 256) (v : Fin 32000)
    (hv : v.val = 256 * (t.val % 125) + j.val) : bblk V c t (ix2 (0 : Fin 1) j) = arr_b V c (ix2 (0 : Fin 1) v) := by
  obtain ⟨-, -, -, -, e0, e1, -⟩ := idx1_facts t
  show iblk1 (F := Ideal) V c 2 t (ix2 (0 : Fin 1) j) = _
  unfold iblk1
  rw [View.read_apply]
  show V c main_v18 _ = V c main_v18 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * j.val = v.val; rw [e1]; omega

/-- Row `p` of the targets block at point `t` is row 1024·(t / 125) + p of the targets. -/
theorem tblk_apply (c : Dev nD) (t : Fin cfg1.N) (p : Fin 1024) (r : Fin 4096)
    (hr : r.val = 1024 * (t.val / 125) + p.val) : tblk V c t (ix2 p (0 : Fin 1)) = arr_t V c (ix2 r (0 : Fin 1)) := by
  obtain ⟨-, -, -, -, -, -, e0, e1, -⟩ := idx1_facts t
  show iblk1 (F := Ideal) V c 3 t (ix2 p (0 : Fin 1)) = _
  unfold iblk1
  rw [View.read_apply]
  show V c main_v16 _ = V c main_v16 _
  congr 1
  funext a
  apply Fin.ext
  match a with
  | ⟨0, _⟩ => show win1_3.index t (0 : Fin 2) * 1024 + 1 * p.val = r.val; rw [e0]; omega
  | ⟨1, _⟩ => show win1_3.index t (1 : Fin 2) * 1 + 1 * 0 = 0; rw [e1]

/-- The logit of row `r` at vocabulary entry `v`, from the arrays the region finds. -/
def rowLogit (c : Dev nD) (r : Fin 4096) (v : Fin 32000) : EReal :=
  (∑ d : Fin 4096, arr_h V c (ix2 r d) * arr_w V c (ix2 v d)) + arr_b V c (ix2 (0 : Fin 1) v)

/-- The logits tile at point `t`, entry (p, j): the logit of row 1024·(t / 125) + p at vocabulary entry 256·(t % 125) + j. -/
theorem tile_at (c : Dev nD) (t : Fin cfg1.N) (p : Fin 1024) (j : Fin 256) (r : Fin 4096) (v : Fin 32000)
    (hr : r.val = 1024 * (t.val / 125) + p.val) (hv : v.val = 256 * (t.val % 125) + j.val) :
    k1_pay10 (F := Ideal) (hblk V c t) (wblk V c t) (bblk V c t) (ix2 p j) = rowLogit V c r v := by
  refine (tile_apply (hblk V c t) (wblk V c t) (bblk V c t) p j).trans ?_
  unfold rowLogit
  rw [bblk_apply V c t j v hv]
  congr 1
  refine Finset.sum_congr rfl fun d _ => ?_
  rw [hblk_apply V c t p d r hr, wblk_apply V c t j d v hv]

/-- Vocabulary entry 256·k + j, as a 32-bit word built the way the body builds it, is the target word of entry `y`
    exactly when it is entry `y`. -/
theorem word_hit (k : ℕ) (hk : k < 125) (j : Fin 256) (y : Fin 32000) :
    (BitVec.ofNat 32 k * 256#32 + BitVec.ofNat 32 j.val = BitVec.ofNat 32 y.val) ↔ Cert.Online.voc ⟨k, hk⟩ j = y := by
  have hj := j.isLt
  have hy := y.isLt
  constructor
  · intro h
    have h' := congrArg BitVec.toNat h
    simp only [BitVec.toNat_add, BitVec.toNat_mul, BitVec.toNat_ofNat] at h'
    apply Fin.ext
    show k * 256 + j.val = y.val
    omega
  · intro h
    have h' : k * 256 + j.val = y.val := congrArg Fin.val h
    apply BitVec.eq_of_toNat_eq
    simp only [BitVec.toNat_add, BitVec.toNat_mul, BitVec.toNat_ofNat]
    omega

/-! ## One fold of the columns is one step of the online soft-max -/

/-- The reset columns at a row: -∞, 0, 0. -/
theorem cols0_row (p : Fin 1024) :
    (cols0 (F := Ideal)).1 (ix2 p (0 : Fin 1)) = Cert.Online.init.m
    ∧ (cols0 (F := Ideal)).2.1 (ix2 p (0 : Fin 1)) = Cert.Online.init.l
    ∧ (cols0 (F := Ideal)).2.2 (ix2 p (0 : Fin 1)) = Cert.Online.init.t := by
  unfold cols0 k1_pay7 k1_pay8 k1_pay9
  simp only [shapeCast_self]
  exact ⟨ofBits_neg_inf, Ideal.ofBits_zero_f32, Ideal.ofBits_zero_f32⟩

/-- One fold of the columns, read at row `p`: if the tile's row is `xs`, its target columns are `hs` and the
    columns before hold `a` at the row, the columns after hold the online soft-max's step of `a`. -/
theorem stepCols_row (i : grid1.Coords) (x0 : FVec Ideal S1024x4096 .bf16) (x1 : FVec Ideal S256x4096 .bf16)
    (x2 : FVec Ideal S1x256 .f32) (x3 : IVec S1024x1 32) (s : Cols Ideal) (p : Fin 1024)
    (xs : Fin 256 → EReal) (hs : Fin 256 → Bool) (a : Cert.Online.Acc)
    (hx : ∀ j, k1_pay10 (F := Ideal) x0 x1 x2 (ix2 p j) = xs j)
    (hh : ∀ j, (BitVec.ofNat 32 (i 1).val * 256#32 + BitVec.ofNat 32 j.val = x3 (ix2 p (0 : Fin 1))) ↔ hs j = true)
    (ham : s.1 (ix2 p (0 : Fin 1)) = a.m) (hal : s.2.1 (ix2 p (0 : Fin 1)) = a.l) (hat : s.2.2 (ix2 p (0 : Fin 1)) = a.t) :
    (stepCols i x0 x1 x2 x3 s).1 (ix2 p (0 : Fin 1)) = (Cert.Online.step xs hs a).m
    ∧ (stepCols i x0 x1 x2 x3 s).2.1 (ix2 p (0 : Fin 1)) = (Cert.Online.step xs hs a).l
    ∧ (stepCols i x0 x1 x2 x3 s).2.2 (ix2 p (0 : Fin 1)) = (Cert.Online.step xs hs a).t := by
  have hsup : k1_pay13 (F := Ideal) x0 x1 x2 (ix2 p (0 : Fin 1)) = Finset.univ.sup xs := by
    rw [tileMax_apply]; exact congrArg _ (funext hx)
  unfold stepCols Cert.Online.step
  dsimp only
  refine ⟨?_, ?_, ?_⟩
  · rw [newMax_apply, hsup, ham]
  · rw [newSum_apply, hsup, ham, hal]
    refine congrArg₂ (· + ·) rfl (Finset.sum_congr rfl fun j _ => ?_)
    rw [hx j]
  · rw [target_apply, hat]
    refine congrArg₂ (· + ·) rfl (Finset.sum_congr rfl fun j _ => ?_)
    rw [hx j]
    by_cases h : hs j = true
    · rw [if_pos ((hh j).mpr h), if_pos h]
    · rw [if_neg (fun h' => h ((hh j).mp h')), if_neg h]

/-- The columns at a position ≡ 0 (mod 125), over the blocks at their literal types. -/
theorem colsAt1_first' (c : Dev nD) (n : ℕ) (hn : n < cfg1.N) (h0 : n % 125 = 0) :
    colsAt1 V c n hn = stepCols (grid1.coords ⟨n, hn⟩) (hblk V c ⟨n, hn⟩) (wblk V c ⟨n, hn⟩) (bblk V c ⟨n, hn⟩) (tblk V c ⟨n, hn⟩) cols0 :=
  colsAt1_first V c ⟨n, hn⟩ h0

/-- The columns at any other position, likewise. -/
theorem colsAt1_next' (c : Dev nD) (n : ℕ) (hn : n + 1 < cfg1.N) (h0 : ¬(n + 1) % 125 = 0) :
    colsAt1 V c (n + 1) hn = stepCols (grid1.coords ⟨n + 1, hn⟩) (hblk V c ⟨n + 1, hn⟩) (wblk V c ⟨n + 1, hn⟩) (bblk V c ⟨n + 1, hn⟩)
      (tblk V c ⟨n + 1, hn⟩) (colsAt1 V c n (Nat.lt_of_succ_lt hn)) :=
  colsAt1_next V c ⟨n + 1, hn⟩ h0

section Row

variable (c : Dev nD) (rt : Fin 4) (p : Fin 1024) (r : Fin 4096) (hr : r.val = 1024 * rt.val + p.val)
  (z : Fin 32000 → ℝ) (hz : ∀ v, rowLogit V c r v = ((z v : ℝ) : EReal)) (y : Fin 32000)
  (ht : arr_t V c (ix2 r (0 : Fin 1)) = BitVec.ofNat 32 y.val)

include hr hz ht

/-- At the point of row tile `rt` and vocabulary tile `k`, one fold of the columns is, at row `p`, the online
    soft-max's step with tile `k` of the row's real logits `z` and target `y`. -/
theorem point_step (k : ℕ) (hk : k < 125) (hn : rt.val * 125 + k < cfg1.N) (s : Cols Ideal) (a : Cert.Online.Acc)
    (ham : s.1 (ix2 p (0 : Fin 1)) = a.m) (hal : s.2.1 (ix2 p (0 : Fin 1)) = a.l) (hat : s.2.2 (ix2 p (0 : Fin 1)) = a.t) :
    (stepCols (grid1.coords ⟨rt.val * 125 + k, hn⟩) (hblk V c ⟨rt.val * 125 + k, hn⟩) (wblk V c ⟨rt.val * 125 + k, hn⟩)
        (bblk V c ⟨rt.val * 125 + k, hn⟩) (tblk V c ⟨rt.val * 125 + k, hn⟩) s).1 (ix2 p (0 : Fin 1))
      = (Cert.Online.step (fun j => ((z (Cert.Online.voc ⟨k, hk⟩ j) : ℝ) : EReal)) (fun j => decide (Cert.Online.voc ⟨k, hk⟩ j = y)) a).m
    ∧ (stepCols (grid1.coords ⟨rt.val * 125 + k, hn⟩) (hblk V c ⟨rt.val * 125 + k, hn⟩) (wblk V c ⟨rt.val * 125 + k, hn⟩)
        (bblk V c ⟨rt.val * 125 + k, hn⟩) (tblk V c ⟨rt.val * 125 + k, hn⟩) s).2.1 (ix2 p (0 : Fin 1))
      = (Cert.Online.step (fun j => ((z (Cert.Online.voc ⟨k, hk⟩ j) : ℝ) : EReal)) (fun j => decide (Cert.Online.voc ⟨k, hk⟩ j = y)) a).l
    ∧ (stepCols (grid1.coords ⟨rt.val * 125 + k, hn⟩) (hblk V c ⟨rt.val * 125 + k, hn⟩) (wblk V c ⟨rt.val * 125 + k, hn⟩)
        (bblk V c ⟨rt.val * 125 + k, hn⟩) (tblk V c ⟨rt.val * 125 + k, hn⟩) s).2.2 (ix2 p (0 : Fin 1))
      = (Cert.Online.step (fun j => ((z (Cert.Online.voc ⟨k, hk⟩ j) : ℝ) : EReal)) (fun j => decide (Cert.Online.voc ⟨k, hk⟩ j = y)) a).t := by
  have hrt := rt.isLt
  have hdiv : (rt.val * 125 + k) / 125 = rt.val := by omega
  have hmod : (rt.val * 125 + k) % 125 = k := by omega
  have hc : (grid1.coords ⟨rt.val * 125 + k, hn⟩ (1 : Fin 2)).val = k := by
    rw [(idx1_facts ⟨rt.val * 125 + k, hn⟩).2.2.2.2.2.2.2.2.2.2.2.2.2.2]; exact hmod
  refine stepCols_row (grid1.coords ⟨rt.val * 125 + k, hn⟩) (hblk V c ⟨rt.val * 125 + k, hn⟩) (wblk V c ⟨rt.val * 125 + k, hn⟩)
    (bblk V c ⟨rt.val * 125 + k, hn⟩) (tblk V c ⟨rt.val * 125 + k, hn⟩) s p
    (fun j => ((z (Cert.Online.voc ⟨k, hk⟩ j) : ℝ) : EReal)) (fun j => decide (Cert.Online.voc ⟨k, hk⟩ j = y)) a ?_ ?_ ham hal hat
  · intro j
    rw [tile_at V c ⟨rt.val * 125 + k, hn⟩ p j r (Cert.Online.voc ⟨k, hk⟩ j)
      (by show r.val = 1024 * ((rt.val * 125 + k) / 125) + p.val; rw [hdiv]; exact hr)
      (by show k * 256 + j.val = 256 * ((rt.val * 125 + k) % 125) + j.val; rw [hmod]; omega)]
    exact hz _
  · intro j
    rw [hc, tblk_apply V c ⟨rt.val * 125 + k, hn⟩ p r
      (by show r.val = 1024 * ((rt.val * 125 + k) / 125) + p.val; rw [hdiv]; exact hr), ht, decide_eq_true_iff]
    exact word_hit k hk j y

/-- BY INDUCTION ON THE VOCABULARY TILE: after tile `k` of row tile `rt` the columns hold, at row `p`, the online
    soft-max's three numbers after `k + 1` tiles of the row's logits. -/
theorem cols_run : ∀ (k : ℕ) (hk : k < 125) (hn : rt.val * 125 + k < cfg1.N),
    (colsAt1 V c (rt.val * 125 + k) hn).1 (ix2 p (0 : Fin 1))
      = (Cert.Online.run (fun k j => ((z (Cert.Online.voc k j) : ℝ) : EReal)) (fun k j => decide (Cert.Online.voc k j = y)) (k + 1)).m
    ∧ (colsAt1 V c (rt.val * 125 + k) hn).2.1 (ix2 p (0 : Fin 1))
      = (Cert.Online.run (fun k j => ((z (Cert.Online.voc k j) : ℝ) : EReal)) (fun k j => decide (Cert.Online.voc k j = y)) (k + 1)).l
    ∧ (colsAt1 V c (rt.val * 125 + k) hn).2.2 (ix2 p (0 : Fin 1))
      = (Cert.Online.run (fun k j => ((z (Cert.Online.voc k j) : ℝ) : EReal)) (fun k j => decide (Cert.Online.voc k j = y)) (k + 1)).t := by
  intro k
  induction k with
  | zero =>
    intro hk hn
    have hrun : Cert.Online.run (fun k j => ((z (Cert.Online.voc k j) : ℝ) : EReal)) (fun k j => decide (Cert.Online.voc k j = y)) (0 + 1)
        = Cert.Online.step (fun j => ((z (Cert.Online.voc ⟨0, hk⟩ j) : ℝ) : EReal)) (fun j => decide (Cert.Online.voc ⟨0, hk⟩ j = y))
            Cert.Online.init := by
      simp only [Cert.Online.run, dif_pos hk]
    rw [hrun, colsAt1_first' V c (rt.val * 125 + 0) hn (by omega)]
    obtain ⟨h1, h2, h3⟩ := cols0_row p
    exact point_step V c rt p r hr z hz y ht 0 hk hn cols0 Cert.Online.init h1 h2 h3
  | succ k ih =>
    intro hk hn
    obtain ⟨h1, h2, h3⟩ := ih (by omega) (Nat.lt_of_succ_lt hn)
    have hrun : Cert.Online.run (fun k j => ((z (Cert.Online.voc k j) : ℝ) : EReal)) (fun k j => decide (Cert.Online.voc k j = y)) (k + 1 + 1)
        = Cert.Online.step (fun j => ((z (Cert.Online.voc ⟨k + 1, hk⟩ j) : ℝ) : EReal)) (fun j => decide (Cert.Online.voc ⟨k + 1, hk⟩ j = y))
            (Cert.Online.run (fun k j => ((z (Cert.Online.voc k j) : ℝ) : EReal)) (fun k j => decide (Cert.Online.voc k j = y)) (k + 1)) := by
      simp only [Cert.Online.run, dif_pos hk]
    have hne : ¬(rt.val * 125 + k + 1) % 125 = 0 := by omega
    rw [hrun, show colsAt1 V c (rt.val * 125 + (k + 1)) hn = _ from colsAt1_next' V c (rt.val * 125 + k) hn hne]
    exact point_step V c rt p r hr z hz y ht (k + 1) hk hn _ _ h1 h2 h3

/-- AFTER THE LAST TILE of the row tile the columns hold, at row `p`: the row's largest logit, the sum of the row's
    exponentials shifted by it, and the target's logit. -/
theorem cols_last (hn : rt.val * 125 + 124 < cfg1.N) :
    (colsAt1 V c (rt.val * 125 + 124) hn).1 (ix2 p (0 : Fin 1)) = Finset.univ.sup (fun v : Fin 32000 => ((z v : ℝ) : EReal))
    ∧ (colsAt1 V c (rt.val * 125 + 124) hn).2.1 (ix2 p (0 : Fin 1))
        = ∑ v : Fin 32000, Ideal.exp (((z v : ℝ) : EReal) - Finset.univ.sup (fun v : Fin 32000 => ((z v : ℝ) : EReal)))
    ∧ (colsAt1 V c (rt.val * 125 + 124) hn).2.2 (ix2 p (0 : Fin 1)) = ((z y : ℝ) : EReal) := by
  obtain ⟨h1, h2, h3⟩ := cols_run V c rt p r hr z hz y ht 124 (by omega) hn
  obtain ⟨f1, f2, f3⟩ := Cert.Online.run_final z y
  exact ⟨h1.trans f1, h2.trans f2, h3.trans f3⟩

end Row

end Cert.KernelIdeal.Hand

end
-- ==== Proof.KI.Reg1Value.lean ====
/-
  Region 1's results as functions of the arrays it finds: the logits array entry by entry; the validity column;
  and the negative log-likelihood column, through the online soft-max's closed form (Math/Online): the carried
  columns after the last vocabulary tile of a row tile are, row by row, the row's largest logit, its shifted sum
  of exponentials and its target logit.
-/
import proofs.«417710_j44341242364213_2_alg».proof.Proof.KI.Reg1Data
import proofs.«417710_j44341242364213_2_alg».proof.Proof.KI.Reg1Pay
import proofs.«417710_j44341242364213_2_alg».proof.Proof.KI.Reg1Cols
import proofs.«417710_j44341242364213_2_alg».proof.Proof.Math.Online
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The arrays the region finds and the three it leaves, as extended-real (resp. word) arrays: the hidden rows,
    the head's weight and bias, the targets; the logits, the negative log-likelihood and validity columns. -/
abbrev in1_h (c : Dev nD) : S4096x4096.Idx → EReal := V c main_v10
abbrev in1_w (c : Dev nD) : S32000x4096.Idx → EReal := V c main_v17
abbrev in1_b (c : Dev nD) : S1x32000.Idx → EReal := V c main_v18
abbrev in1_t (c : Dev nD) : S4096x1.Idx → BitVec 32 := V c main_v16
abbrev out1_logits (c : Dev nD) : S4096x32000.Idx → EReal := (dat1 (F := Ideal) V c).arrAt 4 cfg1.N
abbrev out1_nll (c : Dev nD) : S4096x1.Idx → EReal := (dat1 (F := Ideal) V c).arrAt 5 cfg1.N
abbrev out1_valid (c : Dev nD) : S4096x1.Idx → EReal := (dat1 (F := Ideal) V c).arrAt 6 cfg1.N

/-- The logit the region computes at row `r`, vocabulary entry `v`, from the arrays it finds. -/
def logitOf (c : Dev nD) (r : Fin 4096) (v : Fin 32000) : EReal :=
  (∑ d : Fin 4096, in1_h V c (ix2 r d) * in1_w V c (ix2 v d)) + in1_b V c (ix2 (0 : Fin 1) v)

/-! ## The logits array: every point writes back its tile -/

/-- What the logits array ends holding: at row r, vocabulary entry v, that row's logit there. -/
def logitsArr (c : Dev nD) : S4096x32000.Idx → EReal :=
  fun i => rowLogit V c ⟨(i 0).val, idx2_lt0 i⟩ ⟨(i 1).val, idx2_lt1 i⟩

/-- What point `t` writes back into the logits array is its block of that array. -/
theorem flushed4_eq (c : Dev nD) (t : Fin cfg1.N) :
    (dat1 (F := Ideal) V c).flushed 4 t = ((cfg1.win 4).blk t).view.read (Elt Ideal) (logitsArr V c) := by
  obtain ⟨-, -, -, -, -, -, -, -, e0, e1, -⟩ := idx1_facts t
  show (cfg1.win 4).cut (grid1.coords t) ((dat1 (F := Ideal) V c).after 4 t) = _
  rw [after1_4]
  funext y
  obtain ⟨p, j, rfl⟩ : ∃ (p : Fin 1024) (j : Fin 256), y = ix2 p j := ⟨y 0, y 1, eq_ix2 y⟩
  rw [View.read_apply]
  show k1_pay10 (F := Ideal) (hblk V c t) (wblk V c t) (bblk V c t) (ix2 p j) = logitsArr V c (((cfg1.win 4).blk t).view.emb (ix2 p j))
  unfold logitsArr
  have ht := t.isLt
  have hN : cfg1.N = 500 := N_1
  exact tile_at V c t p j _ _
    (by show win1_4.index t (0 : Fin 2) * 1024 + 1 * p.val = _; rw [e0]; omega)
    (by show win1_4.index t (1 : Fin 2) * 256 + 1 * j.val = _; rw [e1]; omega)

/-- An entry of the logits array is in point `t`'s block iff each coordinate is in the block's range. -/
theorem mem_blk4 (t : Fin cfg1.N) (i : S4096x32000.Idx) :
    i ∈ ((cfg1.win 4).blk t).view.set ↔ ∀ a : Fin 2, win1_4.index t a * S1024x256.size a ≤ (i a).val
      ∧ (i a).val < win1_4.index t a * S1024x256.size a + S1024x256.size a := by
  show i ∈ ((View.whole main_v19_0).slice (win1_4.rect t)).set ↔ _
  rw [View.set_slice_whole, Rect.mem_set_unit]
  exact Iff.rfl

/-- Entry (r, v) is in the block of the point of row tile r / 1024 and vocabulary tile v / 256. -/
theorem cover4 (i : S4096x32000.Idx) : ∃ t : Fin cfg1.N, (cfg1.win 4).flush t = true ∧ i ∈ ((cfg1.win 4).blk t).view.set := by
  have h0 : (i 0).val < 4096 := idx2_lt0 i
  have h1 : (i 1).val < 32000 := idx2_lt1 i
  have hN : cfg1.N = 500 := N_1
  refine ⟨⟨(i 0).val / 1024 * 125 + (i 1).val / 256, by rw [hN]; omega⟩, flush1_4 _, ?_⟩
  rw [mem_blk4]
  obtain ⟨-, -, -, -, -, -, -, -, e0, e1, -⟩ := idx1_facts ⟨(i 0).val / 1024 * 125 + (i 1).val / 256, by rw [hN]; omega⟩
  intro a
  match a with
  | ⟨0, _⟩ =>
    show win1_4.index _ (0 : Fin 2) * 1024 ≤ (i 0).val ∧ (i 0).val < win1_4.index _ (0 : Fin 2) * 1024 + 1024
    rw [e0]; show ((i 0).val / 1024 * 125 + (i 1).val / 256) / 125 * 1024 ≤ (i 0).val ∧ (i 0).val < ((i 0).val / 1024 * 125 + (i 1).val / 256) / 125 * 1024 + 1024
    omega
  | ⟨1, _⟩ =>
    show win1_4.index _ (1 : Fin 2) * 256 ≤ (i 1).val ∧ (i 1).val < win1_4.index _ (1 : Fin 2) * 256 + 256
    rw [e1]; show ((i 0).val / 1024 * 125 + (i 1).val / 256) % 125 * 256 ≤ (i 1).val ∧ (i 1).val < ((i 0).val / 1024 * 125 + (i 1).val / 256) % 125 * 256 + 256
    omega

/-- The logits array after the region. -/
theorem final4 (c : Dev nD) : (dat1 (F := Ideal) V c).arrAt 4 cfg1.N = logitsArr V c :=
  (dat1 (F := Ideal) V c).arrAt_eq_of_cover 4 (logitsArr V c) (fun t _ => flushed4_eq V c t) cover4

/-! ## The two column outputs: written back at the last vocabulary tile of each row tile -/

/-- The points of row tile `rt` are grid points. -/
theorem pt_lt (rt : Fin 4) (k : ℕ) (hk : k < 125) : rt.val * 125 + k < cfg1.N := by
  have := rt.isLt
  have hN : cfg1.N = 500 := N_1
  omega

/-- The last point of row tile `rt`: vocabulary tile 124. -/
def ptLast (rt : Fin 4) : Fin cfg1.N := ⟨rt.val * 125 + 124, pt_lt rt 124 (by omega)⟩

/-- A point that writes the column outputs back is the last point of its row tile. -/
theorem eq_ptLast (t : Fin cfg1.N) (h : t.val % 125 = 124) : ∃ rt : Fin 4, t = ptLast rt := by
  have ht := t.isLt
  have hN : cfg1.N = 500 := N_1
  exact ⟨⟨t.val / 125, by omega⟩, Fin.ext (by show t.val = t.val / 125 * 125 + 124; omega)⟩

/-- The targets block as the body reads it. -/
theorem tgt_at (c : Dev nD) (t : Fin cfg1.N) (p : Fin 1024) (r : Fin 4096) (hr : r.val = 1024 * (t.val / 125) + p.val) :
    k1_pay11 (F := Ideal) (tblk V c t) (ix2 p (0 : Fin 1)) = arr_t V c (ix2 r (0 : Fin 1)) := by
  unfold k1_pay11
  rw [shapeCast_self]
  exact tblk_apply V c t p r hr

/-- The validity of row `r`: zero at the ignored label, else one. -/
def validRow (c : Dev nD) (r : Fin 4096) : EReal :=
  if arr_t V c (ix2 r (0 : Fin 1)) = 4294967196#32 then 0 else 1

/-- What the validity column ends holding. -/
def validArr (c : Dev nD) : S4096x1.Idx → EReal := fun i => validRow V c ⟨(i 0).val, idx2_lt0 i⟩

/-- The validity block at a point, entry by entry. -/
theorem valid_at (c : Dev nD) (t : Fin cfg1.N) (p : Fin 1024) (r : Fin 4096) (hr : r.val = 1024 * (t.val / 125) + p.val) :
    k1_pay6 (F := Ideal) (k1_pay11 (F := Ideal) (tblk V c t)) (ix2 p (0 : Fin 1)) = validRow V c r := by
  rw [valid_apply, tgt_at V c t p r hr]
  rfl

/-- What a point writes back into the validity column is its block of that column. -/
theorem flushed6_eq (c : Dev nD) (t : Fin cfg1.N) :
    (dat1 (F := Ideal) V c).flushed 6 t = ((cfg1.win 6).blk t).view.read (Elt Ideal) (validArr V c) := by
  obtain ⟨-, -, -, -, -, -, -, -, -, -, -, -, e0, e1, -⟩ := idx1_facts t
  show (cfg1.win 6).cut (grid1.coords t) ((dat1 (F := Ideal) V c).after 6 t) = _
  rw [after1_6]
  funext y
  obtain ⟨p, q, rfl⟩ : ∃ (p : Fin 1024) (q : Fin 1), y = ix2 p q := ⟨y 0, y 1, eq_ix2 y⟩
  obtain rfl : q = 0 := Subsingleton.elim _ _
  rw [View.read_apply]
  show k1_pay6 (F := Ideal) (k1_pay11 (F := Ideal) (tblk V c t)) (ix2 p (0 : Fin 1))
    = validArr V c (((cfg1.win 6).blk t).view.emb (ix2 p (0 : Fin 1)))
  unfold validArr
  have ht := t.isLt
  have hN : cfg1.N = 500 := N_1
  exact valid_at V c t p _ (by show win1_6.index t (0 : Fin 2) * 1024 + 1 * p.val = _; rw [e0]; omega)

/-- An entry of a column output is in point `t`'s block iff its row is in the block's range. -/
theorem mem_blk6 (t : Fin cfg1.N) (i : S4096x1.Idx) :
    i ∈ ((cfg1.win 6).blk t).view.set ↔ ∀ a : Fin 2, win1_6.index t a * S1024x1.size a ≤ (i a).val
      ∧ (i a).val < win1_6.index t a * S1024x1.size a + S1024x1.size a := by
  show i ∈ ((View.whole main_v19_2).slice (win1_6.rect t)).set ↔ _
  rw [View.set_slice_whole, Rect.mem_set_unit]
  exact Iff.rfl

/-- Row r is in the block of the last point of row tile r / 1024, which writes it back. -/
theorem cover6 (i : S4096x1.Idx) : ∃ t : Fin cfg1.N, (cfg1.win 6).flush t = true ∧ i ∈ ((cfg1.win 6).blk t).view.set := by
  have h0 : (i 0).val < 4096 := idx2_lt0 i
  have h1 : (i 1).val < 1 := idx2_lt1 i
  refine ⟨ptLast ⟨(i 0).val / 1024, by omega⟩, (flush1_6 _).mpr (by show ((i 0).val / 1024 * 125 + 124) % 125 = 124; omega), ?_⟩
  rw [mem_blk6]
  obtain ⟨-, -, -, -, -, -, -, -, -, -, -, -, e0, e1, -⟩ := idx1_facts (ptLast ⟨(i 0).val / 1024, by omega⟩)
  intro a
  match a with
  | ⟨0, _⟩ =>
    show win1_6.index _ (0 : Fin 2) * 1024 ≤ (i 0).val ∧ (i 0).val < win1_6.index _ (0 : Fin 2) * 1024 + 1024
    rw [e0]; show ((i 0).val / 1024 * 125 + 124) / 125 * 1024 ≤ (i 0).val ∧ (i 0).val < ((i 0).val / 1024 * 125 + 124) / 125 * 1024 + 1024
    omega
  | ⟨1, _⟩ =>
    show win1_6.index _ (1 : Fin 2) * 1 ≤ (i 1).val ∧ (i 1).val < win1_6.index _ (1 : Fin 2) * 1 + 1
    rw [e1]; omega

/-- The validity column after the region. -/
theorem final6 (c : Dev nD) : (dat1 (F := Ideal) V c).arrAt 6 cfg1.N = validArr V c :=
  (dat1 (F := Ideal) V c).arrAt_eq_of_cover 6 (validArr V c) (fun t _ => flushed6_eq V c t) cover6

/-! ## The negative log-likelihood column -/

/-- The negative log-likelihood entry of row `p` of row tile `rt`, as the last point of the row tile leaves it:
    the body's closing formula of the targets block and the carried columns there. -/
def nllRow (c : Dev nD) (rt : Fin 4) (p : Fin 1024) : EReal :=
  k1_pay5 (F := Ideal) (k1_pay11 (F := Ideal) (tblk V c (ptLast rt)))
    (colsAt1 V c (ptLast rt).val (ptLast rt).isLt).1 (colsAt1 V c (ptLast rt).val (ptLast rt).isLt).2.1
    (colsAt1 V c (ptLast rt).val (ptLast rt).isLt).2.2 (ix2 p (0 : Fin 1))

/-- What the negative log-likelihood column ends holding. -/
def nllArr (c : Dev nD) : S4096x1.Idx → EReal := fun i =>
  nllRow V c ⟨(i 0).val / 1024, by have := idx2_lt0 i; omega⟩ ⟨(i 0).val % 1024, Nat.mod_lt _ (by decide)⟩

/-- What a point that writes the column back writes is its block of that column. -/
theorem flushed5_eq (c : Dev nD) (t : Fin cfg1.N) (hf : (cfg1.win 5).flush t = true) :
    (dat1 (F := Ideal) V c).flushed 5 t = ((cfg1.win 5).blk t).view.read (Elt Ideal) (nllArr V c) := by
  obtain ⟨rt, rfl⟩ := eq_ptLast t ((flush1_5 t).mp hf)
  obtain ⟨-, -, -, -, -, -, -, -, -, -, e0, e1, -⟩ := idx1_facts (ptLast rt)
  have hrt := rt.isLt
  show (cfg1.win 5).cut (grid1.coords (ptLast rt)) ((dat1 (F := Ideal) V c).after 5 (ptLast rt)) = _
  rw [after1_5]
  funext y
  obtain ⟨p, q, rfl⟩ : ∃ (p : Fin 1024) (q : Fin 1), y = ix2 p q := ⟨y 0, y 1, eq_ix2 y⟩
  obtain rfl : q = 0 := Subsingleton.elim _ _
  rw [View.read_apply]
  show nllRow V c rt p = nllArr V c (((cfg1.win 5).blk (ptLast rt)).view.emb (ix2 p (0 : Fin 1)))
  unfold nllArr
  have hv : ((((cfg1.win 5).blk (ptLast rt)).view.emb (ix2 p (0 : Fin 1))) 0).val = rt.val * 1024 + p.val := by
    show win1_5.index (ptLast rt) (0 : Fin 2) * 1024 + 1 * p.val = _
    rw [e0]; show (rt.val * 125 + 124) / 125 * 1024 + 1 * p.val = _; omega
  exact (congrArg₂ (nllRow V c) (Fin.ext (by show _ / 1024 = rt.val; rw [hv]; omega))
    (Fin.ext (by show _ % 1024 = p.val; rw [hv]; omega))).symm

theorem mem_blk5 (t : Fin cfg1.N) (i : S4096x1.Idx) :
    i ∈ ((cfg1.win 5).blk t).view.set ↔ ∀ a : Fin 2, win1_5.index t a * S1024x1.size a ≤ (i a).val
      ∧ (i a).val < win1_5.index t a * S1024x1.size a + S1024x1.size a := by
  show i ∈ ((View.whole main_v19_1).slice (win1_5.rect t)).set ↔ _
  rw [View.set_slice_whole, Rect.mem_set_unit]
  exact Iff.rfl

theorem cover5 (i : S4096x1.Idx) : ∃ t : Fin cfg1.N, (cfg1.win 5).flush t = true ∧ i ∈ ((cfg1.win 5).blk t).view.set := by
  have h0 : (i 0).val < 4096 := idx2_lt0 i
  have h1 : (i 1).val < 1 := idx2_lt1 i
  refine ⟨ptLast ⟨(i 0).val / 1024, by omega⟩, (flush1_5 _).mpr (by show ((i 0).val / 1024 * 125 + 124) % 125 = 124; omega), ?_⟩
  rw [mem_blk5]
  obtain ⟨-, -, -, -, -, -, -, -, -, -, e0, e1, -⟩ := idx1_facts (ptLast ⟨(i 0).val / 1024, by omega⟩)
  intro a
  match a with
  | ⟨0, _⟩ =>
    show win1_5.index _ (0 : Fin 2) * 1024 ≤ (i 0).val ∧ (i 0).val < win1_5.index _ (0 : Fin 2) * 1024 + 1024
    rw [e0]; show ((i 0).val / 1024 * 125 + 124) / 125 * 1024 ≤ (i 0).val ∧ (i 0).val < ((i 0).val / 1024 * 125 + 124) / 125 * 1024 + 1024
    omega
  | ⟨1, _⟩ =>
    show win1_5.index _ (1 : Fin 2) * 1 ≤ (i 1).val ∧ (i 1).val < win1_5.index _ (1 : Fin 2) * 1 + 1
    rw [e1]; omega

/-- The negative log-likelihood column after the region. -/
theorem final5 (c : Dev nD) : (dat1 (F := Ideal) V c).arrAt 5 cfg1.N = nllArr V c :=
  (dat1 (F := Ideal) V c).arrAt_eq_of_cover 5 (nllArr V c) (fun t hf => flushed5_eq V c t hf) cover5

/-- Row r is row r % 1024 of row tile r / 1024. -/
theorem nllArr_row (c : Dev nD) (r : Fin 4096) :
    nllArr V c (ix2 r (0 : Fin 1)) = nllRow V c ⟨r.val / 1024, by have := r.isLt; omega⟩ ⟨r.val % 1024, Nat.mod_lt _ (by decide)⟩ := rfl

/-- At a row whose target is the ignored label the entry is zero. -/
theorem nllRow_ignored (c : Dev nD) (rt : Fin 4) (p : Fin 1024) (r : Fin 4096) (hr : r.val = 1024 * rt.val + p.val)
    (ht : arr_t V c (ix2 r (0 : Fin 1)) = 4294967196#32) : nllRow V c rt p = 0 := by
  have hrt := rt.isLt
  unfold nllRow
  rw [nll_apply, tgt_at V c (ptLast rt) p r (by show r.val = 1024 * ((rt.val * 125 + 124) / 125) + p.val; omega), if_pos ht]

/-- A target word that names a vocabulary entry is not the ignored label. -/
theorem word_ne_ignored (y : Fin 32000) : BitVec.ofNat 32 y.val ≠ 4294967196#32 := by
  intro h
  have h' := congrArg BitVec.toNat h
  have hy := y.isLt
  simp only [BitVec.toNat_ofNat, BitVec.toNat_ofNat] at h'
  omega

/-- At a row of real logits `z` whose target is vocabulary entry `y`: the largest logit plus the log of the shifted
    sum of exponentials, less the target's logit. -/
theorem nllRow_valid (c : Dev nD) (rt : Fin 4) (p : Fin 1024) (r : Fin 4096) (hr : r.val = 1024 * rt.val + p.val)
    (z : Fin 32000 → ℝ) (hz : ∀ v, rowLogit V c r v = ((z v : ℝ) : EReal)) (y : Fin 32000)
    (ht : arr_t V c (ix2 r (0 : Fin 1)) = BitVec.ofNat 32 y.val) :
    nllRow V c rt p
      = (Finset.univ.sup (fun v : Fin 32000 => ((z v : ℝ) : EReal))
          + Ideal.log (∑ v : Fin 32000, Ideal.exp (((z v : ℝ) : EReal) - Finset.univ.sup (fun v : Fin 32000 => ((z v : ℝ) : EReal)))))
        - ((z y : ℝ) : EReal) := by
  have hrt := rt.isLt
  obtain ⟨h1, h2, h3⟩ := cols_last V c rt p r hr z hz y ht (ptLast rt).isLt
  unfold nllRow
  rw [nll_apply, tgt_at V c (ptLast rt) p r (by show r.val = 1024 * ((rt.val * 125 + 124) / 125) + p.val; omega), ht,
    if_neg (word_ne_ignored y)]
  show ((colsAt1 V c (rt.val * 125 + 124) (ptLast rt).isLt).1 (ix2 p (0 : Fin 1))
      + Ideal.log ((colsAt1 V c (rt.val * 125 + 124) (ptLast rt).isLt).2.1 (ix2 p (0 : Fin 1))))
    - (colsAt1 V c (rt.val * 125 + 124) (ptLast rt).isLt).2.2 (ix2 p (0 : Fin 1)) = _
  rw [h1, h2, h3]

/-- The logits array after region 1, entry by entry. -/
theorem final1_4_apply (c : Dev nD) (r : Fin 4096) (v : Fin 32000) :
    out1_logits V c (ix2 r v) = logitOf V c r v := by
  exact congrFun (final4 V c) (ix2 r v)

/-- The validity column: one where the row's target is not the ignored label (-100), zero where it is. -/
theorem final1_6_apply (c : Dev nD) (r : Fin 4096) :
    out1_valid V c (ix2 r (0 : Fin 1)) = if in1_t V c (ix2 r (0 : Fin 1)) = 4294967196#32 then (0 : EReal) else 1 := by
  exact congrFun (final6 V c) (ix2 r (0 : Fin 1))

/-- The negative log-likelihood column at a row whose target is the ignored label: zero. -/
theorem final1_5_ignored (c : Dev nD) (r : Fin 4096) (ht : in1_t V c (ix2 r (0 : Fin 1)) = 4294967196#32) :
    out1_nll V c (ix2 r (0 : Fin 1)) = 0 := by
  have hr := r.isLt
  rw [show out1_nll V c (ix2 r (0 : Fin 1)) = nllArr V c (ix2 r (0 : Fin 1)) from congrFun (final5 V c) (ix2 r (0 : Fin 1)), nllArr_row]
  exact nllRow_ignored V c _ _ r (by show r.val = 1024 * (r.val / 1024) + r.val % 1024; omega) ht

/-- The negative log-likelihood column at a row of REAL logits `z` whose target is vocabulary entry `y`: the
    largest logit plus the log of the shifted sum of exponentials, less the target's logit. -/
theorem final1_5_apply (c : Dev nD) (r : Fin 4096) (z : Fin 32000 → ℝ) (hz : ∀ v, logitOf V c r v = ((z v : ℝ) : EReal))
    (y : Fin 32000) (ht : in1_t V c (ix2 r (0 : Fin 1)) = BitVec.ofNat 32 y.val) :
    out1_nll V c (ix2 r (0 : Fin 1))
      = (Finset.univ.sup (fun v : Fin 32000 => ((z v : ℝ) : EReal))
          + Ideal.log (∑ v : Fin 32000, Ideal.exp (((z v : ℝ) : EReal) - Finset.univ.sup (fun v : Fin 32000 => ((z v : ℝ) : EReal)))))
        - ((z y : ℝ) : EReal) := by
  have hr := r.isLt
  rw [show out1_nll V c (ix2 r (0 : Fin 1)) = nllArr V c (ix2 r (0 : Fin 1)) from congrFun (final5 V c) (ix2 r (0 : Fin 1)), nllArr_row]
  exact nllRow_valid V c _ _ r (by show r.val = 1024 * (r.val / 1024) + r.val % 1024; omega) z hz y ht

end Cert.KernelIdeal.Hand

end
-- ==== Proof.KI.Reg0Value.lean ====
/-
  Region 0's result as one function: after the region, the projector's output array holds, at row r and channel d,
  the sum over k of  x[r, k] · w[d, k]  plus the bias b[0, d], where x, w, b are the region's three input arrays as
  it finds them. Each grid point writes back one block of 256 rows, and the nine blocks cover the array.
-/
import proofs.«417710_j44341242364213_2_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The region's three input arrays and its output array, as extended-real arrays. -/
abbrev in0_x (c : Dev nD) : S2304x1024.Idx → EReal := V c main_v1
abbrev in0_w (c : Dev nD) : S4096x1024.Idx → EReal := V c main_v2
abbrev in0_b (c : Dev nD) : S1x4096.Idx → EReal := V c main_v3
abbrev out0 (c : Dev nD) : S2304x4096.Idx → EReal := (dat0 (F := Ideal) V c).arrAt 3 cfg0.N

/-- The contraction of the projector's product has one axis, of length 1024. -/
abbrev dd0 := dot_S256x1024_S4096x1024_S256x4096_1_1_0_0_n_n

theorem lhs_dd0_0 (i : S256x4096.Idx) (q : dd0.contr.Idx) : (dd0.lhsIdx i q 0).val = (i 0).val := by
  unfold DotDims.lhsIdx
  rw [dif_neg (show ¬(0 : Fin S256x1024.rank) ∈ dd0.lhsBatch by decide), dif_pos (show (0 : Fin S256x1024.rank) ∈ dd0.lhsNonContracting by decide)]
  rfl
theorem lhs_dd0_1 (i : S256x4096.Idx) (q : dd0.contr.Idx) : (dd0.lhsIdx i q 1).val = (q ⟨0, by decide⟩).val :=
  dd0.lhsIdx_val_of_single rfl i q
theorem rhs_dd0_0 (i : S256x4096.Idx) (q : dd0.contr.Idx) : (dd0.rhsIdx i q 0).val = (i 1).val := by
  unfold DotDims.rhsIdx
  rw [dif_neg (show ¬(0 : Fin S4096x1024.rank) ∈ dd0.rhsBatch by decide), dif_pos (show (0 : Fin S4096x1024.rank) ∈ dd0.rhsNonContracting by decide)]
  rfl
theorem rhs_dd0_1 (i : S256x4096.Idx) (q : dd0.contr.Idx) : (dd0.rhsIdx i q 1).val = (q ⟨0, by decide⟩).val :=
  dd0.rhsIdx_val_of_single rfl i q

theorem pay0_apply (x0 : S256x1024.Idx → EReal) (x1 : S4096x1024.Idx → EReal) (x2 : S1x4096.Idx → EReal) (p : Fin 256) (d : Fin 4096) :
    k0_pay1 (F := Ideal) x0 x1 x2 (ix2 p d) = (∑ k : Fin 1024, x0 (ix2 p k) * x1 (ix2 d k)) + x2 (ix2 (0 : Fin 1) d) := by
  unfold k0_pay1
  rw [addf_apply, shapeCast_self, shapeCast_self, shapeCast_self]
  refine congrArg₂ (· + ·) ((Ideal.matmul_constant_zero_apply (φ₁ := .bf16) (φ₂ := .bf16) dd0 none x0 x1 (ix2 p d)).trans ?_)
    (broadcastTo_apply x2 broadcasts_S1x4096_S256x4096 (ix2 p d) (ix2 (0 : Fin 1) d) (fun a => by
      match a with
      | ⟨0, _⟩ => rfl
      | ⟨1, _⟩ => rfl))
  rw [← Equiv.sum_comp (contrEquiv1 dd0 1024 rfl rfl).symm]
  refine Finset.sum_congr rfl fun k _ => ?_
  have hk := contrEquiv1_symm_val dd0 1024 rfl rfl k
  have el : dd0.lhsIdx (ix2 p d) ((contrEquiv1 dd0 1024 rfl rfl).symm k) = ix2 p k := funext fun a => Fin.ext (by
    match a with
    | ⟨0, _⟩ => exact lhs_dd0_0 _ _
    | ⟨1, _⟩ => exact (lhs_dd0_1 _ _).trans hk)
  have er : dd0.rhsIdx (ix2 p d) ((contrEquiv1 dd0 1024 rfl rfl).symm k) = ix2 d k := funext fun a => Fin.ext (by
    match a with
    | ⟨0, _⟩ => exact rhs_dd0_0 _ _
    | ⟨1, _⟩ => exact (rhs_dd0_1 _ _).trans hk)
  rw [el, er]

/-- The block offset of a whole-buffer access. -/
theorem hz0 : (![0, 0] : Fin 2 → Nat) = fun _ => 0 := funext fun a => by fin_cases a <;> rfl

/-- What the output array ends holding: at row i₀ and channel i₁, the sum over k of x[i₀, k] · w[i₁, k], plus b[0, i₁]. -/
abbrev G0 (c : Dev nD) : S2304x4096.Idx → EReal := fun i =>
  (∑ k : Fin 1024, in0_x V c (ix2 (i 0) k) * in0_w V c (ix2 (i 1) k)) + in0_b V c (ix2 (0 : Fin 1) (i 1))

/-- The block index maps over the grid: the image rows and the output move together, one block of 256 rows per point;
    the weight and the bias stay at their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block of 256 rows that point t works on. -/
abbrev blockRow0 (t : Fin cfg0.N) (p : Fin 256) : Fin 2304 :=
  ⟨t.val * 256 + p.val, by have := t.isLt; have h9 : cfg0.N = 9 := N_0; have := p.isLt; omega⟩

/-- What point t writes back is block t of G0. -/
theorem flushed0_3_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S256x1024) hz0, View.ld_unit_zero (S := S4096x1024) hz0, View.ld_unit_zero (S := S1x4096) hz0]
  funext j
  obtain ⟨p, d, rfl⟩ : ∃ (p : Fin 256) (d : Fin 4096), j = ix2 p d := ⟨j 0, j 1, eq_ix2 j⟩
  show k0_pay1 (F := Ideal) (iblk0 V c 0 t) (iblk0 V c 1 t) (iblk0 V c 2 t) (ix2 p d) = G0 V c (((cfg0.win 3).blk t).view.emb (ix2 p d))
  obtain ⟨e00, e01, e10, e11, e20, e21, e30, e31⟩ := idx_facts0 t
  have h3 : ((cfg0.win 3).blk t).view.emb (ix2 p d) = ix2 (blockRow0 t p) d := by
    funext a; apply Fin.ext
    match a with
    | ⟨0, _⟩ => show win0_3.index t (0 : Fin 2) * 256 + 1 * p.val = t.val * 256 + p.val; omega
    | ⟨1, _⟩ => show win0_3.index t (1 : Fin 2) * 4096 + 1 * d.val = d.val; omega
  have h0 : ∀ k : Fin 1024, ((cfg0.win 0).blk t).view.emb (ix2 p k) = ix2 (blockRow0 t p) k := fun k => by
    funext a; apply Fin.ext
    match a with
    | ⟨0, _⟩ => show win0_0.index t (0 : Fin 2) * 256 + 1 * p.val = t.val * 256 + p.val; omega
    | ⟨1, _⟩ => show win0_0.index t (1 : Fin 2) * 1024 + 1 * k.val = k.val; omega
  have h1 : ∀ k : Fin 1024, ((cfg0.win 1).blk t).view.emb (ix2 d k) = ix2 d k := fun k => by
    funext a; apply Fin.ext
    match a with
    | ⟨0, _⟩ => show win0_1.index t (0 : Fin 2) * 4096 + 1 * d.val = d.val; omega
    | ⟨1, _⟩ => show win0_1.index t (1 : Fin 2) * 1024 + 1 * k.val = k.val; omega
  have h2 : ((cfg0.win 2).blk t).view.emb (ix2 (0 : Fin 1) d) = ix2 (0 : Fin 1) d := by
    funext a; apply Fin.ext
    match a with
    | ⟨0, _⟩ => show win0_2.index t (0 : Fin 2) * 1 + 1 * (0 : Fin 1).val = (0 : Fin 1).val; simp only [Fin.val_zero]; omega
    | ⟨1, _⟩ => show win0_2.index t (1 : Fin 2) * 4096 + 1 * d.val = d.val; omega
  rw [h3]
  refine (pay0_apply _ _ _ p d).trans ?_
  show (∑ k : Fin 1024, in0_x V c (((cfg0.win 0).blk t).view.emb (ix2 p k)) * in0_w V c (((cfg0.win 1).blk t).view.emb (ix2 d k)))
      + in0_b V c (((cfg0.win 2).blk t).view.emb (ix2 (0 : Fin 1) d))
    = (∑ k : Fin 1024, in0_x V c (ix2 (blockRow0 t p) k) * in0_w V c (ix2 d k)) + in0_b V c (ix2 (0 : Fin 1) d)
  rw [h2]
  exact congrArg (· + in0_b V c (ix2 (0 : Fin 1) d)) (Finset.sum_congr rfl fun k _ => by rw [h0 k, h1 k])

/-- An index of the output array is in point t's block iff each coordinate is in the block's range on its axis. -/
theorem mem_blk0_3 (t : Fin cfg0.N) (i : S2304x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v4).slice (win0_3.rect t)).set ↔ _
  rw [View.set_slice_whole, Rect.mem_set_unit]
  exact Iff.rfl

/-- The nine blocks of 256 rows cover the output array: row i₀ lies in the block of point i₀ / 256. -/
theorem cover0_3_arr (i : S2304x4096.Idx) :
    ∃ t : Fin cfg0.N, (cfg0.win 3).flush t = true ∧ i ∈ ((cfg0.win 3).blk t).view.set := by
  have hi0 : (i 0).val < 2304 := (i 0).isLt
  have hi1 : (i 1).val < 4096 := (i 1).isLt
  have h9 : cfg0.N = 9 := N_0
  obtain ⟨t, htv⟩ : ∃ t : Fin cfg0.N, t.val = (i 0).val / 256 := ⟨⟨(i 0).val / 256, by omega⟩, rfl⟩
  refine ⟨t, flush0_3 t, ?_⟩
  rw [mem_blk0_3]
  obtain ⟨-, -, -, -, -, -, e30, e31⟩ := idx_facts0 t
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The output array after the region is G0 of the three input arrays. -/
theorem final0_3 (c : Dev nD) : out0 V c = G0 V c :=
  (dat0 (F := Ideal) V c).arrAt_eq_of_cover 3 (G0 V c) (fun t _ => flushed0_3_eq V c t) cover0_3_arr

/-- The projector's output array after region 0, entry by entry. -/
theorem final0_3_apply (c : Dev nD) (r : Fin 2304) (d : Fin 4096) :
    out0 V c (ix2 r d) = (∑ k : Fin 1024, in0_x V c (ix2 r k) * in0_w V c (ix2 d k)) + in0_b V c (ix2 (0 : Fin 1) d) := by
  exact congrFun (final0_3 V c) (ix2 r d)

end Cert.KernelIdeal.Hand

end
-- ==== Proof.KI.Args.lean ====
/-
  The program's eight arguments on core `c`, as extended-real (resp. 32-bit word) arrays of their literal shapes:
  the names the modules about the kernel's values state things over.
-/
import proofs.«417710_j44341242364213_2_alg».proof.Proof.KI.Reg0
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

abbrev a_img (c : Dev nD) : S4x576x1024.Idx → EReal := m ((c : Thread nD τ).loc main_arg0)
abbrev a_pid (c : Dev nD) : S4x128.Idx → BitVec 32 := m ((c : Thread nD τ).loc main_arg1)
abbrev a_aid (c : Dev nD) : S4x320.Idx → BitVec 32 := m ((c : Thread nD τ).loc main_arg2)
abbrev a_pw (c : Dev nD) : S4096x1024.Idx → EReal := m ((c : Thread nD τ).loc main_arg3)
abbrev a_pb (c : Dev nD) : S4096.Idx → EReal := m ((c : Thread nD τ).loc main_arg4)
abbrev a_emb (c : Dev nD) : S32000x4096.Idx → EReal := m ((c : Thread nD τ).loc main_arg5)
abbrev a_hw (c : Dev nD) : S32000x4096.Idx → EReal := m ((c : Thread nD τ).loc main_arg6)
abbrev a_hb (c : Dev nD) : S32000.Idx → EReal := m ((c : Thread nD τ).loc main_arg7)

end Cert.KernelIdeal.Hand

end
-- ==== Proof.KI.HostVals0.lean ====
/-
  What region 0 finds: after the first host stretch its three input arrays are the image features with the batch
  and position axes merged (row b · 576 + p), the projector's weight, and the projector's bias as one row; the two
  casts to the narrower float format change nothing over the extended reals.
-/
import proofs.«417710_j44341242364213_2_alg».proof.Proof.KI.RunData
import proofs.«417710_j44341242364213_2_alg».proof.Proof.KI.Reg0Value
import proofs.«417710_j44341242364213_2_alg».proof.Proof.KI.Args
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The projector's weight as region 0 finds it is the argument itself: the cast changes nothing over the extended reals. -/
theorem V1_w_eq (c : Dev nD) : in0_w (V1 m) c = a_pw m c := by
  show StableHlo.after hostOps0 (W0 m c) (Proc.devRef .tc main_v2) = _
  after_results
  rfl

/-- The image rows as region 0 finds them: the argument with its batch and position axes merged (the cast changes nothing). -/
theorem V1_x_eq (c : Dev nD) :
    in0_x (V1 m) c = shapeCast S2304x1024 (a_img m c) shapeCasts_S4x576x1024_S2304x1024 := by
  show StableHlo.after hostOps0 (W0 m c) (Proc.devRef .tc main_v1) = _
  after_results
  rfl

/-- The projector's bias as region 0 finds it: the argument as one row. -/
theorem V1_b_eq (c : Dev nD) : in0_b (V1 m) c = shapeCast S1x4096 (a_pb m c) shapeCasts_S4096_S1x4096 := by
  show StableHlo.after hostOps0 (W0 m c) (Proc.devRef .tc main_v3) = _
  after_results
  rfl

theorem V1_x_apply (c : Dev nD) (b : Fin 4) (p : Fin 576) (k : Fin 1024) :
    in0_x (V1 m) c (ix2 (⟨b.val * 576 + p.val, by have := b.isLt; have := p.isLt; omega⟩ : Fin 2304) k) = a_img m c (ix3 b p k) := by
  refine (congrFun (V1_x_eq m c) _).trans ?_
  refine shapeCast_apply (a_img m c) shapeCasts_S4x576x1024_S2304x1024 _ (ix3 b p k) ?_
  rw [Shape.rowMajor_val_three, Shape.rowMajor_val_two]
  rfl

theorem V1_w_apply (c : Dev nD) (d : Fin 4096) (k : Fin 1024) : in0_w (V1 m) c (ix2 d k) = a_pw m c (ix2 d k) := by
  exact congrFun (V1_w_eq m c) (ix2 d k)

theorem V1_b_apply (c : Dev nD) (d : Fin 4096) : in0_b (V1 m) c (ix2 (0 : Fin 1) d) = a_pb m c (ix1 d) := by
  refine (congrFun (V1_b_eq m c) _).trans ?_
  refine shapeCast_apply (a_pb m c) shapeCasts_S4096_S1x4096 (ix2 (0 : Fin 1) d) (ix1 d) ?_
  rw [Shape.rowMajor_val_one, Shape.rowMajor_val_two]
  show d.val = (0 : Fin 1).val * 4096 + d.val
  simp only [Fin.val_zero]; omega

end Cert.KernelIdeal.Hand

end
-- ==== Proof.Spec.lean ====
/-
  The common value both programs compute, as plain mathematics over the extended reals.

  The inputs: image features img[b, p, k] (4 × 576 × 1024), prompt token ids pid[b, j] (4 × 128) and answer
  token ids aid[b, j] (4 × 320) as 32-bit words, the projector's weight pw[d, k] and bias pb[d], the embedding
  table emb[n, d], the head's weight hw[v, d] and bias hb[v].

  * hidden[b, l, d]: for l < 576 the projected image row  Σ_k img[b, l, k] · pw[d, k] + pb[d];  for
    576 ≤ l < 704 row pid[b, l - 576] of the table; for 704 ≤ l row aid[b, l - 704] of the table.
  * logit[b, l, v] = Σ_d hidden[b, l, d] · hw[v, d] + hb[v]: the second result.
  * the loss, the first result: position l = 703 + j of batch b (j < 320) predicts the answer token aid[b, j];
    its negative log-likelihood is  -((logit[y] - M) - log Σ_v exp(logit[v] - M))  with M the row's largest
    logit; the loss is the sum of the 4 · 320 of them divided by their number.
-/
import Idealize.ShloMosaic.PureOps.Ideal
import Idealize.ShloMosaic.Lib.ValueIdx

noncomputable section

namespace Cert.Spec

open Idealize.ShloMosaic Idealize.ShloMosaic.ValueIdx

abbrev Simg : Shape := ⟨3, ![4, 576, 1024]⟩
abbrev Spid : Shape := ⟨2, ![4, 128]⟩
abbrev Said : Shape := ⟨2, ![4, 320]⟩
abbrev Spw : Shape := ⟨2, ![4096, 1024]⟩
abbrev Spb : Shape := ⟨1, ![4096]⟩
abbrev Stab : Shape := ⟨2, ![32000, 4096]⟩
abbrev Shb : Shape := ⟨1, ![32000]⟩
abbrev Slogits : Shape := ⟨3, ![4, 1024, 32000]⟩
abbrev Sscalar : Shape := ⟨0, ![]⟩

variable (img : Simg.Idx → EReal) (pid : Spid.Idx → BitVec 32) (aid : Said.Idx → BitVec 32)
  (pw : Spw.Idx → EReal) (pb : Spb.Idx → EReal) (emb hw : Stab.Idx → EReal) (hb : Shb.Idx → EReal)

/-- Row `n` of the embedding table; rows are counted modulo the table's height, which makes the definition
    total (an id in range is its own residue). -/
def embRow (n : ℕ) (d : Fin 4096) : EReal :=
  emb (ix2 (⟨n % 32000, Nat.mod_lt _ (by norm_num)⟩ : Fin 32000) d)

/-- The hidden state at batch `b`, position `l`, channel `d`. -/
def hidden (b : Fin 4) (l : Fin 1024) (d : Fin 4096) : EReal :=
  if h : l.val < 576 then
    (∑ k : Fin 1024, img (ix3 b (⟨l.val, h⟩ : Fin 576) k) * pw (ix2 d k)) + pb (ix1 d)
  else if h' : l.val < 704 then
    embRow emb (pid (ix2 b (⟨l.val - 576, by omega⟩ : Fin 128))).toNat d
  else
    embRow emb (aid (ix2 b (⟨l.val - 704, by omega⟩ : Fin 320))).toNat d

/-- The logit of vocabulary entry `v` at batch `b`, position `l`. -/
def logit (b : Fin 4) (l : Fin 1024) (v : Fin 32000) : EReal :=
  (∑ d : Fin 4096, hidden img pid aid pw pb emb b l d * hw (ix2 v d)) + hb (ix1 v)

/-- The second result: all logits. -/
def logits : Slogits.Idx → EReal :=
  fun i => logit img pid aid pw pb emb hw hb (i 0) (i 1) (i 2)

/-- A row's largest logit. -/
def rowMax (b : Fin 4) (l : Fin 1024) : EReal :=
  Finset.univ.sup fun v : Fin 32000 => logit img pid aid pw pb emb hw hb b l v

/-- A row's sum of exponentials, shifted by its largest logit. -/
def rowSumExp (b : Fin 4) (l : Fin 1024) : EReal :=
  ∑ v : Fin 32000, Ideal.exp (logit img pid aid pw pb emb hw hb b l v - rowMax img pid aid pw pb emb hw hb b l)

/-- The negative log-likelihood of vocabulary entry `y` at batch `b`, position `l`, in the reference's own
    arrangement: minus (the shifted logit less the log of the shifted sum). -/
def nll (b : Fin 4) (l : Fin 1024) (y : Fin 32000) : EReal :=
  -((logit img pid aid pw pb emb hw hb b l y - rowMax img pid aid pw pb emb hw hb b l)
      - Ideal.log (rowSumExp img pid aid pw pb emb hw hb b l))

/-- The answer token that position 703 + j of batch `b` predicts. -/
def answer (b : Fin 4) (j : Fin 320) : Fin 32000 :=
  ⟨(aid (ix2 b j)).toNat % 32000, Nat.mod_lt _ (by norm_num)⟩

/-- The first result: the mean negative log-likelihood over the 4 · 320 predicting positions. -/
def loss : EReal :=
  Ideal.div
    (∑ b : Fin 4, ∑ j : Fin 320,
      nll img pid aid pw pb emb hw hb b (⟨703 + j.val, by omega⟩ : Fin 1024) (answer aid b j))
    ((1280 : ℝ) : EReal)

/-- The first result as the scalar array it is. -/
def lossArr : Sscalar.Idx → EReal := fun _ => loss img pid aid pw pb emb hw hb

/-- The domain the statement is made on: every token id a row of the table. -/
structure InRange : Prop where
  pid_lt : ∀ i, (pid i).toNat < 32000
  aid_lt : ∀ i, (aid i).toNat < 32000

/-- Every float input a real number. -/
structure Finite : Prop where
  img : ∀ i, ∃ r : ℝ, img i = (r : EReal)
  pw : ∀ i, ∃ r : ℝ, pw i = (r : EReal)
  pb : ∀ i, ∃ r : ℝ, pb i = (r : EReal)
  emb : ∀ i, ∃ r : ℝ, emb i = (r : EReal)
  hw : ∀ i, ∃ r : ℝ, hw i = (r : EReal)
  hb : ∀ i, ∃ r : ℝ, hb i = (r : EReal)

end Cert.Spec

end
-- ==== Proof.KI.HostVals1.lean ====
/-
  What region 1 finds: after the host stretches between the regions its hidden rows are the specification's hidden
  state with batch and position merged (row b · 1024 + l) — the projected image rows, then the prompt tokens' and
  the answer tokens' rows of the embedding table, each look-up reading its row because every id is in range —, its
  head weight and bias the arguments', and its targets the answer ids shifted by one position (the ignored label
  -100 before the answers and at each batch's last position).
-/
import proofs.«417710_j44341242364213_2_alg».proof.Proof.KI.RunData
import proofs.«417710_j44341242364213_2_alg».proof.Proof.KI.Reg0Value
import proofs.«417710_j44341242364213_2_alg».proof.Proof.KI.Reg1Value
import proofs.«417710_j44341242364213_2_alg».proof.Proof.KI.HostVals0
import proofs.«417710_j44341242364213_2_alg».proof.Proof.KI.Args
import proofs.«417710_j44341242364213_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

open Idealize.ShloMosaic.StableHlo.Predicate

/-! ## Words: a token id below the table's height -/

theorem word_slt_zero {w : BitVec 32} (hw : w.toNat < 32000) : IntOp.cmpi .slt w 0#32 = 0#1 := by
  refine eq_zero_of_ne_one fun h => ?_
  rw [slt_iff_toNat (by omega) (by decide)] at h
  exact absurd h (Nat.not_lt_zero _)

theorem word_sge_zero {w : BitVec 32} (hw : w.toNat < 32000) : IntOp.cmpi .sge w 0#32 = 1#1 :=
  (sge_iff_toNat (by omega) (by decide)).mpr (Nat.zero_le _)

theorem word_sle_top {w : BitVec 32} (hw : w.toNat < 32000) : IntOp.cmpi .sle w 31999#32 = 1#1 :=
  (sle_iff_toNat (by omega) (by decide)).mpr (by show w.toNat ≤ 31999; omega)

theorem word_clamp {w : BitVec 32} (hw : w.toNat < 32000) : min w.toInt.toNat (32000 - 1) = w.toNat := by
  rw [toInt_eq_toNat_of_lt (by omega), Int.toNat_natCast]; omega

/-- An and-fold of ones from one is one. -/
theorem foldl_andi_one {ι : Type} (g : ι → BitVec 1) (hg : ∀ n, g n = 1#1) (l : List ι) :
    l.foldl (fun r n => IntOp.andi r (g n)) 1#1 = 1#1 := by
  induction l with
  | nil => rfl
  | cons a l ih => rw [List.foldl_cons, hg a]; exact ih

/-! ## A gather of whole rows of a table, read at an index -/

section Rows
variable {α : Type}

/-- The dimension numbers of a look-up of rows: operand [N, D], start indices [R, C, 1], result [R, C, D]. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row look-up at (r, q, k): the table's row named by the start index at (r, q, 0), read signed and clamped
    into the table, at column k. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (q : Fin C) (k : Fin D) :
    Host.gather (rowDims N D R C wf) x idx (ix3 r q k)
      = x (ix2 ⟨min (idx (ix3 r q (0 : Fin 1))).toInt.toNat (N - 1), by omega⟩ k) := by
  unfold Host.gather
  congr 1
  funext a
  refine Fin.ext ?_
  show (rowDims N D R C wf).start (ix3 r q k) idx a + (rowDims N D R C wf).batchCoord (ix3 r q k) a
    + (rowDims N D R C wf).offCoord (ix3 r q k) a = _
  rw [GatherDims.batchCoord_eq_zero _ _ _ List.not_mem_nil, Nat.add_zero]
  have h0 : (rowDims N D R C wf).start (ix3 r q k) idx (0 : Fin 2) + (rowDims N D R C wf).offCoord (ix3 r q k) (0 : Fin 2)
      = min (idx (ix3 r q (0 : Fin 1))).toInt.toNat (N - 1) := by
    rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N D R C wf).startIndexMap from List.mem_singleton.mpr rfl)]
    have hsi : (rowDims N D R C wf).siIdx (ix3 r q k) ⟨List.idxOf (0 : Fin 2) (rowDims N D R C wf).startIndexMap,
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl
  have h1 : (rowDims N D R C wf).start (ix3 r q k) idx (1 : Fin 2) + (rowDims N D R C wf).offCoord (ix3 r q k) (1 : Fin 2)
      = k.val := by
    have hn : (1 : Fin 2) ∉ ([0] : List (Fin 2)) := by decide
    unfold GatherDims.start
    rw [dif_neg (show (1 : Fin 2) ∉ (rowDims N D R C wf).startIndexMap from hn), Nat.zero_add]
    unfold GatherDims.offCoord
    rw [dif_pos ((GatherDims.mem_sKept (rowDims N D R C wf) (1 : Fin 2)).mpr ⟨hn, List.not_mem_nil⟩)]
    rfl
  match a with
  | ⟨0, _⟩ => exact h0
  | ⟨1, _⟩ => exact h1

end Rows

/-! ## The look-up of the 128 token rows of a batch -/

/-- The ids with a negative one wrapped by the table's height. -/
def wrap128 (ids : S4x128.Idx → BitVec 32) : S4x128.Idx → BitVec 32 :=
  select (cmpi .slt ids (broadcastInDim S4x128 ![] bcast_S_S4x128 (constantI S_ 32 0#32)))
    (addi ids (broadcastInDim S4x128 ![] bcast_S_S4x128 (constantI S_ 32 32000#32))) ids
/-- The same as a column of start indices. -/
def col128 (ids : S4x128.Idx → BitVec 32) : S4x128x1.Idx → BitVec 32 :=
  broadcastInDim S4x128x1 ![0, 1] bcast_S4x128_S4x128x1_0_1 (wrap128 ids)
/-- The range test 0 ≤ id ≤ 31999 of each start index. -/
def ok128 (ids : S4x128.Idx → BitVec 32) : S4x128.Idx → BitVec 1 :=
  Host.reduce IntOp.andi
    (andi (cmpi .sge (col128 ids) (broadcastInDim S4x128x1 ![] bcast_S_S4x128x1 (constantI S_ 32 0#32)))
      (cmpi .sle (col128 ids) (broadcastInDim S4x128x1 ![0, 1, 2] bcast_S1x1x1_S4x128x1_0_1_2
        (broadcastInDim S1x1x1 ![2] bcast_S1_S1x1x1_2 (constantI S1 32 31999#32)))))
    (constantI S_ 1 1#1) reducesTo_S4x128x1_S4x128_d2 h_S_
/-- The looked-up rows: the table's row where the id is in range, a not-a-number pattern elsewhere. -/
def take128 (ids : S4x128.Idx → BitVec 32) (tab : S32000x4096.Idx → EReal) : S4x128x4096.Idx → EReal :=
  select (broadcastInDim S4x128x4096 ![0, 1] bcast_S4x128_S4x128x4096_0_1 (ok128 ids))
    (Host.gather gather_S32000x4096_S4x128x1_S4x128x4096_2_0_n_n_0_2_14096 tab (col128 ids))
    (broadcastInDim S4x128x4096 ![] bcast_S_S4x128x4096 (constant (F := Ideal) S_ .f32 0x7FC00000#32))

set_option maxHeartbeats 1600000 in
theorem hostOps1_1_v6 (Vv : Valuation τ sig (Elt Ideal)) :
    (StableHlo.after hostOps1_1 Vv (Proc.devRef .tc main_v6) : S4x128x4096.Idx → EReal)
      = take128 (Vv (Proc.devRef .tc main_arg1)) (Vv (Proc.devRef .tc main_arg5)) := by
  after_results_simp
  simp only [StableHlo.TRef.ofBuf, StableHlo.TRef.toBuf, cast_eq]
  rfl

theorem wrap128_apply (ids : S4x128.Idx → BitVec 32) (i : S4x128.Idx) (h : (ids i).toNat < 32000) : wrap128 ids i = ids i := by
  show Scalar.select (IntOp.cmpi .slt (ids i) 0#32) _ _ = _
  rw [word_slt_zero h]; exact select_zero _ _

theorem col128_apply (ids : S4x128.Idx → BitVec 32) (b : Fin 4) (j : Fin 128) :
    col128 ids (ix3 b j (0 : Fin 1)) = wrap128 ids (ix2 b j) := by
  unfold col128
  refine broadcastInDim_apply _ _ _ _ (ix2 b j) fun a => ?_
  match a with
  | ⟨0, _⟩ => rfl
  | ⟨1, _⟩ => rfl

theorem col128_lt (ids : S4x128.Idx → BitVec 32) (hlt : ∀ i, (ids i).toNat < 32000) (i : S4x128x1.Idx) :
    (col128 ids i).toNat < 32000 := by
  obtain ⟨k, hk⟩ : ∃ k, col128 ids i = wrap128 ids k := ⟨_, rfl⟩
  rw [hk, wrap128_apply ids k (hlt k)]; exact hlt k

theorem ok128_apply (ids : S4x128.Idx → BitVec 32) (hlt : ∀ i, (ids i).toNat < 32000) (j : S4x128.Idx) : ok128 ids j = 1#1 := by
  unfold ok128 Host.reduce
  refine foldl_andi_one (fun n => _) (fun n => ?_) _
  show IntOp.andi (IntOp.cmpi .sge (col128 ids _) 0#32) (IntOp.cmpi .sle (col128 ids _) 31999#32) = 1#1
  rw [word_sge_zero (col128_lt ids hlt _), word_sle_top (col128_lt ids hlt _)]; rfl

/-- With every id in range the look-up reads the table's row of that id. -/
theorem take128_apply (ids : S4x128.Idx → BitVec 32) (tab : S32000x4096.Idx → EReal) (hlt : ∀ i, (ids i).toNat < 32000)
    (b : Fin 4) (j : Fin 128) (d : Fin 4096) :
    take128 ids tab (ix3 b j d) = tab (ix2 (⟨(ids (ix2 b j)).toNat, hlt _⟩ : Fin 32000) d) := by
  show Scalar.select (ok128 ids _) (Host.gather gather_S32000x4096_S4x128x1_S4x128x4096_2_0_n_n_0_2_14096 tab (col128 ids) (ix3 b j d)) _ = _
  rw [ok128_apply ids hlt, select_one]
  refine (gather_rows_apply (by decide) gather_S32000x4096_S4x128x1_S4x128x4096_2_0_n_n_0_2_14096_wf tab (col128 ids) b j d).trans ?_
  refine congrArg tab (congrArg (fun r => ix2 r d) (Fin.ext ?_))
  show min (col128 ids (ix3 b j (0 : Fin 1))).toInt.toNat (32000 - 1) = (ids (ix2 b j)).toNat
  rw [col128_apply, wrap128_apply ids _ (hlt _)]; exact word_clamp (hlt _)

/-! ## The look-up of the 320 token rows of a batch -/

/-- The ids with a negative one wrapped by the table's height. -/
def wrap320 (ids : S4x320.Idx → BitVec 32) : S4x320.Idx → BitVec 32 :=
  select (cmpi .slt ids (broadcastInDim S4x320 ![] bcast_S_S4x320 (constantI S_ 32 0#32)))
    (addi ids (broadcastInDim S4x320 ![] bcast_S_S4x320 (constantI S_ 32 32000#32))) ids
/-- The same as a column of start indices. -/
def col320 (ids : S4x320.Idx → BitVec 32) : S4x320x1.Idx → BitVec 32 :=
  broadcastInDim S4x320x1 ![0, 1] bcast_S4x320_S4x320x1_0_1 (wrap320 ids)
/-- The range test 0 ≤ id ≤ 31999 of each start index. -/
def ok320 (ids : S4x320.Idx → BitVec 32) : S4x320.Idx → BitVec 1 :=
  Host.reduce IntOp.andi
    (andi (cmpi .sge (col320 ids) (broadcastInDim S4x320x1 ![] bcast_S_S4x320x1 (constantI S_ 32 0#32)))
      (cmpi .sle (col320 ids) (broadcastInDim S4x320x1 ![0, 1, 2] bcast_S1x1x1_S4x320x1_0_1_2
        (broadcastInDim S1x1x1 ![2] bcast_S1_S1x1x1_2 (constantI S1 32 31999#32)))))
    (constantI S_ 1 1#1) reducesTo_S4x320x1_S4x320_d2 h_S_
/-- The looked-up rows: the table's row where the id is in range, a not-a-number pattern elsewhere. -/
def take320 (ids : S4x320.Idx → BitVec 32) (tab : S32000x4096.Idx → EReal) : S4x320x4096.Idx → EReal :=
  select (broadcastInDim S4x320x4096 ![0, 1] bcast_S4x320_S4x320x4096_0_1 (ok320 ids))
    (Host.gather gather_S32000x4096_S4x320x1_S4x320x4096_2_0_n_n_0_2_14096 tab (col320 ids))
    (broadcastInDim S4x320x4096 ![] bcast_S_S4x320x4096 (constant (F := Ideal) S_ .f32 0x7FC00000#32))

set_option maxHeartbeats 1600000 in
theorem hostOps1_2_v7 (Vv : Valuation τ sig (Elt Ideal)) :
    (StableHlo.after hostOps1_2 Vv (Proc.devRef .tc main_v7) : S4x320x4096.Idx → EReal)
      = take320 (Vv (Proc.devRef .tc main_arg2)) (Vv (Proc.devRef .tc main_arg5)) := by
  after_results_simp
  simp only [StableHlo.TRef.ofBuf, StableHlo.TRef.toBuf, cast_eq]
  rfl

theorem wrap320_apply (ids : S4x320.Idx → BitVec 32) (i : S4x320.Idx) (h : (ids i).toNat < 32000) : wrap320 ids i = ids i := by
  show Scalar.select (IntOp.cmpi .slt (ids i) 0#32) _ _ = _
  rw [word_slt_zero h]; exact select_zero _ _

theorem col320_apply (ids : S4x320.Idx → BitVec 32) (b : Fin 4) (j : Fin 320) :
    col320 ids (ix3 b j (0 : Fin 1)) = wrap320 ids (ix2 b j) := by
  unfold col320
  refine broadcastInDim_apply _ _ _ _ (ix2 b j) fun a => ?_
  match a with
  | ⟨0, _⟩ => rfl
  | ⟨1, _⟩ => rfl

theorem col320_lt (ids : S4x320.Idx → BitVec 32) (hlt : ∀ i, (ids i).toNat < 32000) (i : S4x320x1.Idx) :
    (col320 ids i).toNat < 32000 := by
  obtain ⟨k, hk⟩ : ∃ k, col320 ids i = wrap320 ids k := ⟨_, rfl⟩
  rw [hk, wrap320_apply ids k (hlt k)]; exact hlt k

theorem ok320_apply (ids : S4x320.Idx → BitVec 32) (hlt : ∀ i, (ids i).toNat < 32000) (j : S4x320.Idx) : ok320 ids j = 1#1 := by
  unfold ok320 Host.reduce
  refine foldl_andi_one (fun n => _) (fun n => ?_) _
  show IntOp.andi (IntOp.cmpi .sge (col320 ids _) 0#32) (IntOp.cmpi .sle (col320 ids _) 31999#32) = 1#1
  rw [word_sge_zero (col320_lt ids hlt _), word_sle_top (col320_lt ids hlt _)]; rfl

/-- With every id in range the look-up reads the table's row of that id. -/
theorem take320_apply (ids : S4x320.Idx → BitVec 32) (tab : S32000x4096.Idx → EReal) (hlt : ∀ i, (ids i).toNat < 32000)
    (b : Fin 4) (j : Fin 320) (d : Fin 4096) :
    take320 ids tab (ix3 b j d) = tab (ix2 (⟨(ids (ix2 b j)).toNat, hlt _⟩ : Fin 32000) d) := by
  show Scalar.select (ok320 ids _) (Host.gather gather_S32000x4096_S4x320x1_S4x320x4096_2_0_n_n_0_2_14096 tab (col320 ids) (ix3 b j d)) _ = _
  rw [ok320_apply ids hlt, select_one]
  refine (gather_rows_apply (by decide) gather_S32000x4096_S4x320x1_S4x320x4096_2_0_n_n_0_2_14096_wf tab (col320 ids) b j d).trans ?_
  refine congrArg tab (congrArg (fun r => ix2 r d) (Fin.ext ?_))
  show min (col320 ids (ix3 b j (0 : Fin 1))).toInt.toNat (32000 - 1) = (ids (ix2 b j)).toNat
  rw [col320_apply, wrap320_apply ids _ (hlt _)]; exact word_clamp (hlt _)

/-! ## The head's weight and bias -/

theorem W2_arg6 (c : Dev nD) : W2 m c (Proc.devRef .tc main_arg6) = m ((c : Thread nD τ).loc main_arg6) := by
  rw [W2_of_ne m c main_arg6 (by decide)]
  show StableHlo.after hostOps0 _ (Proc.devRef .tc main_arg6) = _
  after_results

theorem W2_arg7 (c : Dev nD) : W2 m c (Proc.devRef .tc main_arg7) = m ((c : Thread nD τ).loc main_arg7) := by
  rw [W2_of_ne m c main_arg7 (by decide)]
  show StableHlo.after hostOps0 _ (Proc.devRef .tc main_arg7) = _
  after_results

theorem W6_w (c : Dev nD) : (W6 m c (Proc.devRef .tc main_v17) : S32000x4096.Idx → EReal) = a_hw m c := by
  show StableHlo.after hostOps1_3 _ (Proc.devRef .tc main_v17) = _
  after_results
  rw [W2_arg6]
  rfl

theorem V6_w_apply (c : Dev nD) (v : Fin 32000) (d : Fin 4096) : in1_w (V6 m) c (ix2 v d) = a_hw m c (ix2 v d) :=
  congrFun (W6_w m c) (ix2 v d)

theorem W6_b (c : Dev nD) : (W6 m c (Proc.devRef .tc main_v18) : S1x32000.Idx → EReal)
    = shapeCast S1x32000 (a_hb m c) shapeCasts_S32000_S1x32000 := by
  show StableHlo.after hostOps1_3 _ (Proc.devRef .tc main_v18) = _
  after_results
  rw [W2_arg7]
  rfl

theorem V6_b_apply (c : Dev nD) (v : Fin 32000) : in1_b (V6 m) c (ix2 (0 : Fin 1) v) = a_hb m c (ix1 v) :=
  (congrFun (W6_b m c) (ix2 (0 : Fin 1) v)).trans (shapeCast_a_1a_apply _ _ 0 v)

/-! ## The targets -/

theorem W2_arg2 (c : Dev nD) : W2 m c (Proc.devRef .tc main_arg2) = m ((c : Thread nD τ).loc main_arg2) := by
  rw [W2_of_ne m c main_arg2 (by decide)]
  show StableHlo.after hostOps0 _ (Proc.devRef .tc main_arg2) = _
  after_results

/-- The labels: the ignored label over the image and prompt positions, then the answer ids. -/
def labels (aid : S4x320.Idx → BitVec 32) : S4x1024.Idx → BitVec 32 :=
  concatenate S4x1024 1 [⟨S4x704, broadcastInDim S4x704 ![] bcast_S_S4x704 (constantI S_ 32 4294967196#32)⟩, ⟨S4x320, aid⟩]
    concatenates_S4x704_S4x320_S4x1024_d1
/-- The targets: the labels moved one position earlier, the ignored label at each batch's last position. -/
def targets (aid : S4x320.Idx → BitVec 32) : S4x1024.Idx → BitVec 32 :=
  concatenate S4x1024 1
    [⟨S4x1023, extractStridedSlice S4x1023 ![0, 1] (labels aid) slices_S4x1024_S4x1023_0_1⟩,
      ⟨S4x1, broadcastInDim S4x1 ![] bcast_S_S4x1 (constantI S_ 32 4294967196#32)⟩]
    concatenates_S4x1023_S4x1_S4x1024_d1

theorem W6_t (c : Dev nD) : (W6 m c (Proc.devRef .tc main_v16) : S4096x1.Idx → BitVec 32)
    = shapeCast S4096x1 (targets (a_aid m c)) shapeCasts_S4x1024_S4096x1 := by
  show StableHlo.after hostOps1_3 _ (Proc.devRef .tc main_v16) = _
  after_results
  rw [W2_arg2]
  rfl

theorem labels_lo (aid : S4x320.Idx → BitVec 32) (b : Fin 4) (p : Fin 1024) (h : p.val < 704) :
    labels aid (ix2 b p) = 4294967196#32 := by
  unfold labels
  exact concatenate_pair_apply_left (t := S4x1024) (s₁ := S4x704) (s₂ := S4x320) 1 _ _ _ (ix2 b p) rfl (ix2 b (⟨p.val, h⟩ : Fin 704)) (fun a => by
    match a with
    | ⟨0, _⟩ => rfl
    | ⟨1, _⟩ => rfl)

theorem labels_hi (aid : S4x320.Idx → BitVec 32) (b : Fin 4) (p : Fin 1024) (h : 704 ≤ p.val) :
    labels aid (ix2 b p) = aid (ix2 b (⟨p.val - 704, by have := p.isLt; omega⟩ : Fin 320)) := by
  unfold labels
  exact concatenate_pair_apply_right (t := S4x1024) (s₁ := S4x704) (s₂ := S4x320) 1 _ _ _ (ix2 b p) rfl rfl (ix2 b (⟨p.val - 704, by have := p.isLt; omega⟩ : Fin 320))
    (fun a ha => by
      match a with
      | ⟨0, _⟩ => rfl
      | ⟨1, _⟩ => exact absurd rfl ha)
    (by show p.val - 704 + 704 = p.val; omega)

theorem targets_lo (aid : S4x320.Idx → BitVec 32) (b : Fin 4) (l : Fin 1024) (h : l.val < 1023) :
    targets aid (ix2 b l) = labels aid (ix2 b (⟨l.val + 1, by omega⟩ : Fin 1024)) := by
  unfold targets
  refine (concatenate_pair_apply_left (t := S4x1024) (s₁ := S4x1023) (s₂ := S4x1) 1 _ _ _ (ix2 b l) rfl (ix2 b (⟨l.val, h⟩ : Fin 1023)) (fun a => by
    match a with
    | ⟨0, _⟩ => rfl
    | ⟨1, _⟩ => rfl)).trans ?_
  exact extractStridedSlice_apply _ _ _ _ (ix2 b (⟨l.val + 1, by omega⟩ : Fin 1024)) (fun a => by
    match a with
    | ⟨0, _⟩ => show b.val = 0 + b.val; omega
    | ⟨1, _⟩ => show l.val + 1 = 1 + l.val; omega)

theorem targets_hi (aid : S4x320.Idx → BitVec 32) (b : Fin 4) (l : Fin 1024) (h : 1023 ≤ l.val) :
    targets aid (ix2 b l) = 4294967196#32 := by
  unfold targets
  exact concatenate_pair_apply_right (t := S4x1024) (s₁ := S4x1023) (s₂ := S4x1) 1 _ _ _ (ix2 b l) rfl rfl (ix2 b (0 : Fin 1))
    (fun a ha => by
      match a with
      | ⟨0, _⟩ => rfl
      | ⟨1, _⟩ => exact absurd rfl ha)
    (by show 0 + 1023 = l.val; have := l.isLt; omega)

/-- The target of row b · 1024 + l: the answer id at position l + 1 - 704 when that is an answer position, else -100. -/
theorem V6_t_apply (c : Dev nD) (b : Fin 4) (l : Fin 1024) :
    in1_t (V6 m) c (ix2 (⟨b.val * 1024 + l.val, by have := b.isLt; have := l.isLt; omega⟩ : Fin 4096) (0 : Fin 1))
      = if h : 703 ≤ l.val ∧ l.val < 1023 then a_aid m c (ix2 b (⟨l.val - 703, by omega⟩ : Fin 320)) else 4294967196#32 := by
  refine (congrFun (W6_t m c) _).trans ?_
  refine (shapeCast_apply _ _ _ (ix2 b l) (by
    rw [Shape.rowMajor_val_two, Shape.rowMajor_val_two]
    show b.val * 1024 + l.val = (b.val * 1024 + l.val) * 1 + 0
    omega)).trans ?_
  by_cases h1 : l.val < 1023
  · rw [targets_lo _ b l h1]
    by_cases h2 : 703 ≤ l.val
    · rw [dif_pos ⟨h2, h1⟩, labels_hi _ b _ (by show 704 ≤ l.val + 1; omega)]
      exact congrArg (a_aid m c) (congrArg (ix2 b) (Fin.ext (by show l.val + 1 - 704 = l.val - 703; omega)))
    · rw [dif_neg (fun h => h2 h.1), labels_lo _ b _ (by show l.val + 1 < 704; omega)]
  · rw [dif_neg (fun h => h1 h.2), targets_hi _ b l (by omega)]

/-! ## The hidden rows -/

theorem hostOps1_3_v10 (Vv : Valuation τ sig (Elt Ideal)) :
    (StableHlo.after hostOps1_3 Vv (Proc.devRef .tc main_v10) : S4096x4096.Idx → EReal)
      = shapeCast S4096x4096 (concatenate S4x1024x4096 1
          [⟨S4x576x4096, Vv (Proc.devRef .tc main_v5)⟩, ⟨S4x128x4096, Vv (Proc.devRef .tc main_v6)⟩,
           ⟨S4x320x4096, Vv (Proc.devRef .tc main_v7)⟩]
          concatenates_S4x576x4096_S4x128x4096_S4x320x4096_S4x1024x4096_d1) shapeCasts_S4x1024x4096_S4096x4096 := by
  after_results
  rfl

theorem hostOps1_2_v5 (Vv : Valuation τ sig (Elt Ideal)) :
    StableHlo.after hostOps1_2 Vv (Proc.devRef .tc main_v5) = Vv (Proc.devRef .tc main_v5) := by
  after_results

theorem hostOps1_2_v6 (Vv : Valuation τ sig (Elt Ideal)) :
    StableHlo.after hostOps1_2 Vv (Proc.devRef .tc main_v6) = Vv (Proc.devRef .tc main_v6) := by
  after_results

theorem hostOps1_1_v5 (Vv : Valuation τ sig (Elt Ideal)) :
    StableHlo.after hostOps1_1 Vv (Proc.devRef .tc main_v5) = Vv (Proc.devRef .tc main_v5) := by
  after_results

theorem W3_v5 (c : Dev nD) : (W3 m c (Proc.devRef .tc main_v5) : S4x576x4096.Idx → EReal)
    = shapeCast S4x576x4096 (out0 (V1 m) c) shapeCasts_S2304x4096_S4x576x4096 := by
  show StableHlo.after hostOps1 _ (Proc.devRef .tc main_v5) = _
  after_results
  rw [show W2 m c (Proc.devRef .tc main_v4) = (dat0 (V1 m) c).arrAt 3 cfg0.N from W2_arr m c 3]
  rfl

theorem W3_arg1 (c : Dev nD) : W3 m c (Proc.devRef .tc main_arg1) = m ((c : Thread nD τ).loc main_arg1) := by
  show StableHlo.after hostOps1 _ (Proc.devRef .tc main_arg1) = _
  after_results
  rw [W2_of_ne m c main_arg1 (by decide)]
  show StableHlo.after hostOps0 _ (Proc.devRef .tc main_arg1) = _
  after_results

theorem W3_arg5 (c : Dev nD) : W3 m c (Proc.devRef .tc main_arg5) = m ((c : Thread nD τ).loc main_arg5) := by
  show StableHlo.after hostOps1 _ (Proc.devRef .tc main_arg5) = _
  after_results
  rw [W2_of_ne m c main_arg5 (by decide)]
  show StableHlo.after hostOps0 _ (Proc.devRef .tc main_arg5) = _
  after_results

theorem W4_arg2 (c : Dev nD) : W4 m c (Proc.devRef .tc main_arg2) = m ((c : Thread nD τ).loc main_arg2) := by
  show StableHlo.after hostOps1_1 _ (Proc.devRef .tc main_arg2) = _
  after_results
  exact W2_arg2 m c

theorem W4_arg5 (c : Dev nD) : W4 m c (Proc.devRef .tc main_arg5) = m ((c : Thread nD τ).loc main_arg5) := by
  show StableHlo.after hostOps1_1 _ (Proc.devRef .tc main_arg5) = _
  after_results
  rw [W2_of_ne m c main_arg5 (by decide)]
  show StableHlo.after hostOps0 _ (Proc.devRef .tc main_arg5) = _
  after_results

theorem W5_v5 (c : Dev nD) : (W5 m c (Proc.devRef .tc main_v5) : S4x576x4096.Idx → EReal)
    = shapeCast S4x576x4096 (out0 (V1 m) c) shapeCasts_S2304x4096_S4x576x4096 :=
  (hostOps1_2_v5 (W4 m c)).trans ((hostOps1_1_v5 (W3 m c)).trans (W3_v5 m c))

theorem W5_v6 (c : Dev nD) : (W5 m c (Proc.devRef .tc main_v6) : S4x128x4096.Idx → EReal)
    = take128 (a_pid m c) (a_emb m c) := by
  refine (hostOps1_2_v6 (W4 m c)).trans ?_
  refine (hostOps1_1_v6 (W3 m c)).trans ?_
  rw [W3_arg1, W3_arg5]

theorem W5_v7 (c : Dev nD) : (W5 m c (Proc.devRef .tc main_v7) : S4x320x4096.Idx → EReal)
    = take320 (a_aid m c) (a_emb m c) := by
  refine (hostOps1_2_v7 (W4 m c)).trans ?_
  rw [W4_arg2, W4_arg5]

/-- The hidden state as the program assembles it: the projected image rows, the prompt's rows, the answers' rows. -/
def hidden3 (c : Dev nD) : S4x1024x4096.Idx → EReal :=
  concatenate S4x1024x4096 1
    [⟨S4x576x4096, shapeCast S4x576x4096 (out0 (V1 m) c) shapeCasts_S2304x4096_S4x576x4096⟩,
      ⟨S4x128x4096, take128 (a_pid m c) (a_emb m c)⟩, ⟨S4x320x4096, take320 (a_aid m c) (a_emb m c)⟩]
    concatenates_S4x576x4096_S4x128x4096_S4x320x4096_S4x1024x4096_d1

theorem W6_h (c : Dev nD) : (W6 m c (Proc.devRef .tc main_v10) : S4096x4096.Idx → EReal)
    = shapeCast S4096x4096 (hidden3 m c) shapeCasts_S4x1024x4096_S4096x4096 := by
  refine (hostOps1_3_v10 (W5 m c)).trans ?_
  rw [W5_v5, W5_v6, W5_v7]
  rfl

/-- The projected image rows, with the batch and position axes apart again. -/
theorem proj_apply (c : Dev nD) (b : Fin 4) (p : Fin 576) (d : Fin 4096) :
    shapeCast S4x576x4096 (out0 (V1 m) c) shapeCasts_S2304x4096_S4x576x4096 (ix3 b p d)
      = (∑ k : Fin 1024, a_img m c (ix3 b p k) * a_pw m c (ix2 d k)) + a_pb m c (ix1 d) := by
  refine (shapeCast_apply _ _ _ (ix2 (⟨b.val * 576 + p.val, by have := b.isLt; have := p.isLt; omega⟩ : Fin 2304) d) (by
    rw [Shape.rowMajor_val_two, Shape.rowMajor_val_three]
    show (b.val * 576 + p.val) * 4096 + d.val = (b.val * 576 + p.val) * 4096 + d.val
    rfl)).trans ?_
  refine (final0_3_apply (V1 m) c _ d).trans ?_
  rw [V1_b_apply]
  congr 1
  exact Finset.sum_congr rfl fun k _ => by rw [V1_x_apply, V1_w_apply]

theorem hidden3_apply (c : Dev nD) (hR : Cert.Spec.InRange (a_pid m c) (a_aid m c)) (b : Fin 4) (l : Fin 1024) (d : Fin 4096) :
    hidden3 m c (ix3 b l d)
      = Cert.Spec.hidden (a_img m c) (a_pid m c) (a_aid m c) (a_pw m c) (a_pb m c) (a_emb m c) b l d := by
  unfold Cert.Spec.hidden hidden3
  by_cases h1 : l.val < 576
  · rw [dif_pos h1]
    refine (concatenate_apply_piece 1 _ _ (ix3 b l d) 0 (by simp) S4x576x4096 _ rfl rfl 0 rfl
      (ix3 b (⟨l.val, h1⟩ : Fin 576) d) (fun a ha => by
        match a with
        | ⟨0, _⟩ => rfl
        | ⟨1, _⟩ => exact absurd rfl ha
        | ⟨2, _⟩ => rfl) (by show 0 + l.val = l.val; omega)).trans ?_
    exact proj_apply m c b ⟨l.val, h1⟩ d
  · rw [dif_neg h1]
    by_cases h2 : l.val < 704
    · rw [dif_pos h2]
      refine (concatenate_apply_piece 1 _ _ (ix3 b l d) 1 (by simp) S4x128x4096 _ rfl rfl 576 rfl
        (ix3 b (⟨l.val - 576, by omega⟩ : Fin 128) d) (fun a ha => by
          match a with
          | ⟨0, _⟩ => rfl
          | ⟨1, _⟩ => exact absurd rfl ha
          | ⟨2, _⟩ => rfl) (by show 576 + (l.val - 576) = l.val; omega)).trans ?_
      rw [take128_apply _ _ hR.pid_lt]
      unfold Cert.Spec.embRow
      exact congrArg (a_emb m c) (congrArg (fun r => ix2 r d) (Fin.ext (Nat.mod_eq_of_lt (hR.pid_lt _)).symm))
    · rw [dif_neg h2]
      refine (concatenate_apply_piece 1 _ _ (ix3 b l d) 2 (by simp) S4x320x4096 _ rfl rfl 704 rfl
        (ix3 b (⟨l.val - 704, by have := l.isLt; omega⟩ : Fin 320) d) (fun a ha => by
          match a with
          | ⟨0, _⟩ => rfl
          | ⟨1, _⟩ => exact absurd rfl ha
          | ⟨2, _⟩ => rfl) (by show 704 + (l.val - 704) = l.val; omega)).trans ?_
      rw [take320_apply _ _ hR.aid_lt]
      unfold Cert.Spec.embRow
      exact congrArg (a_emb m c) (congrArg (fun r => ix2 r d) (Fin.ext (Nat.mod_eq_of_lt (hR.aid_lt _)).symm))

theorem V6_h_apply (c : Dev nD) (hR : Cert.Spec.InRange (a_pid m c) (a_aid m c)) (b : Fin 4) (l : Fin 1024) (d : Fin 4096) :
    in1_h (V6 m) c (ix2 (⟨b.val * 1024 + l.val, by have := b.isLt; have := l.isLt; omega⟩ : Fin 4096) d)
      = Cert.Spec.hidden (a_img m c) (a_pid m c) (a_aid m c) (a_pw m c) (a_pb m c) (a_emb m c) b l d := by
  refine (congrFun (W6_h m c) _).trans ?_
  refine (shapeCast_apply _ _ _ (ix3 b l d) (by
    rw [Shape.rowMajor_val_three, Shape.rowMajor_val_two]
    show (b.val * 1024 + l.val) * 4096 + d.val = (b.val * 1024 + l.val) * 4096 + d.val
    rfl)).trans ?_
  exact hidden3_apply m c hR b l d

end Cert.KernelIdeal.Hand

end
-- ==== Proof.SpecFacts.lean ====
/-
  With every float input a real number, every hidden entry and every logit is a real number: sums and products
  of reals.
-/
import proofs.«417710_j44341242364213_2_alg».proof.Proof.Spec

noncomputable section

namespace Cert.Spec

open Idealize.ShloMosaic Idealize.ShloMosaic.ValueIdx

variable (img : Simg.Idx → EReal) (pid : Spid.Idx → BitVec 32) (aid : Said.Idx → BitVec 32)
  (pw : Spw.Idx → EReal) (pb : Spb.Idx → EReal) (emb hw : Stab.Idx → EReal) (hb : Shb.Idx → EReal)

/-- A finite sum of real numbers is a real number. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r₁, h₁⟩ := h a (Finset.mem_insert_self a s)
    obtain ⟨r₂, h₂⟩ := ih (fun i hi => h i (Finset.mem_insert_of_mem hi))
    exact ⟨r₁ + r₂, by rw [Finset.sum_insert ha, h₁, h₂, EReal.coe_add]⟩

/-- A product of two real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨c, rfl⟩ := hy
  exact ⟨a * c, (EReal.coe_mul a c).symm⟩

/-- A sum of two real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨c, rfl⟩ := hy
  exact ⟨a + c, (EReal.coe_add a c).symm⟩

/-- Every hidden entry is a real number. -/
theorem hidden_real (hF : Finite img pw pb emb hw hb) (b : Fin 4) (l : Fin 1024) (d : Fin 4096) :
    ∃ r : ℝ, hidden img pid aid pw pb emb b l d = (r : EReal) := by
  unfold hidden
  split_ifs with h h'
  · exact add_real (sum_real _ _ (fun k _ => mul_real (hF.img _) (hF.pw _))) (hF.pb _)
  · exact hF.emb _
  · exact hF.emb _

/-- Every logit is a real number: there is a real array the logits are the coercion of. -/
theorem logit_real (hF : Finite img pw pb emb hw hb) :
    ∃ z : Fin 4 → Fin 1024 → Fin 32000 → ℝ, ∀ b l v, logit img pid aid pw pb emb hw hb b l v = ((z b l v : ℝ) : EReal) := by
  have h : ∀ b l v, ∃ r : ℝ, logit img pid aid pw pb emb hw hb b l v = (r : EReal) := fun b l v =>
    add_real (sum_real _ _ (fun d _ => mul_real (hidden_real img pid aid pw pb emb hw hb hF b l d) (hF.hw _)))
      (hF.hb _)
  choose z hz using h
  exact ⟨z, hz⟩

end Cert.Spec

end
-- ==== Proof.KI.Value.lean ====
/-
  The kernel program's two results as the specification's functions of its arguments: the logits array is region 1's
  logits with the row axis split back into batch and position; the loss is the sum of region 1's negative
  log-likelihood column over the sum of its validity column (at least one), which on the stated domain is the sum
  over the 4 · 320 predicting positions divided by 1280.
-/
import proofs.«417710_j44341242364213_2_alg».proof.Proof.KI.RunData
import proofs.«417710_j44341242364213_2_alg».proof.Proof.KI.Reg1Value
import proofs.«417710_j44341242364213_2_alg».proof.Proof.KI.HostVals1
import proofs.«417710_j44341242364213_2_alg».proof.Proof.KI.Args
import proofs.«417710_j44341242364213_2_alg».proof.Proof.Spec
import proofs.«417710_j44341242364213_2_alg».proof.Proof.SpecFacts
import proofs.«417710_j44341242364213_2_alg».proof.Proof.Math.Online
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.ReduceAll
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The program's two results after the last host stretch, as extended-real arrays. -/
abbrev res_loss (c : Dev nD) : S_.Idx → EReal := W8 m c (Proc.devRef .tc main_v23)
abbrev res_logits (c : Dev nD) : S4x1024x32000.Idx → EReal := W8 m c (Proc.devRef .tc main_v24)

/-- Row b · 1024 + l of the arrays whose batch and position axes are merged. -/
abbrev rowOf (b : Fin 4) (l : Fin 1024) : Fin 4096 :=
  ⟨b.val * 1024 + l.val, by have := b.isLt; have := l.isLt; omega⟩

/-- The logit region 1 computes at row b · 1024 + l is the specification's logit at (b, l). -/
theorem logitOf_eq (c : Dev nD) (hR : Cert.Spec.InRange (a_pid m c) (a_aid m c)) (b : Fin 4) (l : Fin 1024) (v : Fin 32000) :
    logitOf (V6 m) c (rowOf b l) v
      = Cert.Spec.logit (a_img m c) (a_pid m c) (a_aid m c) (a_pw m c) (a_pb m c) (a_emb m c) (a_hw m c) (a_hb m c) b l v := by
  unfold logitOf Cert.Spec.logit
  rw [V6_b_apply m c v]
  refine congrArg (· + a_hb m c (ix1 v)) ?_
  refine Finset.sum_congr rfl (fun d _ => ?_)
  rw [V6_w_apply m c v d]
  exact congrArg (· * a_hw m c (ix2 v d)) (V6_h_apply m c hR b l d)

theorem res_logits_eq (c : Dev nD) :
    res_logits m c = fun i => shapeCast S4x1024x32000 (out1_logits (V6 m) c) shapeCasts_S4096x32000_S4x1024x32000 i := by
  show StableHlo.after hostOps2 _ (Proc.devRef .tc main_v24) = _
  after_results
  rw [show W7 m c (Proc.devRef .tc main_v19_0) = out1_logits (V6 m) c from W7_arr m c 4]
  rfl

theorem kernel_logits (c : Dev nD) (hR : Cert.Spec.InRange (a_pid m c) (a_aid m c)) :
    res_logits m c = Cert.Spec.logits (a_img m c) (a_pid m c) (a_aid m c) (a_pw m c) (a_pb m c) (a_emb m c) (a_hw m c) (a_hb m c) := by
  funext i
  obtain ⟨b, l, v, rfl⟩ : ∃ b l v, i = ix3 b l v := ⟨i 0, i 1, i 2, eq_ix3 i⟩
  rw [res_logits_eq m c]
  show shapeCast S4x1024x32000 (out1_logits (V6 m) c) shapeCasts_S4096x32000_S4x1024x32000 (ix3 b l v)
      = Cert.Spec.logit (a_img m c) (a_pid m c) (a_aid m c) (a_pw m c) (a_pb m c) (a_emb m c) (a_hw m c) (a_hb m c) b l v
  rw [shapeCast_apply (out1_logits (V6 m) c) shapeCasts_S4096x32000_S4x1024x32000 (ix3 b l v) (ix2 (rowOf b l) v) (by
    rw [Shape.rowMajor_val_two, Shape.rowMajor_val_three]
    rfl)]
  rw [final1_4_apply (V6 m) c (rowOf b l) v]
  exact logitOf_eq m c hR b l v

/-! ### The loss -/

/-- The program's loss before the domain is used: the sum of the negative log-likelihood column over the larger of
    the sum of the validity column and one. -/
theorem res_loss_eq (c : Dev nD) :
    res_loss m c = fun _ => Ideal.div (∑ i, out1_nll (V6 m) c i) (max (∑ i, out1_valid (V6 m) c i) 1) := by
  show StableHlo.after hostOps2 _ (Proc.devRef .tc main_v23) = _
  after_results
  rw [show W7 m c (Proc.devRef .tc main_v19_1) = out1_nll (V6 m) c from W7_arr m c 5,
    show W7 m c (Proc.devRef .tc main_v19_2) = out1_valid (V6 m) c from W7_arr m c 6]
  funext j
  rw [hostDivf_apply, maximumf_apply, hostReduceAdd_apply, hostReduceAdd_apply, constant_apply, constant_apply,
    Ideal.hostReduceAdd_total _ (fun b => b.elim0), Ideal.hostReduceAdd_total _ (fun b => b.elim0),
    Ideal.ofBits_zero_f32, Ideal.ofBits_one_f32, zero_add, zero_add]

/-- The merged row axis as the product of batch and position. -/
def rowEquiv : Fin 4 × Fin 1024 ≃ Fin 4096 where
  toFun p := rowOf p.1 p.2
  invFun r := (⟨r.val / 1024, by have := r.isLt; omega⟩, ⟨r.val % 1024, Nat.mod_lt _ (by norm_num)⟩)
  left_inv p := by
    obtain ⟨b, l⟩ := p
    have := b.isLt
    have := l.isLt
    refine Prod.ext (Fin.ext ?_) (Fin.ext ?_)
    · show (b.val * 1024 + l.val) / 1024 = b.val
      omega
    · show (b.val * 1024 + l.val) % 1024 = l.val
      omega
  right_inv r := by
    refine Fin.ext ?_
    show r.val / 1024 * 1024 + r.val % 1024 = r.val
    omega

/-- A sum over the rows is the double sum over batch and position. -/
theorem sum_rows {M : Type*} [AddCommMonoid M] (f : Fin 4096 → M) :
    ∑ r, f r = ∑ b : Fin 4, ∑ l : Fin 1024, f (rowOf b l) := by
  rw [← Equiv.sum_comp rowEquiv f, Fintype.sum_prod_type]
  rfl

/-- A column's total is the double sum of its entries over batch and position. -/
theorem sum_col (x : S4096x1.Idx → EReal) :
    ∑ i, x i = ∑ b : Fin 4, ∑ l : Fin 1024, x (ix2 (rowOf b l) (0 : Fin 1)) := by
  rw [sum_idx2, sum_rows]
  refine Finset.sum_congr rfl (fun b _ => Finset.sum_congr rfl (fun l _ => ?_))
  exact Fin.sum_univ_one _

/-- The predicting position 703 + j. -/
abbrev posOf (j : Fin 320) : Fin 1024 := ⟨703 + j.val, by have := j.isLt; omega⟩

/-- A sum over the positions of a function that vanishes off the predicting positions is the sum over those. -/
theorem sum_window {M : Type*} [AddCommMonoid M] (g : Fin 1024 → M)
    (hout : ∀ l : Fin 1024, ¬(703 ≤ l.val ∧ l.val < 1023) → g l = 0) :
    ∑ l, g l = ∑ j : Fin 320, g (posOf j) := by
  symm
  refine Fintype.sum_of_injective posOf ?_ _ _ ?_ (fun _ => rfl)
  · intro j j' h
    have h' : 703 + j.val = 703 + j'.val := congrArg Fin.val h
    exact Fin.ext (by omega)
  · intro l hl
    refine hout l (fun hw => hl ⟨⟨l.val - 703, by omega⟩, Fin.ext ?_⟩)
    show 703 + (l.val - 703) = l.val
    omega

/-! ### The targets -/

/-- Off the predicting positions the target is the ignored label. -/
theorem target_out (c : Dev nD) (b : Fin 4) (l : Fin 1024) (hl : ¬(703 ≤ l.val ∧ l.val < 1023)) :
    in1_t (V6 m) c (ix2 (rowOf b l) (0 : Fin 1)) = 4294967196#32 :=
  (V6_t_apply m c b l).trans (dif_neg hl)

/-- At predicting position 703 + j the target is answer id j. -/
theorem target_in (c : Dev nD) (b : Fin 4) (j : Fin 320) :
    in1_t (V6 m) c (ix2 (rowOf b (posOf j)) (0 : Fin 1)) = a_aid m c (ix2 b j) := by
  have hw : 703 ≤ (posOf j).val ∧ (posOf j).val < 1023 := by
    have := j.isLt
    show 703 ≤ 703 + j.val ∧ 703 + j.val < 1023
    omega
  refine ((V6_t_apply m c b (posOf j)).trans (dif_pos hw)).trans ?_
  refine congrArg (fun q : Fin 320 => a_aid m c (ix2 b q)) (Fin.ext ?_)
  show 703 + j.val - 703 = j.val
  omega

/-- An id in range is not the ignored label. -/
theorem aid_ne (c : Dev nD) (hR : Cert.Spec.InRange (a_pid m c) (a_aid m c)) (b : Fin 4) (j : Fin 320) :
    a_aid m c (ix2 b j) ≠ 4294967196#32 := by
  intro h
  have h1 := hR.aid_lt (ix2 b j)
  rw [h] at h1
  exact absurd h1 (by decide)

/-- An id in range is the word of the vocabulary entry it names. -/
theorem aid_eq (c : Dev nD) (hR : Cert.Spec.InRange (a_pid m c) (a_aid m c)) (b : Fin 4) (j : Fin 320) :
    a_aid m c (ix2 b j) = BitVec.ofNat 32 (Cert.Spec.answer (a_aid m c) b j).val := by
  have h1 : (Cert.Spec.answer (a_aid m c) b j).val = (a_aid m c (ix2 b j)).toNat :=
    Nat.mod_eq_of_lt (hR.aid_lt (ix2 b j))
  rw [h1]
  simp

/-! ### The validity column's total -/

theorem valid_total (c : Dev nD) (hR : Cert.Spec.InRange (a_pid m c) (a_aid m c)) :
    ∑ i, out1_valid (V6 m) c i = ((1280 : ℝ) : EReal) := by
  rw [sum_col]
  have hb : ∀ b : Fin 4, ∑ l : Fin 1024, out1_valid (V6 m) c (ix2 (rowOf b l) (0 : Fin 1)) = ((320 : ℝ) : EReal) := by
    intro b
    rw [sum_window (fun l => out1_valid (V6 m) c (ix2 (rowOf b l) (0 : Fin 1))) (fun l hl => by
      show out1_valid (V6 m) c (ix2 (rowOf b l) (0 : Fin 1)) = 0
      rw [final1_6_apply (V6 m) c (rowOf b l), if_pos (target_out m c b l hl)])]
    have hj : ∀ j : Fin 320, out1_valid (V6 m) c (ix2 (rowOf b (posOf j)) (0 : Fin 1)) = (((1 : ℝ)) : EReal) := by
      intro j
      rw [final1_6_apply (V6 m) c (rowOf b (posOf j)), target_in m c b j, if_neg (aid_ne m c hR b j)]
      rfl
    rw [Finset.sum_congr rfl (fun j _ => hj j), ← Cert.Online.coe_sum]
    refine congrArg (fun r : ℝ => (r : EReal)) ?_
    rw [Finset.sum_const, Finset.card_univ, Fintype.card_fin, nsmul_eq_mul, mul_one]
    norm_cast
  rw [Finset.sum_congr rfl (fun b _ => hb b), ← Cert.Online.coe_sum]
  refine congrArg (fun r : ℝ => (r : EReal)) ?_
  rw [Finset.sum_const, Finset.card_univ, Fintype.card_fin, nsmul_eq_mul]
  norm_num

/-! ### The negative log-likelihood column's total -/

/-- At predicting position 703 + j of batch b, with the logits real, the column holds the specification's negative
    log-likelihood of the answer token. -/
theorem nll_row (c : Dev nD) (hR : Cert.Spec.InRange (a_pid m c) (a_aid m c))
    (z : Fin 4 → Fin 1024 → Fin 32000 → ℝ)
    (hz : ∀ b l v, Cert.Spec.logit (a_img m c) (a_pid m c) (a_aid m c) (a_pw m c) (a_pb m c) (a_emb m c) (a_hw m c) (a_hb m c) b l v
      = ((z b l v : ℝ) : EReal))
    (b : Fin 4) (j : Fin 320) :
    out1_nll (V6 m) c (ix2 (rowOf b (posOf j)) (0 : Fin 1))
      = Cert.Spec.nll (a_img m c) (a_pid m c) (a_aid m c) (a_pw m c) (a_pb m c) (a_emb m c) (a_hw m c) (a_hb m c)
          b (posOf j) (Cert.Spec.answer (a_aid m c) b j) := by
  rw [final1_5_apply (V6 m) c (rowOf b (posOf j)) (z b (posOf j))
    (fun v => (logitOf_eq m c hR b (posOf j) v).trans (hz b (posOf j) v))
    (Cert.Spec.answer (a_aid m c) b j) ((target_in m c b j).trans (aid_eq m c hR b j))]
  rw [Cert.Online.nll_eq]
  unfold Cert.Spec.nll Cert.Spec.rowSumExp Cert.Spec.rowMax
  simp only [hz]

theorem nll_total (c : Dev nD) (hR : Cert.Spec.InRange (a_pid m c) (a_aid m c))
    (hF : Cert.Spec.Finite (a_img m c) (a_pw m c) (a_pb m c) (a_emb m c) (a_hw m c) (a_hb m c)) :
    ∑ i, out1_nll (V6 m) c i
      = ∑ b : Fin 4, ∑ j : Fin 320,
          Cert.Spec.nll (a_img m c) (a_pid m c) (a_aid m c) (a_pw m c) (a_pb m c) (a_emb m c) (a_hw m c) (a_hb m c)
            b (posOf j) (Cert.Spec.answer (a_aid m c) b j) := by
  obtain ⟨z, hz⟩ := Cert.Spec.logit_real (a_img m c) (a_pid m c) (a_aid m c) (a_pw m c) (a_pb m c) (a_emb m c) (a_hw m c) (a_hb m c) hF
  rw [sum_col]
  refine Finset.sum_congr rfl (fun b _ => ?_)
  rw [sum_window (fun l => out1_nll (V6 m) c (ix2 (rowOf b l) (0 : Fin 1)))
    (fun l hl => final1_5_ignored (V6 m) c (rowOf b l) (target_out m c b l hl))]
  exact Finset.sum_congr rfl (fun j _ => nll_row m c hR z hz b j)

theorem kernel_loss (c : Dev nD) (hR : Cert.Spec.InRange (a_pid m c) (a_aid m c))
    (hF : Cert.Spec.Finite (a_img m c) (a_pw m c) (a_pb m c) (a_emb m c) (a_hw m c) (a_hb m c)) :
    res_loss m c = Cert.Spec.lossArr (a_img m c) (a_pid m c) (a_aid m c) (a_pw m c) (a_pb m c) (a_emb m c) (a_hw m c) (a_hb m c) := by
  rw [res_loss_eq m c]
  funext i
  show Ideal.div (∑ i, out1_nll (V6 m) c i) (max (∑ i, out1_valid (V6 m) c i) 1)
    = Cert.Spec.loss (a_img m c) (a_pid m c) (a_aid m c) (a_pw m c) (a_pb m c) (a_emb m c) (a_hw m c) (a_hb m c)
  have h1 : (1 : EReal) ≤ ((1280 : ℝ) : EReal) := by
    rw [← EReal.coe_one, EReal.coe_le_coe_iff]
    norm_num
  rw [valid_total m c hR, nll_total m c hR hF, max_eq_left h1]
  rfl

end Cert.KernelIdeal.Hand

end
-- ==== Proof.Ref.Logits.lean ====
/-
  The reference program's hidden states and logits, entry by entry, as the specification's: the projector's rows are the
  sums Σ_k img[b, l, k] · pw[d, k] + pb[d]; a table look-up whose token id is below the table's height reads that row
  (the id is neither negative nor clamped); the three pieces lie end to end along the position axis; a logit is the
  sum Σ_d hidden[b, l, d] · hw[v, d] + hb[v]. Before them, the small facts about 32-bit words, sums over the shifted
  positions and look-ups read at an index that this module and the one about the loss both use.
-/
import proofs.«417710_j44341242364213_2_alg».proof.Proof.Ref.ReadP
import proofs.«417710_j44341242364213_2_alg».proof.Proof.Spec
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

namespace Cert.ReferenceIdeal.RefLemmas

open Idealize.ShloMosaic Idealize.ShloMosaic.ValueIdx Idealize.ShloMosaic.StableHlo.Predicate

/-! ## Words: a token id below the table's height -/

/-- A word below 2³¹ read signed, then as a natural, is its value. -/
theorem toInt_toNat_small (x : BitVec 32) (hx : x.toNat < 2 ^ 31) : x.toInt.toNat = x.toNat := by
  rw [toInt_eq_toNat_of_lt hx]; exact Int.toNat_natCast _

/-- The wrap of a negative index leaves an id in range alone. -/
theorem wrap_id (x : BitVec 32) (hx : x.toNat < 32000) :
    Scalar.select (IntOp.cmpi .slt x 0#32) (IntOp.addi x 32000#32) x = x := by
  have h : ¬ IntOp.cmpi .slt x 0#32 = 1#1 := by
    rw [slt_iff_toNat (by omega) (by decide)]
    simp
  exact if_neg h

/-- An id in range clamps to itself. -/
theorem clamp_id (x : BitVec 32) (hx : x.toNat < 32000) : min x.toInt.toNat (32000 - 1) = x.toNat := by
  rw [toInt_toNat_small x (by omega)]; omega

/-- An id in range is not the ignored label −100. -/
theorem ne_ignored (x : BitVec 32) (hx : x.toNat < 32000) : IntOp.cmpi .ne x 4294967196#32 = 1#1 := by
  unfold IntOp.cmpi
  rw [ofBool_eq_one_iff]
  simp only [bne_iff_ne, ne_eq]
  intro e
  rw [e] at hx
  exact absurd hx (by decide)

/-- An id in range is at least 0 … -/
theorem sge_zero (x : BitVec 32) (hx : x.toNat < 32000) : IntOp.cmpi .sge x 0#32 = 1#1 := by
  rw [sge_iff_toNat (by omega) (by decide)]; simp

/-- … and at most the last row. -/
theorem sle_last (x : BitVec 32) (hx : x.toNat < 32000) : IntOp.cmpi .sle x 31999#32 = 1#1 := by
  rw [sle_iff_toNat (by omega) (by decide)]
  show x.toNat ≤ 31999
  omega

/-! ## A sum over the 1023 shifted positions whose first 703 terms vanish -/

theorem sum_split {M : Type*} [AddCommMonoid M] (f : Fin 1023 → M) (h0 : ∀ t : Fin 1023, t.val < 703 → f t = 0) :
    ∑ t, f t = ∑ j : Fin 320, f ⟨703 + j.val, by omega⟩ := by
  have e : ∑ t : Fin 1023, f t = ∑ t : Fin (703 + 320), f t := rfl
  rw [e, Fin.sum_univ_add, Finset.sum_eq_zero (fun i _ => h0 _ (by simp)), zero_add]
  rfl

section Gathers
variable {α : Type}

/-- The dimension numbers of a look-up of whole rows of the table: one collapsed, start-indexed operand axis, the row
    itself the one offset axis. -/
abbrev rowDims (C : Nat)
    (wf : GatherDims.WF ⟨2, ![32000, 4096]⟩ ⟨3, ![4, C, 1]⟩ ⟨3, ![4, C, 4096]⟩ [2] [0] [] [0] [] 2 ![1, 4096]) :
    GatherDims ⟨2, ![32000, 4096]⟩ ⟨3, ![4, C, 1]⟩ ⟨3, ![4, C, 4096]⟩ where
  offsetDims := [2]
  collapsedSliceDims := [0]
  operandBatchingDims := []
  startIndicesBatchingDims := []
  startIndexMap := [0]
  indexVectorDim := 2
  sliceSizes := ![1, 4096]
  wf := wf

/-- The look-up at (b, j, d): channel d of the row the start index at (b, j) names, read signed and clamped. -/
theorem gather_row_apply {C w : Nat}
    (wf : GatherDims.WF ⟨2, ![32000, 4096]⟩ ⟨3, ![4, C, 1]⟩ ⟨3, ![4, C, 4096]⟩ [2] [0] [] [0] [] 2 ![1, 4096])
    (x : (⟨2, ![32000, 4096]⟩ : Shape).Idx → α) (idx : IVec ⟨3, ![4, C, 1]⟩ w) (b : Fin 4) (j : Fin C) (d : Fin 4096) :
    Host.gather (rowDims C wf) x idx (ix3 b j d)
      = x (ix2 (⟨min (idx (ix3 b j (0 : Fin 1))).toInt.toNat (32000 - 1), by omega⟩ : Fin 32000) d) := by
  unfold Host.gather
  congr 1
  funext a
  refine Fin.ext ?_
  match a with
  | ⟨0, _⟩ =>
    show (rowDims C wf).start (ix3 b j d) idx 0 + (rowDims C wf).batchCoord (ix3 b j d) 0
      + (rowDims C wf).offCoord (ix3 b j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims C wf).startIndexMap from List.mem_singleton.mpr rfl)]
    have hsi : (rowDims C wf).siIdx (ix3 b j d) ⟨List.idxOf (0 : Fin 2) (rowDims C wf).startIndexMap,
        List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims C wf).start (ix3 b j d) idx 1 + (rowDims C wf).batchCoord (ix3 b j d) 1
      + (rowDims C wf).offCoord (ix3 b j d) 1 = d.val
    rw [GatherDims.batchCoord_eq_zero _ _ _ List.not_mem_nil]
    unfold GatherDims.start
    rw [dif_neg (show ¬ (1 : Fin 2) ∈ (rowDims C wf).startIndexMap from (by decide : (1 : Fin 2) ∉ ([0] : List (Fin 2))))]
    unfold GatherDims.offCoord
    rw [dif_pos (show (1 : Fin 2) ∈ (rowDims C wf).sKept from (GatherDims.mem_sKept _ _).mpr ⟨(by decide : (1 : Fin 2) ∉ ([0] : List (Fin 2))), List.not_mem_nil⟩)]
    simp only [Nat.zero_add]
    rfl

/-- The dimension numbers of a take along the last axis: the two leading axes batched, the last collapsed and
    start-indexed, no offset axis. -/
abbrev takeAlongDims
    (wf : GatherDims.WF ⟨3, ![4, 1023, 32000]⟩ ⟨4, ![4, 1023, 1, 1]⟩ ⟨3, ![4, 1023, 1]⟩ [] [2] [0, 1] [2] [0, 1] 3 ![1, 1, 1]) :
    GatherDims ⟨3, ![4, 1023, 32000]⟩ ⟨4, ![4, 1023, 1, 1]⟩ ⟨3, ![4, 1023, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The take at (b, t): the entry of row (b, t) the start index there names, read signed and clamped. -/
theorem gather_takeAlong_apply {w : Nat}
    (wf : GatherDims.WF ⟨3, ![4, 1023, 32000]⟩ ⟨4, ![4, 1023, 1, 1]⟩ ⟨3, ![4, 1023, 1]⟩ [] [2] [0, 1] [2] [0, 1] 3 ![1, 1, 1])
    (x : (⟨3, ![4, 1023, 32000]⟩ : Shape).Idx → α) (idx : IVec ⟨4, ![4, 1023, 1, 1]⟩ w) (b : Fin 4) (t : Fin 1023) :
    Host.gather (takeAlongDims wf) x idx (ix3 b t (0 : Fin 1))
      = x (ix3 b t (⟨min (idx (ix4 b t (0 : Fin 1) (0 : Fin 1))).toInt.toNat (32000 - 1), by omega⟩ : Fin 32000)) := by
  unfold Host.gather
  congr 1
  funext a
  refine Fin.ext ?_
  match a with
  | ⟨0, _⟩ =>
    show (takeAlongDims wf).start (ix3 b t (0 : Fin 1)) idx 0 + (takeAlongDims wf).batchCoord (ix3 b t (0 : Fin 1)) 0
      + (takeAlongDims wf).offCoord (ix3 b t (0 : Fin 1)) 0 = b.val
    rw [GatherDims.start_batching _ _ _ _ (show (0 : Fin 3) ∈ (takeAlongDims wf).operandBatchingDims from (by decide : (0 : Fin 3) ∈ ([0, 1] : List (Fin 3)))),
      GatherDims.offCoord_eq_zero _ _ _ (fun h => ((GatherDims.mem_sKept _ _).mp h).2 (by decide : (0 : Fin 3) ∈ ([0, 1] : List (Fin 3))))]
    unfold GatherDims.batchCoord
    rw [dif_pos (show (0 : Fin 3) ∈ (takeAlongDims wf).operandBatchingDims from (by decide : (0 : Fin 3) ∈ ([0, 1] : List (Fin 3))))]
    simp only [Nat.zero_add, Nat.add_zero]
    rfl
  | ⟨1, _⟩ =>
    show (takeAlongDims wf).start (ix3 b t (0 : Fin 1)) idx 1 + (takeAlongDims wf).batchCoord (ix3 b t (0 : Fin 1)) 1
      + (takeAlongDims wf).offCoord (ix3 b t (0 : Fin 1)) 1 = t.val
    rw [GatherDims.start_batching _ _ _ _ (show (1 : Fin 3) ∈ (takeAlongDims wf).operandBatchingDims from (by decide : (1 : Fin 3) ∈ ([0, 1] : List (Fin 3)))),
      GatherDims.offCoord_eq_zero _ _ _ (fun h => ((GatherDims.mem_sKept _ _).mp h).2 (by decide : (1 : Fin 3) ∈ ([0, 1] : List (Fin 3))))]
    unfold GatherDims.batchCoord
    rw [dif_pos (show (1 : Fin 3) ∈ (takeAlongDims wf).operandBatchingDims from (by decide : (1 : Fin 3) ∈ ([0, 1] : List (Fin 3))))]
    simp only [Nat.zero_add, Nat.add_zero]
    rfl
  | ⟨2, _⟩ =>
    show (takeAlongDims wf).start (ix3 b t (0 : Fin 1)) idx 2 + (takeAlongDims wf).batchCoord (ix3 b t (0 : Fin 1)) 2
      + (takeAlongDims wf).offCoord (ix3 b t (0 : Fin 1)) 2 = _
    rw [GatherDims.batchCoord_eq_zero _ _ _ (show ¬ (2 : Fin 3) ∈ (takeAlongDims wf).operandBatchingDims from (by decide : (2 : Fin 3) ∉ ([0, 1] : List (Fin 3)))),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeAlongDims wf).startIndexMap from List.mem_singleton.mpr rfl)]
    have hsi : (takeAlongDims wf).siIdx (ix3 b t (0 : Fin 1)) ⟨List.idxOf (2 : Fin 3) (takeAlongDims wf).startIndexMap,
        List.idxOf_lt_length_iff.2 (List.mem_singleton.mpr rfl)⟩ = ix4 b t (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

end Gathers

end Cert.ReferenceIdeal.RefLemmas

namespace Cert.ReferenceIdeal.RefValue

open Cert.ReferenceIdeal Cert.ReferenceIdeal.Gen Cert.ReferenceIdeal.ReadP Cert.ReferenceIdeal.RefLemmas
open Idealize.ShloMosaic Idealize.ShloMosaic.TcCoe Idealize.ShloMosaic.ValueIdx Idealize.SL.Sem

/-- Each closes an equation between two indices of rank 1, 2 or 3 whose coordinates agree one by one. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

variable (x0 : S4x576x1024.Idx → EReal) (x1 : S4x128.Idx → BitVec 32) (x2 : S4x320.Idx → BitVec 32)
  (x3 : S4096x1024.Idx → EReal) (x4 : S4096.Idx → EReal) (x5 x6 : S32000x4096.Idx → EReal) (x7 : S32000.Idx → EReal)

/-- The projected image rows: Σ_k img[b, l, k] · pw[d, k] + pb[d]. -/
theorem proj_apply (b : Fin 4) (l : Fin 576) (d : Fin 4096) :
    (val_main_v3 (F := Ideal) x0 x3 x4 : S4x576x4096.Idx → EReal) (ix3 b l d)
      = (∑ k : Fin 1024, x0 (ix3 b l k) * x3 (ix2 d k)) + x4 (ix1 d) := by
  rw [val_main_v3_apply]
  show (val_main_v0 (F := Ideal) x0 x3 (ix3 b l d) : EReal) + val_main_v2 (F := Ideal) x4 (ix3 b l d) = _
  rw [val_main_v0_apply, val_main_v2_apply, val_main_v1_apply]
  congr 1
  · refine Finset.sum_congr rfl fun k _ => ?_
    have el : lidx_main_v0 (ix3 b l d) k = ix3 b l k := by idx3
    have er : ridx_main_v0 (ix3 b l d) k = ix2 d k := by idx2
    rw [el, er]
  · exact congrArg x4 (by idx1)

/-- The prompt tokens' rows of the table. -/
theorem emb_pid_apply (hR : Cert.Spec.InRange x1 x2) (b : Fin 4) (j : Fin 128) (d : Fin 4096) :
    (val_main_v10 (F := Ideal) x1 x5 : S4x128x4096.Idx → EReal) (ix3 b j d)
      = Cert.Spec.embRow x5 (x1 (ix2 b j)).toNat d := by
  have hx : (x1 (ix2 b j)).toNat < 32000 := hR.pid_lt (ix2 b j)
  have e : val_main_v9 (F := Ideal) x1 (ix3 b j (0 : Fin 1)) = x1 (ix2 b j) := by
    rw [val_main_v9_apply, val_main_v8_apply, val_main_v5_apply, val_main_v7_apply, val_main_v4_apply,
      val_main_v6_apply, val_main_c_apply, val_main_c_0_apply]
    have ei : idx_main_v9 (ix3 b j (0 : Fin 1)) = ix2 b j := by idx2
    rw [ei]
    exact wrap_id _ hx
  unfold val_main_v10
  have hG : gather_S32000x4096_S4x128x1_S4x128x4096_2_0_n_n_0_2_14096
      = rowDims 128 Facts₀.gather_S32000x4096_S4x128x1_S4x128x4096_2_0_n_n_0_2_14096_wf := rfl
  rw [hG, gather_row_apply]
  unfold Cert.Spec.embRow
  refine congrArg x5 (congrArg (fun p : Fin 32000 => ix2 p d) (Fin.ext ?_))
  show min (val_main_v9 (F := Ideal) x1 (ix3 b j (0 : Fin 1))).toInt.toNat (32000 - 1) = (x1 (ix2 b j)).toNat % 32000
  rw [e, clamp_id _ hx, Nat.mod_eq_of_lt hx]

/-- The answer tokens' rows of the table. -/
theorem emb_aid_apply (hR : Cert.Spec.InRange x1 x2) (b : Fin 4) (j : Fin 320) (d : Fin 4096) :
    (val_main_v17 (F := Ideal) x2 x5 : S4x320x4096.Idx → EReal) (ix3 b j d)
      = Cert.Spec.embRow x5 (x2 (ix2 b j)).toNat d := by
  have hx : (x2 (ix2 b j)).toNat < 32000 := hR.aid_lt (ix2 b j)
  have e : val_main_v16 (F := Ideal) x2 (ix3 b j (0 : Fin 1)) = x2 (ix2 b j) := by
    rw [val_main_v16_apply, val_main_v15_apply, val_main_v12_apply, val_main_v14_apply, val_main_v11_apply,
      val_main_v13_apply, val_main_c_1_apply, val_main_c_2_apply]
    have ei : idx_main_v16 (ix3 b j (0 : Fin 1)) = ix2 b j := by idx2
    rw [ei]
    exact wrap_id _ hx
  unfold val_main_v17
  have hG : gather_S32000x4096_S4x320x1_S4x320x4096_2_0_n_n_0_2_14096
      = rowDims 320 Facts₀.gather_S32000x4096_S4x320x1_S4x320x4096_2_0_n_n_0_2_14096_wf := rfl
  rw [hG, gather_row_apply]
  unfold Cert.Spec.embRow
  refine congrArg x5 (congrArg (fun p : Fin 32000 => ix2 p d) (Fin.ext ?_))
  show min (val_main_v16 (F := Ideal) x2 (ix3 b j (0 : Fin 1))).toInt.toNat (32000 - 1) = (x2 (ix2 b j)).toNat % 32000
  rw [e, clamp_id _ hx, Nat.mod_eq_of_lt hx]

/-- The hidden states: the three pieces laid end to end along the position axis. -/
theorem hidden_apply (hR : Cert.Spec.InRange x1 x2) (b : Fin 4) (l : Fin 1024) (d : Fin 4096) :
    (val_main_v18 (F := Ideal) x0 x1 x2 x3 x4 x5 : S4x1024x4096.Idx → EReal) (ix3 b l d)
      = Cert.Spec.hidden x0 x1 x2 x3 x4 x5 b l d := by
  unfold val_main_v18 Cert.Spec.hidden
  by_cases h : l.val < 576
  · rw [dif_pos h]
    refine (concatenate_apply_piece _ _ _ (ix3 b l d) 0 (by simp) S4x576x4096 (val_main_v3 (F := Ideal) x0 x3 x4)
      rfl rfl 0 rfl (ix3 b (⟨l.val, h⟩ : Fin 576) d) ?_ ?_).trans ?_
    · intro c hc
      match c with
      | ⟨0, _⟩ => rfl
      | ⟨1, _⟩ => exact absurd rfl hc
      | ⟨2, _⟩ => rfl
    · exact Nat.zero_add _
    · exact proj_apply x0 x3 x4 b _ d
  · rw [dif_neg h]
    by_cases h' : l.val < 704
    · rw [dif_pos h']
      refine (concatenate_apply_piece _ _ _ (ix3 b l d) 1 (by simp) S4x128x4096 (val_main_v10 (F := Ideal) x1 x5)
        rfl rfl 576 rfl (ix3 b (⟨l.val - 576, by omega⟩ : Fin 128) d) ?_ ?_).trans ?_
      · intro c hc
        match c with
        | ⟨0, _⟩ => rfl
        | ⟨1, _⟩ => exact absurd rfl hc
        | ⟨2, _⟩ => rfl
      · show 576 + (l.val - 576) = l.val
        omega
      · exact emb_pid_apply x1 x2 x5 hR b _ d
    · rw [dif_neg h']
      refine (concatenate_apply_piece _ _ _ (ix3 b l d) 2 (by simp) S4x320x4096 (val_main_v17 (F := Ideal) x2 x5)
        rfl rfl 704 rfl (ix3 b (⟨l.val - 704, by omega⟩ : Fin 320) d) ?_ ?_).trans ?_
      · intro c hc
        match c with
        | ⟨0, _⟩ => rfl
        | ⟨1, _⟩ => exact absurd rfl hc
        | ⟨2, _⟩ => rfl
      · show 704 + (l.val - 704) = l.val
        omega
      · exact emb_aid_apply x1 x2 x5 hR b _ d

/-- The logits, entry by entry. -/
theorem logits_apply (hR : Cert.Spec.InRange x1 x2) (b : Fin 4) (l : Fin 1024) (v : Fin 32000) :
    (val_main_v22 (F := Ideal) x0 x1 x2 x3 x4 x5 x6 x7 : S4x1024x32000.Idx → EReal) (ix3 b l v)
      = Cert.Spec.logit x0 x1 x2 x3 x4 x5 x6 x7 b l v := by
  rw [val_main_v22_apply]
  show (val_main_v19 (F := Ideal) x0 x1 x2 x3 x4 x5 x6 (ix3 b l v) : EReal) + val_main_v21 (F := Ideal) x7 (ix3 b l v) = _
  rw [val_main_v19_apply, val_main_v21_apply, val_main_v20_apply]
  unfold Cert.Spec.logit
  congr 1
  · refine Finset.sum_congr rfl fun k _ => ?_
    have el : lidx_main_v19 (ix3 b l v) k = ix3 b l k := by idx3
    have er : ridx_main_v19 (ix3 b l v) k = ix2 v k := by idx2
    rw [el, er]
    exact congrArg (· * x6 (ix2 v k)) (hidden_apply x0 x1 x2 x3 x4 x5 hR b l k)
  · exact congrArg x7 (by idx1)

end Cert.ReferenceIdeal.RefValue

end
-- ==== Proof.Ref.Value.lean ====
/-
  The reference program's two results as the specification's functions of its arguments, on the domain where every
  token id is a row of the table: the embedding look-ups read their rows, the shifted labels of the predicting
  positions are the answer ids (none of them the ignored label), the log-soft-max is read entry by entry, and the
  mean is over the 4 · 320 predicting positions.

  The loss, step by step: the shifted label at position t is −100 for t < 703 and the answer id aid[b, t − 703] from
  there on, so exactly the positions 703 ≤ t ≤ 1022 predict; the label made safe (0 where ignored) is always below the
  table's height, so the take along the vocabulary axis reads the log-soft-max entry it names and never its filler; a
  row's fold of max from −∞ is the supremum of its logits, so that entry is  (x_y − M) − log Σ_v exp(x_v − M);  the
  masked sum over the 4 × 1023 positions is the sum over the 4 · 320 predicting ones, and their count, read as a float,
  is the real number 1280.
-/
import proofs.«417710_j44341242364213_2_alg».proof.Proof.Ref.ReadP
import proofs.«417710_j44341242364213_2_alg».proof.Proof.Ref.Logits
import proofs.«417710_j44341242364213_2_alg».proof.Proof.Spec
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Cert.ReferenceIdeal.RefLemmas
open Idealize.ShloMosaic Idealize.ShloMosaic.TcCoe Idealize.ShloMosaic.ValueIdx Idealize.SL.Sem
open Idealize.ShloMosaic.StableHlo.Predicate

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

variable (x0 : S4x576x1024.Idx → EReal) (x1 : S4x128.Idx → BitVec 32) (x2 : S4x320.Idx → BitVec 32)
  (x3 : S4096x1024.Idx → EReal) (x4 : S4096.Idx → EReal) (x5 x6 : S32000x4096.Idx → EReal) (x7 : S32000.Idx → EReal)

/-! ## The labels -/

/-- The shifted label at position t of batch b: the ignored label −100 before position 703, then the answer ids. -/
theorem label_apply (b : Fin 4) (t : Fin 1023) :
    val_main_v26 (F := Ideal) x2 (ix2 b t)
      = if h : t.val < 703 then 4294967196#32 else x2 (ix2 b (⟨t.val - 703, by omega⟩ : Fin 320)) := by
  rw [val_main_v26_apply]
  have ei : idx_main_v26 (ix2 b t) = ix2 b (⟨1 + t.val, by omega⟩ : Fin 1024) := by idx2
  rw [ei]
  unfold val_main_v24
  by_cases h : t.val < 703
  · rw [dif_pos h]
    refine (concatenate_apply_piece _ _ _ (ix2 b (⟨1 + t.val, by omega⟩ : Fin 1024)) 0 (by simp) S4x704
      (val_main_v23 (F := Ideal)) rfl rfl 0 rfl (ix2 b (⟨1 + t.val, by omega⟩ : Fin 704)) ?_ ?_).trans ?_
    · intro c hc
      match c with
      | ⟨0, _⟩ => rfl
      | ⟨1, _⟩ => exact absurd rfl hc
    · exact Nat.zero_add _
    · rw [val_main_v23_apply, val_main_c_3_apply]
  · rw [dif_neg h]
    refine (concatenate_apply_piece _ _ _ (ix2 b (⟨1 + t.val, by omega⟩ : Fin 1024)) 1 (by simp) S4x320
      x2 rfl rfl 704 rfl (ix2 b (⟨t.val - 703, by omega⟩ : Fin 320)) ?_ ?_).trans rfl
    · intro c hc
      match c with
      | ⟨0, _⟩ => rfl
      | ⟨1, _⟩ => exact absurd rfl hc
    · show 704 + (t.val - 703) = 1 + t.val
      omega

/-- A position predicts (its label is not the ignored one) exactly from position 703 on. -/
theorem valid_apply (hR : Cert.Spec.InRange x1 x2) (b : Fin 4) (t : Fin 1023) :
    val_main_v29 (F := Ideal) x2 (ix2 b t) = if t.val < 703 then 0#1 else 1#1 := by
  rw [val_main_v29_apply, val_main_v28_apply, val_main_c_4_apply, label_apply]
  by_cases h : t.val < 703
  · rw [dif_pos h, if_pos h]; rfl
  · rw [dif_neg h, if_neg h]; exact ne_ignored _ (hR.aid_lt _)

/-- The label with the ignored one replaced by 0: always a row of the table. -/
def safeLabel (b : Fin 4) (t : Fin 1023) : BitVec 32 :=
  if h : t.val < 703 then 0#32 else x2 (ix2 b (⟨t.val - 703, by omega⟩ : Fin 320))

theorem safeLabel_lt (hR : Cert.Spec.InRange x1 x2) (b : Fin 4) (t : Fin 1023) : (safeLabel x2 b t).toNat < 32000 := by
  unfold safeLabel
  by_cases h : t.val < 703
  · rw [dif_pos h]; decide
  · rw [dif_neg h]; exact hR.aid_lt _

theorem safe_apply (hR : Cert.Spec.InRange x1 x2) (b : Fin 4) (t : Fin 1023) :
    val_main_v30 (F := Ideal) x2 (ix2 b t) = safeLabel x2 b t := by
  rw [val_main_v30_apply, valid_apply x1 x2 hR, label_apply, val_main_call1_v1_apply, val_main_call1_v0_apply,
    val_main_c_5_apply]
  unfold safeLabel
  by_cases h : t.val < 703
  · rw [if_pos h, dif_pos h, dif_pos h]; exact select_zero _ _
  · rw [if_neg h, dif_neg h, dif_neg h]; exact select_one _ _

/-- The index the take reads: the safe label, unchanged by the wrap of negative indices. -/
theorem takeIdx_apply (hR : Cert.Spec.InRange x1 x2) (b : Fin 4) (t : Fin 1023) :
    val_main_call2_v5 (F := Ideal) x2 (ix4 b t (0 : Fin 1) (0 : Fin 1)) = safeLabel x2 b t := by
  have e31 : val_main_v31 (F := Ideal) x2 (ix3 b t (0 : Fin 1)) = safeLabel x2 b t := by
    rw [val_main_v31_apply]
    have ei : idx_main_v31 (ix3 b t (0 : Fin 1)) = ix2 b t := by idx2
    rw [ei]; exact safe_apply x1 x2 hR b t
  rw [val_main_call2_v5_apply]
  have ei : idx_main_call2_v5 (ix4 b t (0 : Fin 1) (0 : Fin 1)) = ix3 b t (0 : Fin 1) := by
    have hb := b.isLt
    have ht := t.isLt
    funext a
    match a with
    | ⟨0, _⟩ => exact Fin.ext (show (((b.val * 1023 + t.val) * 1 + 0) * 1 + 0) / 1023 = b.val by omega)
    | ⟨1, _⟩ => exact Fin.ext (show (((b.val * 1023 + t.val) * 1 + 0) * 1 + 0) / 1 % 1023 = t.val by omega)
    | ⟨2, _⟩ => rfl
  rw [ei, val_main_call2_v4_apply, val_main_call2_v1_apply, val_main_call2_v3_apply, val_main_call2_v0_apply,
    val_main_call2_v2_apply, val_main_call2_c_apply, val_main_call2_c_0_apply, e31]
  exact wrap_id _ (safeLabel_lt x1 x2 hR b t)

/-- A fold of "and" from 1 over bits that are all 1 is 1. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih fun i hi => h i (Finset.mem_cons_of_mem hi)]
    rfl

/-- Every index the take reads is inside the row. -/
theorem inb_apply (hR : Cert.Spec.InRange x1 x2) (j : S4x1023x1.Idx) : val_main_call2_v12 (F := Ideal) x2 j = 1#1 := by
  unfold val_main_call2_v12
  rw [Host.reduce_eq_fold]
  show Finset.fold IntOp.andi 1#1 _ _ = 1#1
  refine fold_andi_one _ _ fun i _ => ?_
  obtain ⟨b, t, c, e, rfl⟩ : ∃ b t c e, i = ix4 b t c e := ⟨_, _, _, _, eq_ix4 i⟩
  obtain rfl : c = 0 := Subsingleton.elim _ _
  obtain rfl : e = 0 := Subsingleton.elim _ _
  have hlt := safeLabel_lt x1 x2 hR b t
  rw [val_main_call2_v11_apply, val_main_call2_v7_apply, val_main_call2_v10_apply, takeIdx_apply x1 x2 hR,
    val_main_call2_v6_apply, val_main_call2_c_2_apply, val_main_call2_v9_apply, val_main_call2_v8_apply,
    val_main_call2_c_1_apply, sge_zero _ hlt, sle_last _ hlt]
  rfl

/-! ## The log-soft-max, entry by entry -/

/-- Position t of the 1023 shifted ones, as one of the 1024. -/
abbrev pos (t : Fin 1023) : Fin 1024 := ⟨t.val, by omega⟩

/-- The first 1023 positions' logits. -/
theorem head_apply (hR : Cert.Spec.InRange x1 x2) (b : Fin 4) (t : Fin 1023) (y : Fin 32000) :
    (val_main_v25 (F := Ideal) x0 x1 x2 x3 x4 x5 x6 x7 : S4x1023x32000.Idx → EReal) (ix3 b t y)
      = Cert.Spec.logit x0 x1 x2 x3 x4 x5 x6 x7 b (pos t) y := by
  rw [val_main_v25_apply]
  have ei : idx_main_v25 (ix3 b t y) = ix3 b (pos t) y := by idx3
  rw [ei]
  exact logits_apply x0 x1 x2 x3 x4 x5 x6 x7 hR b (pos t) y

/-- The word of −∞ is the least extended real. -/
theorem ofBits_neg_inf : Ideal.ofBits .f32 0xFF800000#32 = (⊥ : EReal) := by simp [Ideal.ofBits, Ideal.ieee]

/-- A row's largest logit: the fold of max from −∞ over the vocabulary is the supremum. -/
theorem rowMax_apply (hR : Cert.Spec.InRange x1 x2) (b : Fin 4) (t : Fin 1023) :
    (val_main_call0_v2 (F := Ideal) x0 x1 x2 x3 x4 x5 x6 x7 : S4x1023.Idx → EReal) (ix2 b t)
      = Cert.Spec.rowMax x0 x1 x2 x3 x4 x5 x6 x7 b (pos t) := by
  rw [val_main_call0_v2_apply, val_main_call0_v1_apply, val_main_call0_cst_0_apply]
  show max (Ideal.ofBits .f32 0xFF800000#32) (val_main_call0_v0 (F := Ideal) x0 x1 x2 x3 x4 x5 x6 x7 (ix2 b t) : EReal) = _
  rw [ofBits_neg_inf, max_eq_right bot_le]
  unfold val_main_call0_v0
  rw [Host.reduce_eq_fold_single FloatOps.maximumf _ _ Facts₀.reducesTo_S4x1023x32000_S4x1023_d2 (by decide) Facts₀.h_S_]
  have hf : ((val_main_v25 (F := Ideal) x0 x1 x2 x3 x4 x5 x6 x7 : S4x1023x32000.Idx → EReal)
        ∘ (by decide : S4x1023x32000.Reduces [2] S4x1023).lift (ix2 b t))
      = fun v : Fin 32000 => Cert.Spec.logit x0 x1 x2 x3 x4 x5 x6 x7 b (pos t) v := by
    funext v
    have el : (by decide : S4x1023x32000.Reduces [2] S4x1023).lift (ix2 b t) v = ix3 b t v := by
      funext c; refine Fin.ext ?_
      match c with
      | ⟨0, _⟩ => rfl
      | ⟨1, _⟩ => rfl
      | ⟨2, _⟩ => rfl
    show (val_main_v25 (F := Ideal) x0 x1 x2 x3 x4 x5 x6 x7 : S4x1023x32000.Idx → EReal) _ = _
    rw [el]
    exact head_apply x0 x1 x2 x3 x4 x5 x6 x7 hR b t v
  show Finset.fold max (Ideal.ofBits .f32 0xFF800000#32) _ (Finset.univ : Finset (Fin 32000)) = _
  rw [hf, ofBits_neg_inf]
  rfl

/-- A logit less its row's largest. -/
theorem shifted_apply (hR : Cert.Spec.InRange x1 x2) (b : Fin 4) (t : Fin 1023) (y : Fin 32000) :
    (val_main_call0_v5 (F := Ideal) x0 x1 x2 x3 x4 x5 x6 x7 : S4x1023x32000.Idx → EReal) (ix3 b t y)
      = Cert.Spec.logit x0 x1 x2 x3 x4 x5 x6 x7 b (pos t) y - Cert.Spec.rowMax x0 x1 x2 x3 x4 x5 x6 x7 b (pos t) := by
  rw [val_main_call0_v5_apply]
  show (val_main_v25 (F := Ideal) x0 x1 x2 x3 x4 x5 x6 x7 (ix3 b t y) : EReal)
    - val_main_call0_v4 (F := Ideal) x0 x1 x2 x3 x4 x5 x6 x7 (ix3 b t y) = _
  rw [head_apply x0 x1 x2 x3 x4 x5 x6 x7 hR, val_main_call0_v4_apply, val_main_call0_v3_apply]
  have ei : idx_main_call0_v3 (idx_main_call0_v4 (ix3 b t y)) = ix2 b t := by idx2
  rw [ei, rowMax_apply x0 x1 x2 x3 x4 x5 x6 x7 hR]

/-- A row's sum of shifted exponentials. -/
theorem sumExp_apply (hR : Cert.Spec.InRange x1 x2) (b : Fin 4) (t : Fin 1023) :
    (val_main_call0_v7 (F := Ideal) x0 x1 x2 x3 x4 x5 x6 x7 : S4x1023.Idx → EReal) (ix2 b t)
      = Cert.Spec.rowSumExp x0 x1 x2 x3 x4 x5 x6 x7 b (pos t) := by
  rw [val_main_call0_v7_apply, val_main_call0_cst_1_apply]
  show Ideal.ofBits .f32 0x00000000#32 + _ = _
  rw [Ideal.ofBits_zero_f32, zero_add]
  unfold Cert.Spec.rowSumExp
  refine Finset.sum_congr rfl fun k _ => ?_
  rw [val_main_call0_v6_apply]
  have ei : idx_main_call0_v7 (ix2 b t) k = ix3 b t k := by idx3
  rw [ei]
  show Ideal.exp (val_main_call0_v5 (F := Ideal) x0 x1 x2 x3 x4 x5 x6 x7 (ix3 b t k)) = _
  rw [shifted_apply x0 x1 x2 x3 x4 x5 x6 x7 hR]

/-- The log-soft-max at an entry, in the reference's arrangement. -/
theorem logSoftmax_apply (hR : Cert.Spec.InRange x1 x2) (b : Fin 4) (t : Fin 1023) (y : Fin 32000) :
    (val_main_v27 (F := Ideal) x0 x1 x2 x3 x4 x5 x6 x7 : S4x1023x32000.Idx → EReal) (ix3 b t y)
      = (Cert.Spec.logit x0 x1 x2 x3 x4 x5 x6 x7 b (pos t) y - Cert.Spec.rowMax x0 x1 x2 x3 x4 x5 x6 x7 b (pos t))
        - Ideal.log (Cert.Spec.rowSumExp x0 x1 x2 x3 x4 x5 x6 x7 b (pos t)) := by
  rw [val_main_v27_apply]
  show (val_main_call0_v5 (F := Ideal) x0 x1 x2 x3 x4 x5 x6 x7 (ix3 b t y) : EReal)
    - val_main_call0_v10 (F := Ideal) x0 x1 x2 x3 x4 x5 x6 x7 (ix3 b t y) = _
  rw [shifted_apply x0 x1 x2 x3 x4 x5 x6 x7 hR, val_main_call0_v10_apply, val_main_call0_v9_apply, val_main_call0_v8_apply]
  have ei : idx_main_call0_v8 (idx_main_call0_v10 (ix3 b t y)) = ix2 b t := by idx2
  rw [ei, sumExp_apply x0 x1 x2 x3 x4 x5 x6 x7 hR, Ideal.hostUnary_log_def]

/-! ## The negative log-likelihoods and their mean -/

/-- The j-th predicting position of the 1023 shifted ones: position 703 + j. -/
abbrev vpos (j : Fin 320) : Fin 1023 := ⟨703 + j.val, by omega⟩

/-- At a predicting position the safe label is the answer id. -/
theorem safeLabel_vpos (b : Fin 4) (j : Fin 320) : safeLabel x2 b (vpos j) = x2 (ix2 b j) := by
  unfold safeLabel
  rw [dif_neg (show ¬ (vpos j).val < 703 by show ¬ 703 + j.val < 703; omega)]
  exact congrArg (fun p : Fin 320 => x2 (ix2 b p)) (Fin.ext (show 703 + j.val - 703 = j.val by omega))

/-- The take along the vocabulary axis: the log-soft-max entry at the safe label (never the not-a-number filler, every
    index being inside the row). -/
theorem take_apply (hR : Cert.Spec.InRange x1 x2) (b : Fin 4) (t : Fin 1023) :
    (val_main_v32 (F := Ideal) x0 x1 x2 x3 x4 x5 x6 x7 : S4x1023x1.Idx → EReal) (ix3 b t (0 : Fin 1))
      = (val_main_v27 (F := Ideal) x0 x1 x2 x3 x4 x5 x6 x7 : S4x1023x32000.Idx → EReal)
          (ix3 b t (⟨(safeLabel x2 b t).toNat, safeLabel_lt x1 x2 hR b t⟩ : Fin 32000)) := by
  rw [val_main_v32_apply, inb_apply x1 x2 hR, select_one]
  unfold val_main_call2_v13
  have hG : gather_S4x1023x32000_S4x1023x1x1_S4x1023x1_n_2_01_01_2_3_111
      = takeAlongDims Facts₀.gather_S4x1023x32000_S4x1023x1x1_S4x1023x1_n_2_01_01_2_3_111_wf := rfl
  rw [hG, gather_takeAlong_apply]
  refine congrArg _ (congrArg (fun p : Fin 32000 => ix3 b t p) (Fin.ext ?_))
  show min (val_main_call2_v5 (F := Ideal) x2 (ix4 b t (0 : Fin 1) (0 : Fin 1))).toInt.toNat (32000 - 1)
    = (safeLabel x2 b t).toNat
  rw [takeIdx_apply x1 x2 hR, clamp_id _ (safeLabel_lt x1 x2 hR b t)]

/-- At a predicting position the negated take is the specification's negative log-likelihood of the answer. -/
theorem nll_apply (hR : Cert.Spec.InRange x1 x2) (b : Fin 4) (j : Fin 320) :
    (val_main_v34 (F := Ideal) x0 x1 x2 x3 x4 x5 x6 x7 : S4x1023.Idx → EReal) (ix2 b (vpos j))
      = Cert.Spec.nll x0 x1 x2 x3 x4 x5 x6 x7 b (pos (vpos j)) (Cert.Spec.answer x2 b j) := by
  rw [val_main_v34_apply, val_main_v33_apply]
  have ei : idx_main_v33 (ix2 b (vpos j)) = ix3 b (vpos j) (0 : Fin 1) := by
    have hb := b.isLt
    have hj := j.isLt
    funext a
    match a with
    | ⟨0, _⟩ => exact Fin.ext (show (b.val * 1023 + (703 + j.val)) / 1023 = b.val by omega)
    | ⟨1, _⟩ => exact Fin.ext (show (b.val * 1023 + (703 + j.val)) / 1 % 1023 = 703 + j.val by omega)
    | ⟨2, _⟩ => rfl
  rw [ei]
  show -(val_main_v32 (F := Ideal) x0 x1 x2 x3 x4 x5 x6 x7 (ix3 b (vpos j) (0 : Fin 1)) : EReal) = _
  rw [take_apply x0 x1 x2 x3 x4 x5 x6 x7 hR, logSoftmax_apply x0 x1 x2 x3 x4 x5 x6 x7 hR]
  have es : (⟨(safeLabel x2 b (vpos j)).toNat, safeLabel_lt x1 x2 hR b (vpos j)⟩ : Fin 32000)
      = Cert.Spec.answer x2 b j := by
    refine Fin.ext ?_
    show (safeLabel x2 b (vpos j)).toNat = (x2 (ix2 b j)).toNat % 32000
    rw [safeLabel_vpos, Nat.mod_eq_of_lt (hR.aid_lt _)]
  rw [es]
  rfl

/-- The masked negative log-likelihoods: zero before position 703. -/
theorem masked_apply (hR : Cert.Spec.InRange x1 x2) (b : Fin 4) (t : Fin 1023) :
    (val_main_v35 (F := Ideal) x0 x1 x2 x3 x4 x5 x6 x7 : S4x1023.Idx → EReal) (ix2 b t)
      = if t.val < 703 then 0 else (val_main_v34 (F := Ideal) x0 x1 x2 x3 x4 x5 x6 x7 : S4x1023.Idx → EReal) (ix2 b t) := by
  rw [val_main_v35_apply, valid_apply x1 x2 hR, val_main_call3_v1_apply, val_main_call3_v0_apply, val_main_cst_apply]
  by_cases h : t.val < 703
  · rw [if_pos h, if_pos h, select_zero]; exact Ideal.ofBits_zero_f32
  · rw [if_neg h, if_neg h, select_one]

/-- The sum over all shifted positions is the sum over the 4 · 320 predicting ones. -/
theorem lossSum_apply (hR : Cert.Spec.InRange x1 x2) (i : S_.Idx) :
    (val_main_v36 (F := Ideal) x0 x1 x2 x3 x4 x5 x6 x7 : S_.Idx → EReal) i
      = ∑ b : Fin 4, ∑ j : Fin 320,
          Cert.Spec.nll x0 x1 x2 x3 x4 x5 x6 x7 b (pos (vpos j)) (Cert.Spec.answer x2 b j) := by
  rw [val_main_v36_apply, val_main_cst_6_apply]
  show Ideal.ofBits .f32 0x00000000#32
    + ∑ q : S4x1023.Idx, (val_main_v35 (F := Ideal) x0 x1 x2 x3 x4 x5 x6 x7 : S4x1023.Idx → EReal) q = _
  rw [Ideal.ofBits_zero_f32, zero_add, sum_idx2]
  refine Finset.sum_congr rfl fun b _ => ?_
  rw [sum_split (fun t : Fin 1023 => (val_main_v35 (F := Ideal) x0 x1 x2 x3 x4 x5 x6 x7 : S4x1023.Idx → EReal) (ix2 b t))
    (fun t ht => by rw [masked_apply x0 x1 x2 x3 x4 x5 x6 x7 hR, if_pos ht])]
  refine Finset.sum_congr rfl fun j _ => ?_
  show (val_main_v35 (F := Ideal) x0 x1 x2 x3 x4 x5 x6 x7 : S4x1023.Idx → EReal) (ix2 b (vpos j)) = _
  rw [masked_apply x0 x1 x2 x3 x4 x5 x6 x7 hR, if_neg (show ¬ (vpos j).val < 703 by show ¬ 703 + j.val < 703; omega),
    nll_apply x0 x1 x2 x3 x4 x5 x6 x7 hR]

/-- The number of predicting positions: 4 · 320. -/
theorem count_apply (hR : Cert.Spec.InRange x1 x2) (i : S_.Idx) : val_main_v38 (F := Ideal) x2 i = 1280#32 := by
  classical
  have hv : ∀ (b : Fin 4) (t : Fin 1023),
      (val_main_v37 (F := Ideal) x2 (ix2 b t)).toNat = if t.val < 703 then 0 else 1 := by
    intro b t
    rw [val_main_v37_apply, toNat_setWidth_bit, valid_apply x1 x2 hR]
    by_cases h : t.val < 703
    · rw [if_pos h, if_pos h]; rfl
    · rw [if_neg h, if_neg h]; rfl
  have hb : ∀ b : Fin 4, ∑ t : Fin 1023, (val_main_v37 (F := Ideal) x2 (ix2 b t)).toNat = 320 := by
    intro b
    rw [sum_split (fun t : Fin 1023 => (val_main_v37 (F := Ideal) x2 (ix2 b t)).toNat)
      (fun t ht => by rw [hv, if_pos ht])]
    rw [Finset.sum_congr rfl (fun j _ => show (val_main_v37 (F := Ideal) x2 (ix2 b (vpos j))).toNat = 1 by
      rw [hv, if_neg (show ¬ (vpos j).val < 703 by show ¬ 703 + j.val < 703; omega)])]
    simp
  have hsum : ∑ q : S4x1023.Idx, (val_main_v37 (F := Ideal) x2 q).toNat = 1280 := by
    rw [sum_idx2, Finset.sum_congr rfl (fun b _ => hb b)]
    simp
  unfold val_main_v38
  rw [Host.reduce_eq_fold, Finset.filter_true_of_mem (fun _ _ => funext fun a => a.elim0)]
  show Finset.fold IntOp.addi 0#32 (val_main_v37 (F := Ideal) x2) Finset.univ = 1280#32
  apply BitVec.eq_of_toNat_eq
  rw [toNat_fold_addi _ _ (by rw [hsum]; decide), hsum]
  rfl

/-- The reference's logits are the specification's. -/
theorem logits_eq (hR : Cert.Spec.InRange x1 x2) :
    (val_main_v22 (F := Ideal) x0 x1 x2 x3 x4 x5 x6 x7 : S4x1024x32000.Idx → EReal) = Cert.Spec.logits x0 x1 x2 x3 x4 x5 x6 x7 := by
  funext i
  obtain ⟨b, l, v, rfl⟩ : ∃ b l v, i = ix3 b l v := ⟨_, _, _, eq_ix3 i⟩
  exact logits_apply x0 x1 x2 x3 x4 x5 x6 x7 hR b l v

/-- The reference's loss is the specification's. -/
theorem loss_eq (hR : Cert.Spec.InRange x1 x2) :
    (val_main_v40 (F := Ideal) x0 x1 x2 x3 x4 x5 x6 x7 : S_.Idx → EReal) = Cert.Spec.lossArr x0 x1 x2 x3 x4 x5 x6 x7 := by
  funext i
  rw [val_main_v40_apply]
  show Ideal.div (val_main_v36 (F := Ideal) x0 x1 x2 x3 x4 x5 x6 x7 i : EReal) (val_main_v39 (F := Ideal) x2 i)
    = Cert.Spec.loss x0 x1 x2 x3 x4 x5 x6 x7
  rw [lossSum_apply x0 x1 x2 x3 x4 x5 x6 x7 hR, val_main_v39_apply, count_apply x1 x2 hR]
  unfold Cert.Spec.loss
  refine congrArg (Ideal.div _) ?_
  show (((1280#32 : BitVec 32).toInt : ℝ) : EReal) = ((1280 : ℝ) : EReal)
  have h : (1280#32 : BitVec 32).toInt = 1280 := by decide
  rw [h]
  norm_num

end Cert.ReferenceIdeal.RefValue

end
-- ==== Proof.PreFacts.lean ====
/-
  What the precondition says, decoded: the printed predicate is all ones exactly when every float input is finite
  (so, over the extended reals, a real number) and every prompt and answer token id lies in [0, 32000).

  The predicate is a conjunction of eight "for all entries" statements. Six say |x| < +∞ of a float array: over
  the extended reals |x| = max x (-x) is +∞ at both infinities, so the strict inequality leaves only the reals.
  Two say 0 ≤ w and w < 32000 of a 32-bit word read as a signed integer: a non-negative signed word is its own
  unsigned value, so that value is below 32000.
-/
import proofs.«417710_j44341242364213_2_alg».proof.Pre_finite_inputs
import proofs.«417710_j44341242364213_2_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

/-- The scalar shape has exactly one index. -/
instance : Subsingleton Cert.Pre_finite_inputs.S_.Idx := ⟨fun a b => funext fun d => d.elim0⟩

/-- The pattern with sign 0, all-ones exponent and zero fraction denotes +∞. -/
theorem inf_bits : Ideal.ofBits .f32 0x7F800000#32 = (⊤ : EReal) := by
  simp [Ideal.ofBits, Ideal.ieee]

/-- An extended real whose absolute value max x (-x) is strictly below +∞ is a real number: at x = -∞ and at
    x = +∞ the maximum is +∞ itself. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- A 32-bit word that, read as a signed integer, is at least 0 and below 32000 has unsigned value below 32000:
    the signed reading of a word with its top bit set is negative, so the top bit is clear and the two readings
    agree. -/
theorem range_of_cmp (w : BitVec 32) (h0 : IntOp.cmpi .sge w 0#32 = 1#1) (h1 : IntOp.cmpi .slt w 32000#32 = 1#1) :
    w.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  rw [BitVec.toInt_eq_toNat_cond] at h0 h1
  split at h0 <;> omega

open Cert.Pre_finite_inputs in
/-- "All entries of |x| are below +∞", for a float array of any shape: every entry of x is real. -/
theorem finite_all {s : Shape} {axes : List (Fin s.rank)} (x : s.Idx → EReal)
    (hb : S_.BroadcastsInDim s (![] : Fin 0 → Fin s.rank)) (hr : s.ReducesTo axes S_) (h0 : 0 < S_.numel)
    (e : Host.reduce IntOp.andi
        (cmpf (F := Ideal) (φ := .f32) .olt (Host.absf x) (broadcastInDim s ![] hb (constant S_ .f32 0x7F800000#32)))
        (constantI S_ 1 1#1) hr h0 ix0 = 1#1) (i : s.Idx) : ∃ r : ℝ, x i = (r : EReal) := by
  have t := Host.reduce_andi_all _ _ hr h0 ix0 e i
  apply real_of_abs_lt
  rw [← inf_bits]
  exact t

open Cert.Pre_finite_inputs in
/-- "All entries w satisfy 0 ≤ w and w < 32000 as signed words", for a word array of any shape: every entry's
    unsigned value is below 32000. -/
theorem range_all {s : Shape} {axes : List (Fin s.rank)} (x : s.Idx → BitVec 32)
    (hb : S_.BroadcastsInDim s (![] : Fin 0 → Fin s.rank)) (hr : s.ReducesTo axes S_) (h0 : 0 < S_.numel)
    (e : Host.reduce IntOp.andi
        (andi (cmpi .sge x (broadcastInDim s ![] hb (constantI S_ 32 0#32)))
          (cmpi .slt x (broadcastInDim s ![] hb (constantI S_ 32 32000#32))))
        (constantI S_ 1 1#1) hr h0 ix0 = 1#1) (i : s.Idx) : (x i).toNat < 32000 := by
  have t := Host.reduce_andi_all _ _ hr h0 ix0 e i
  obtain ⟨p, q⟩ := IntOp.andi_eq_one.1 t
  exact range_of_cmp _ p q

/-- From the printed precondition at the ideal instance: the float inputs are real arrays, the token ids in range. -/
theorem decode [Cert.Pre_finite_inputs.Facts]
    (a0 : Cert.Spec.Simg.Idx → EReal) (a1 : Cert.Spec.Spid.Idx → BitVec 32) (a2 : Cert.Spec.Said.Idx → BitVec 32)
    (a3 : Cert.Spec.Spw.Idx → EReal) (a4 : Cert.Spec.Spb.Idx → EReal) (a5 a6 : Cert.Spec.Stab.Idx → EReal) (a7 : Cert.Spec.Shb.Idx → EReal)
    (h : Cert.Pre_finite_inputs.fn (F := Ideal) a0 a1 a2 a3 a4 a5 a6 a7 = (fun _ => 1#1)) :
    Cert.Spec.Finite a0 a3 a4 a5 a6 a7 ∧ Cert.Spec.InRange a1 a2 := by
  have h0 := congrFun h ValueIdx.ix0
  dsimp only [Cert.Pre_finite_inputs.fn, Cert.Pre_finite_inputs.fn_part1, Cert.Pre_finite_inputs.fn_part2] at h0
  -- the conjunction of the eight "for all" statements, in the order the predicate forms it
  simp only [Idealize.ShloMosaic.andi, IntOp.andi_eq_one] at h0
  obtain ⟨⟨⟨⟨⟨⟨⟨e0, e3⟩, e4⟩, e5⟩, e6⟩, e7⟩, e1⟩, e2⟩ := h0
  exact ⟨⟨finite_all a0 _ _ _ e0, finite_all a3 _ _ _ e3, finite_all a4 _ _ _ e4, finite_all a5 _ _ _ e5,
      finite_all a6 _ _ _ e6, finite_all a7 _ _ _ e7⟩,
    ⟨range_all a1 _ _ _ e1, range_all a2 _ _ _ e2⟩⟩

end Cert.PreFacts

end
-- ==== Proof.lean ====
/-
  The certificate: the kernel's program — a projector matmul region, two embedding look-ups, and the vocabulary
  head fused with an online soft-max cross-entropy — against the reference's one-shot formula, over the extended
  reals, on inputs whose float entries are finite and whose token ids are rows of the table.

  * The three frames. Each of the kernel's two programs (the word-level one and its idealization: the same text at
    two float instances) is run region by region: every grid point's body leaves what the proof data say, the
    pipeline's write-backs assemble the arrays, the host stretches between are applied to the buffers; no step
    writes an argument. The reference is straight-line host code: its generated run.
  * The idealization rewrote nothing: its conjunct is trivial.
  * The values. Both programs' logits are  Σ_d hidden[b, l, d] · hw[v, d] + hb[v]  of one hidden array (projected
    image rows, then the prompt's and the answer's rows of the embedding table). The kernel's loss folds each row's
    logits tile by tile into a running maximum, a rescaled running sum of exponentials and the target's logit; after
    the last tile these are the row's maximum M, Σ exp(z - M) and z_y, and  M + log Σ exp(z - M) - z_y  is the
    reference's  -((z_y - M) - log Σ exp(z - M)).  With every id in range the 4 · 320 predicting positions are
    exactly the valid ones, so both means divide the same sum by 1280.
-/
import proofs.«417710_j44341242364213_2_alg».proof.Defs
import proofs.«417710_j44341242364213_2_alg».proof.Proof.Gen.Kernel
import proofs.«417710_j44341242364213_2_alg».proof.Proof.Gen.KernelIdeal
import proofs.«417710_j44341242364213_2_alg».proof.Proof.Gen.ReferenceIdeal
import proofs.«417710_j44341242364213_2_alg».proof.Proof.Gen.Pre_finite_inputs
import proofs.«417710_j44341242364213_2_alg».proof.Proof.K.Run
import proofs.«417710_j44341242364213_2_alg».proof.Proof.KI.Run
import proofs.«417710_j44341242364213_2_alg».proof.Proof.KI.Value
import proofs.«417710_j44341242364213_2_alg».proof.Proof.Ref.Value
import proofs.«417710_j44341242364213_2_alg».proof.Proof.Ref.RunP
import proofs.«417710_j44341242364213_2_alg».proof.Proof.PreFacts
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- So does its idealization: the same account at the ideal instance. -/
theorem frame_ki : Cert.frame_KernelIdeal := fun m ρ _ => Cert.KernelIdeal.Hand.frame (F := Ideal) m ρ

/-- The reference is host code only: its run, the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the specification's loss and logits of their (agreeing) arguments. -/
theorem algebraic : Cert.algebraic_KernelIdeal_ReferenceIdeal := by
  intro m ρ m' ρ' hpre hagree
  have hdec := fun c => Cert.PreFacts.decode _ _ _ _ _ _ _ _ (hpre c)
  refine ⟨fun c => Cert.Spec.lossArr (Cert.KernelIdeal.Hand.a_img m c) (Cert.KernelIdeal.Hand.a_pid m c) (Cert.KernelIdeal.Hand.a_aid m c)
      (Cert.KernelIdeal.Hand.a_pw m c) (Cert.KernelIdeal.Hand.a_pb m c) (Cert.KernelIdeal.Hand.a_emb m c) (Cert.KernelIdeal.Hand.a_hw m c) (Cert.KernelIdeal.Hand.a_hb m c),
    fun c => Cert.Spec.logits (Cert.KernelIdeal.Hand.a_img m c) (Cert.KernelIdeal.Hand.a_pid m c) (Cert.KernelIdeal.Hand.a_aid m c)
      (Cert.KernelIdeal.Hand.a_pw m c) (Cert.KernelIdeal.Hand.a_pb m c) (Cert.KernelIdeal.Hand.a_emb m c) (Cert.KernelIdeal.Hand.a_hw m c) (Cert.KernelIdeal.Hand.a_hb m c), ?_, ?_⟩
  · refine (θ_run Cert.KernelIdeal.defs _ _).mono (fun r h c => ?_) (Cert.KernelIdeal.Hand.run_all (F := Ideal) m ρ)
    have hu := fun (b : Ref Cert.KernelIdeal.sig .tc) (hb : ¬ (Proc.devRef .tc b : DevRef Cert.KernelIdeal.τ Cert.KernelIdeal.sig).isScoped) =>
      h c _ (Cert.KernelIdeal.Hand.mem_uc b hb)
    refine ⟨(hu Cert.KernelIdeal.main_v23 (by decide)).trans (Cert.KernelIdeal.Hand.kernel_loss m c (hdec c).2 (hdec c).1),
      (hu Cert.KernelIdeal.main_v24 (by decide)).trans (Cert.KernelIdeal.Hand.kernel_logits m c (hdec c).2),
      (hu Cert.KernelIdeal.main_arg0 (by decide)).trans (Cert.KernelIdeal.Hand.W8_main_arg0 m c),
      (hu Cert.KernelIdeal.main_arg1 (by decide)).trans (Cert.KernelIdeal.Hand.W8_main_arg1 m c),
      (hu Cert.KernelIdeal.main_arg2 (by decide)).trans (Cert.KernelIdeal.Hand.W8_main_arg2 m c),
      (hu Cert.KernelIdeal.main_arg3 (by decide)).trans (Cert.KernelIdeal.Hand.W8_main_arg3 m c),
      (hu Cert.KernelIdeal.main_arg4 (by decide)).trans (Cert.KernelIdeal.Hand.W8_main_arg4 m c),
      (hu Cert.KernelIdeal.main_arg5 (by decide)).trans (Cert.KernelIdeal.Hand.W8_main_arg5 m c),
      (hu Cert.KernelIdeal.main_arg6 (by decide)).trans (Cert.KernelIdeal.Hand.W8_main_arg6 m c),
      (hu Cert.KernelIdeal.main_arg7 (by decide)).trans (Cert.KernelIdeal.Hand.W8_main_arg7 m c)⟩
  · refine (θ_run Cert.ReferenceIdeal.defs _ _).mono (fun r h c => ?_) (Cert.ReferenceIdeal.ValueP.run (F := Ideal) m' ρ')
    obtain ⟨e0, e1, e2, e3, e4, e5, e6, e7⟩ := hagree c
    have hR' : Cert.Spec.InRange (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) := by
      rw [e1, e2]; exact (hdec c).2
    refine ⟨?_, ?_, (h c).2.2⟩
    · rw [(h c).1, Cert.ReferenceIdeal.RefValue.loss_eq _ _ _ _ _ _ _ _ hR', e0, e1, e2, e3, e4, e5, e6, e7]
    · rw [(h c).2.1, Cert.ReferenceIdeal.RefValue.logits_eq _ _ _ _ _ _ _ _ hR', e0, e1, e2, e3, e4, e5, e6, e7]

/-- The certificate's claim. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
